-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768 : Shape := ⟨1, ![32768]⟩
abbrev S8x1024x1024 : Shape := ⟨3, ![8, 1024, 1024]⟩
abbrev S8x1024 : Shape := ⟨2, ![8, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg1 : IVec S32768 32) (main_v13 : IVec S_ 1) (main_v15 : IVec S32768 1) (main_c_5 : IVec S_ 32) : IVec S_ 1 :=
  let main_v16 : IVec S32768 32 := broadcastInDim S32768 ![] bcast_S_S32768 main_c_5
  let main_v17 : IVec S32768 1 := cmpi .slt main_arg1 main_v16
  let main_v18 : IVec S32768 1 := andi main_v15 main_v17
  let main_c_6 : IVec S_ 1 := constantI S_ 1 1#1
  let main_v19 : IVec S_ 1 := (fun x v => Host.reduce IntOp.andi x v reducesTo_S32768_S_d0 h_S_) main_v18 main_c_6
  let main_v20 : IVec S_ 1 := andi main_v13 main_v19
  main_v20

def fn {F : FTy → Type} [FloatOps F] (main_arg0 : FVec F S32768x1024 .f32) (main_arg1 : IVec S32768 32) (main_arg2 : FVec F S8x1024x1024 .f32) (main_arg3 : FVec F S8x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S8x1024x1024 .f32 := Host.absf main_arg2
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_c_4 : IVec S_ 32 := constantI S_ 32 0#32
  let main_v14 : IVec S32768 32 := broadcastInDim S32768 ![] bcast_S_S32768 main_c_4
  let main_v15 : IVec S32768 1 := cmpi .sge main_arg1 main_v14
  let main_c_5 : IVec S_ 32 := constantI S_ 32 8#32
  fn_part1 (F := F) main_arg1 main_v13 main_v15 main_c_5
-- ==== Kernel.lean ====
abbrev S32768x1024 : Shape := ⟨2, ![32768, 1024]⟩
abbrev S32768 : Shape := ⟨1, ![32768]⟩
abbrev S8x1024x1024 : Shape := ⟨3, ![8, 1024, 1024]⟩
abbrev S8x1024 : Shape := ⟨2, ![8, 1024]⟩
abbrev S_ : Shape := ⟨0, ![]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S1 : Shape := ⟨1, ![1]⟩
abbrev S7 : Shape := ⟨1, ![7]⟩
abbrev S1x1 : Shape := ⟨2, ![1, 1]⟩
abbrev S72 : Shape := ⟨1, ![72]⟩
abbrev S72x1 : Shape := ⟨2, ![72, 1]⟩
abbrev S72x8 : Shape := ⟨2, ![72, 8]⟩
abbrev S36864x1024 : Shape := ⟨2, ![36864, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 188
  | .vmem => 6
  | .smem => 1
  | _ => 0

abbrev hbmTy0_0 (i : Nat) : BufTy := match i % 128 with
  | 0 => ⟨S32768x1024, .f32⟩
  | 1 => ⟨S32768, .i32⟩
  | 2 => ⟨S8x1024x1024, .f32⟩
  | 3 => ⟨S8x1024, .f32⟩
  | 4 => ⟨S_, .i32⟩
  | 5 => ⟨S_, .i32⟩
  | 6 => ⟨S_, .i32⟩
  | 7 => ⟨S32768, .i32⟩
  | 8 => ⟨S32768, .i32⟩
  | 9 => ⟨S_, .i32⟩
  | 10 => ⟨S32768, .i32⟩
  | 11 => ⟨S32768, .i32⟩
  | 12 => ⟨S32768, .i32⟩
  | 13 => ⟨S32768, .i32⟩
  | 14 => ⟨S32768, .i32⟩
  | 15 => ⟨S_, .i32⟩
  | 16 => ⟨S32768, .i32⟩
  | 17 => ⟨S32768, .i1⟩
  | 18 => ⟨S_, .i32⟩
  | 19 => ⟨S32768, .i32⟩
  | 20 => ⟨S32768, .i32⟩
  | 21 => ⟨S32768, .i32⟩
  | 22 => ⟨S32768x1, .i32⟩
  | 23 => ⟨S32768, .i32⟩
  | 24 => ⟨S8, .i32⟩
  | 25 => ⟨S32768x1, .i32⟩
  | 26 => ⟨S1x8, .i32⟩
  | 27 => ⟨S32768x8, .i32⟩
  | 28 => ⟨S32768x8, .i32⟩
  | 29 => ⟨S32768x8, .i1⟩
  | 30 => ⟨S32768x8, .i32⟩
  | 31 => ⟨S_, .i32⟩
  | 32 => ⟨S8, .i32⟩
  | 33 => ⟨S_, .i32⟩
  | 34 => ⟨S1, .i32⟩
  | 35 => ⟨S_, .i32⟩
  | 36 => ⟨S_, .i32⟩
  | 37 => ⟨S8, .i32⟩
  | 38 => ⟨S7, .i32⟩
  | 39 => ⟨S8, .i32⟩
  | 40 => ⟨S_, .i32⟩
  | 41 => ⟨S8, .i32⟩
  | 42 => ⟨S8, .i32⟩
  | 43 => ⟨S_, .i32⟩
  | 44 => ⟨S_, .i32⟩
  | 45 => ⟨S8, .i32⟩
  | 46 => ⟨S8, .i32⟩
  | 47 => ⟨S8, .i32⟩
  | 48 => ⟨S_, .i32⟩
  | 49 => ⟨S8, .i32⟩
  | 50 => ⟨S8, .i1⟩
  | 51 => ⟨S8, .i32⟩
  | 52 => ⟨S8, .i32⟩
  | 53 => ⟨S_, .i32⟩
  | 54 => ⟨S8, .i32⟩
  | 55 => ⟨S8, .i1⟩
  | 56 => ⟨S8, .i1⟩
  | 57 => ⟨S_, .i32⟩
  | 58 => ⟨S8, .i32⟩
  | 59 => ⟨S8, .i32⟩
  | 60 => ⟨S8, .i32⟩
  | 61 => ⟨S_, .i32⟩
  | 62 => ⟨S8, .i32⟩
  | 63 => ⟨S8, .i32⟩
  | 64 => ⟨S_, .i32⟩
  | 65 => ⟨S1, .i32⟩
  | 66 => ⟨S_, .i32⟩
  | 67 => ⟨S_, .i32⟩
  | 68 => ⟨S8, .i32⟩
  | 69 => ⟨S7, .i32⟩
  | 70 => ⟨S8, .i32⟩
  | 71 => ⟨S_, .i32⟩
  | 72 => ⟨S1, .i32⟩
  | 73 => ⟨S_, .i32⟩
  | 74 => ⟨S_, .i32⟩
  | 75 => ⟨S8, .i32⟩
  | 76 => ⟨S7, .i32⟩
  | 77 => ⟨S8, .i32⟩
  | 78 => ⟨S32768, .i32⟩
  | 79 => ⟨S_, .i32⟩
  | 80 => ⟨S32768, .i32⟩
  | 81 => ⟨S32768, .i1⟩
  | 82 => ⟨S_, .i32⟩
  | 83 => ⟨S32768, .i32⟩
  | 84 => ⟨S32768, .i32⟩
  | 85 => ⟨S32768, .i32⟩
  | 86 => ⟨S32768x1, .i32⟩
  | 87 => ⟨S1, .i32⟩
  | 88 => ⟨S_, .i32⟩
  | 89 => ⟨S32768x1, .i32⟩
  | 90 => ⟨S32768x1, .i1⟩
  | 91 => ⟨S1x1, .i32⟩
  | 92 => ⟨S32768x1, .i32⟩
  | 93 => ⟨S32768x1, .i1⟩
  | 94 => ⟨S32768x1, .i1⟩
  | 95 => ⟨S_, .i1⟩
  | 96 => ⟨S32768, .i1⟩
  | 97 => ⟨S32768, .i32⟩
  | 98 => ⟨S_, .i32⟩
  | 99 => ⟨S32768, .i32⟩
  | 100 => ⟨S32768, .i32⟩
  | 101 => ⟨S32768, .i32⟩
  | 102 => ⟨S_, .i32⟩
  | 103 => ⟨S32768, .i32⟩
  | 104 => ⟨S32768, .i1⟩
  | 105 => ⟨S_, .i32⟩
  | 106 => ⟨S32768, .i32⟩
  | 107 => ⟨S32768, .i32⟩
  | 108 => ⟨S32768, .i32⟩
  | 109 => ⟨S32768x1, .i32⟩
  | 110 => ⟨S1, .i32⟩
  | 111 => ⟨S_, .i32⟩
  | 112 => ⟨S32768x1, .i32⟩
  | 113 => ⟨S32768x1, .i1⟩
  | 114 => ⟨S1x1, .i32⟩
  | 115 => ⟨S32768x1, .i32⟩
  | 116 => ⟨S32768x1, .i1⟩
  | 117 => ⟨S32768x1, .i1⟩
  | 118 => ⟨S_, .i1⟩
  | 119 => ⟨S32768, .i1⟩
  | 120 => ⟨S32768, .i32⟩
  | 121 => ⟨S_, .i32⟩
  | 122 => ⟨S32768, .i32⟩
  | 123 => ⟨S32768, .i32⟩
  | 124 => ⟨S32768, .i32⟩
  | 125 => ⟨S72, .i32⟩
  | 126 => ⟨S72x1, .i32⟩
  | 127 => ⟨S1x8, .i32⟩
  | _ => ⟨S32768x1024, .f32⟩

abbrev hbmTy0_1 (i : Nat) : BufTy := match i % 128 with
  | 0 => ⟨S72x8, .i32⟩
  | 1 => ⟨S72x8, .i32⟩
  | 2 => ⟨S72x8, .i1⟩
  | 3 => ⟨S72x8, .i32⟩
  | 4 => ⟨S_, .i32⟩
  | 5 => ⟨S72, .i32⟩
  | 6 => ⟨S_, .i32⟩
  | 7 => ⟨S72, .i32⟩
  | 8 => ⟨S72, .i32⟩
  | 9 => ⟨S_, .i32⟩
  | 10 => ⟨S_, .i32⟩
  | 11 => ⟨S_, .i32⟩
  | 12 => ⟨S72, .i32⟩
  | 13 => ⟨S72, .i32⟩
  | 14 => ⟨S_, .i32⟩
  | 15 => ⟨S72, .i32⟩
  | 16 => ⟨S32768x1024, .bf16⟩
  | 17 => ⟨S_, .i32⟩
  | 18 => ⟨S32768, .i32⟩
  | 19 => ⟨S32768, .i1⟩
  | 20 => ⟨S_, .i32⟩
  | 21 => ⟨S32768, .i32⟩
  | 22 => ⟨S32768, .i32⟩
  | 23 => ⟨S32768, .i32⟩
  | 24 => ⟨S32768x1, .i32⟩
  | 25 => ⟨S32768x1024, .bf16⟩
  | 26 => ⟨S_, .bf16⟩
  | 27 => ⟨S36864x1024, .bf16⟩
  | 28 => ⟨S_, .i32⟩
  | 29 => ⟨S32768, .i32⟩
  | 30 => ⟨S32768, .i1⟩
  | 31 => ⟨S_, .i32⟩
  | 32 => ⟨S32768, .i32⟩
  | 33 => ⟨S32768, .i32⟩
  | 34 => ⟨S32768, .i32⟩
  | 35 => ⟨S32768x1, .i32⟩
  | 36 => ⟨S36864x1024, .bf16⟩
  | 37 => ⟨S8x1024x1024, .f32⟩
  | 38 => ⟨S8x1024x1024, .bf16⟩
  | 39 => ⟨S36864x1024, .f32⟩
  | 40 => ⟨S_, .i32⟩
  | 41 => ⟨S32768, .i32⟩
  | 42 => ⟨S32768, .i1⟩
  | 43 => ⟨S_, .i32⟩
  | 44 => ⟨S32768, .i32⟩
  | 45 => ⟨S32768, .i32⟩
  | 46 => ⟨S32768, .i32⟩
  | 47 => ⟨S32768x1, .i32⟩
  | 48 => ⟨S32768x1024, .f32⟩
  | 49 => ⟨S_, .f32⟩
  | 50 => ⟨S32768x1024, .f32⟩
  | 51 => ⟨S_, .i32⟩
  | 52 => ⟨S32768, .i32⟩
  | 53 => ⟨S32768, .i1⟩
  | 54 => ⟨S_, .i32⟩
  | 55 => ⟨S32768, .i32⟩
  | 56 => ⟨S32768, .i32⟩
  | 57 => ⟨S32768, .i32⟩
  | 58 => ⟨S32768x1, .i32⟩
  | 59 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S8x1024x1024, .bf16⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .smem, ⟨0, _⟩ => ⟨S72, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1_0 : Ref sig .tc := ⟨.hbm, 13, rfl⟩
abbrev main_v1 : Ref sig .tc := ⟨.hbm, 14, rfl⟩
abbrev main_c_1 : Ref sig .tc := ⟨.hbm, 15, rfl⟩
abbrev main_v2 : Ref sig .tc := ⟨.hbm, 16, rfl⟩
abbrev main_v3 : Ref sig .tc := ⟨.hbm, 17, rfl⟩
abbrev main_c_2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_call2_call0_c : Ref sig .tc := ⟨.hbm, 35, rfl⟩
abbrev main_call2_call0_v0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_call3_v5 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_c : Ref sig .tc := ⟨.hbm, 53, rfl⟩
abbrev main_call3_v9 : Ref sig .tc := ⟨.hbm, 54, rfl⟩
abbrev main_call3_v10 : Ref sig .tc := ⟨.hbm, 55, rfl⟩
abbrev main_call3_v11 : Ref sig .tc := ⟨.hbm, 56, rfl⟩
abbrev main_call3_c_0 : Ref sig .tc := ⟨.hbm, 57, rfl⟩
abbrev main_call3_v12 : Ref sig .tc := ⟨.hbm, 58, rfl⟩
abbrev main_call3_v13 : Ref sig .tc := ⟨.hbm, 59, rfl⟩
abbrev main_v23 : Ref sig .tc := ⟨.hbm, 60, rfl⟩
abbrev main_c_7 : Ref sig .tc := ⟨.hbm, 61, rfl⟩
abbrev main_v24 : Ref sig .tc := ⟨.hbm, 62, rfl⟩
abbrev main_v25 : Ref sig .tc := ⟨.hbm, 63, rfl⟩
abbrev main_c_8 : Ref sig .tc := ⟨.hbm, 64, rfl⟩
abbrev main_v26 : Ref sig .tc := ⟨.hbm, 65, rfl⟩
abbrev main_call4_call0_c : Ref sig .tc := ⟨.hbm, 66, rfl⟩
abbrev main_call4_call0_v0 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_c_9 : Ref sig .tc := ⟨.hbm, 71, rfl⟩
abbrev main_v30 : Ref sig .tc := ⟨.hbm, 72, rfl⟩
abbrev main_call5_call0_c : Ref sig .tc := ⟨.hbm, 73, rfl⟩
abbrev main_call5_call0_v0 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_call6_c : Ref sig .tc := ⟨.hbm, 79, rfl⟩
abbrev main_call6_v0 : Ref sig .tc := ⟨.hbm, 80, rfl⟩
abbrev main_call6_v1 : Ref sig .tc := ⟨.hbm, 81, rfl⟩
abbrev main_call6_c_0 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_c_1 : Ref sig .tc := ⟨.hbm, 87, rfl⟩
abbrev main_call6_c_2 : Ref sig .tc := ⟨.hbm, 88, rfl⟩
abbrev main_call6_v6 : Ref sig .tc := ⟨.hbm, 89, rfl⟩
abbrev main_call6_v7 : Ref sig .tc := ⟨.hbm, 90, rfl⟩
abbrev main_call6_v8 : Ref sig .tc := ⟨.hbm, 91, rfl⟩
abbrev main_call6_v9 : Ref sig .tc := ⟨.hbm, 92, rfl⟩
abbrev main_call6_v10 : Ref sig .tc := ⟨.hbm, 93, rfl⟩
abbrev main_call6_v11 : Ref sig .tc := ⟨.hbm, 94, rfl⟩
abbrev main_call6_c_3 : Ref sig .tc := ⟨.hbm, 95, rfl⟩
abbrev main_call6_v12 : Ref sig .tc := ⟨.hbm, 96, rfl⟩
abbrev main_call6_v13 : Ref sig .tc := ⟨.hbm, 97, rfl⟩
abbrev main_call6_c_4 : Ref sig .tc := ⟨.hbm, 98, rfl⟩
abbrev main_call6_v14 : Ref sig .tc := ⟨.hbm, 99, rfl⟩
abbrev main_v35 : Ref sig .tc := ⟨.hbm, 100, rfl⟩
abbrev main_v36 : Ref sig .tc := ⟨.hbm, 101, rfl⟩
abbrev main_call7_c : Ref sig .tc := ⟨.hbm, 102, rfl⟩
abbrev main_call7_v0 : Ref sig .tc := ⟨.hbm, 103, rfl⟩
abbrev main_call7_v1 : Ref sig .tc := ⟨.hbm, 104, rfl⟩
abbrev main_call7_c_0 : Ref sig .tc := ⟨.hbm, 105, rfl⟩
abbrev main_call7_v2 : Ref sig .tc := ⟨.hbm, 106, rfl⟩
abbrev main_call7_v3 : Ref sig .tc := ⟨.hbm, 107, rfl⟩
abbrev main_call7_v4 : Ref sig .tc := ⟨.hbm, 108, rfl⟩
abbrev main_call7_v5 : Ref sig .tc := ⟨.hbm, 109, rfl⟩
abbrev main_call7_c_1 : Ref sig .tc := ⟨.hbm, 110, rfl⟩
abbrev main_call7_c_2 : Ref sig .tc := ⟨.hbm, 111, rfl⟩
abbrev main_call7_v6 : Ref sig .tc := ⟨.hbm, 112, rfl⟩
abbrev main_call7_v7 : Ref sig .tc := ⟨.hbm, 113, rfl⟩
abbrev main_call7_v8 : Ref sig .tc := ⟨.hbm, 114, rfl⟩
abbrev main_call7_v9 : Ref sig .tc := ⟨.hbm, 115, rfl⟩
abbrev main_call7_v10 : Ref sig .tc := ⟨.hbm, 116, rfl⟩
abbrev main_call7_v11 : Ref sig .tc := ⟨.hbm, 117, rfl⟩
abbrev main_call7_c_3 : Ref sig .tc := ⟨.hbm, 118, rfl⟩
abbrev main_call7_v12 : Ref sig .tc := ⟨.hbm, 119, rfl⟩
abbrev main_call7_v13 : Ref sig .tc := ⟨.hbm, 120, rfl⟩
abbrev main_call7_c_4 : Ref sig .tc := ⟨.hbm, 121, rfl⟩
abbrev main_call7_v14 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_c_10 : Ref sig .tc := ⟨.hbm, 132, rfl⟩
abbrev main_v46 : Ref sig .tc := ⟨.hbm, 133, rfl⟩
abbrev main_c_11 : Ref sig .tc := ⟨.hbm, 134, rfl⟩
abbrev main_v47 : Ref sig .tc := ⟨.hbm, 135, rfl⟩
abbrev main_v48 : Ref sig .tc := ⟨.hbm, 136, rfl⟩
abbrev main_c_12 : Ref sig .tc := ⟨.hbm, 137, rfl⟩
abbrev main_c_13 : Ref sig .tc := ⟨.hbm, 138, rfl⟩
abbrev main_call8_v0 : Ref sig .tc := ⟨.hbm, 139, rfl⟩
abbrev main_call8_v1 : Ref sig .tc := ⟨.hbm, 140, rfl⟩
abbrev main_call8_v2 : Ref sig .tc := ⟨.hbm, 141, rfl⟩
abbrev main_call8_v3 : Ref sig .tc := ⟨.hbm, 142, rfl⟩
abbrev main_call8_v4 : Ref sig .tc := ⟨.hbm, 143, rfl⟩
abbrev main_v50 : Ref sig .tc := ⟨.hbm, 144, rfl⟩
abbrev main_c_14 : Ref sig .tc := ⟨.hbm, 145, rfl⟩
abbrev main_v51 : Ref sig .tc := ⟨.hbm, 146, rfl⟩
abbrev main_v52 : Ref sig .tc := ⟨.hbm, 147, rfl⟩
abbrev main_c_15 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_cst : Ref sig .tc := ⟨.hbm, 154, rfl⟩
abbrev main_v58 : Ref sig .tc := ⟨.hbm, 155, rfl⟩
abbrev main_c_16 : Ref sig .tc := ⟨.hbm, 156, rfl⟩
abbrev main_v59 : Ref sig .tc := ⟨.hbm, 157, rfl⟩
abbrev main_v60 : Ref sig .tc := ⟨.hbm, 158, rfl⟩
abbrev main_c_17 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_v68 : Ref sig .tc := ⟨.hbm, 167, rfl⟩
abbrev main_c_18 : Ref sig .tc := ⟨.hbm, 168, rfl⟩
abbrev main_v69 : Ref sig .tc := ⟨.hbm, 169, rfl⟩
abbrev main_v70 : Ref sig .tc := ⟨.hbm, 170, rfl⟩
abbrev main_c_19 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_cst_20 : Ref sig .tc := ⟨.hbm, 177, rfl⟩
abbrev main_v76 : Ref sig .tc := ⟨.hbm, 178, rfl⟩
abbrev main_c_21 : Ref sig .tc := ⟨.hbm, 179, rfl⟩
abbrev main_v77 : Ref sig .tc := ⟨.hbm, 180, rfl⟩
abbrev main_v78 : Ref sig .tc := ⟨.hbm, 181, rfl⟩
abbrev main_c_22 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v49 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![72], ![false]⟩

abbrev pre0 : Pipeline.Prefetch sig := ⟨1, ![main_v49.idx], fun | 0 => main_v49.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let v2 : Index := Scalar.indexCast v1
  let c0 : Index := 0#32
  let c0_0 : Index := 0#32
  ![v2.toNat, 0, 0]

def k0_off3 (v1 : BitVec 32) : Fin 2 → Nat :=
  let v5 : Index := Scalar.indexCast v1
  let c0_1 : Index := 0#32
  ![v5.toNat, 0]

def k0_chk1 (v1 : BitVec 32) : Prop :=
  (∀ a, (k0_off2 v1) a + S1x1024x1024.size a ≤ S8x1024x1024.size a) ∧
  (∀ a, (k0_off3 v1) a + S1x1024.size a ≤ S8x1024.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x1024x1024.size a ≤ S8x1024x1024.size a := fun v1 k0_hw1 => k0_hw1.1
theorem k0_off3_inb : ∀ (v1 : BitVec 32) (k0_hw1 : k0_chk1 v1), ∀ a, (k0_off3 v1) a + S1x1024.size a ≤ S8x1024.size a := fun v1 k0_hw1 => k0_hw1.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S8_S1x8_1 : S8.BroadcastsInDim S1x8 (![1] : Fin 1 → Fin S1x8.rank)
  bcast_S32768x1_S32768x8_0_1 : S32768x1.BroadcastsInDim S32768x8 (![0, 1] : Fin 2 → Fin S32768x8.rank)
  bcast_S1x8_S32768x8_0_1 : S1x8.BroadcastsInDim S32768x8 (![0, 1] : Fin 2 → Fin S32768x8.rank)
  natLt_1_32 : 1 < 32
  reducesTo_S32768x8_S8_d0 : S32768x8.ReducesTo [0] S8
  h_S_ : 0 < S_.numel
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  slices_S8_S7_0 : S8.Slices ![0] S7
  concatenates_S1_S7_S8_d0 : Shape.Concatenates [S1, S7] S8 0
  bcast_S_S8 : S_.BroadcastsInDim S8 (![] : Fin 0 → Fin S8.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  bcast_S72_S72x1_0 : S72.BroadcastsInDim S72x1 (![0] : Fin 1 → Fin S72x1.rank)
  bcast_S72x1_S72x8_0_1 : S72x1.BroadcastsInDim S72x8 (![0, 1] : Fin 2 → Fin S72x8.rank)
  bcast_S1x8_S72x8_0_1 : S1x8.BroadcastsInDim S72x8 (![0, 1] : Fin 2 → Fin S72x8.rank)
  reducesTo_S72x8_S72_d1 : S72x8.ReducesTo [1] S72
  bcast_S_S72 : S_.BroadcastsInDim S72 (![] : Fin 0 → Fin S72.rank)
  bitsLt_bf16_f32 : FTy.bits .bf16 < FTy.bits .f32
  bcast_S_S36864x1024 : S_.BroadcastsInDim S36864x1024 (![] : Fin 0 → Fin S36864x1024.rank)
  transposes_S8x1024x1024_S8x1024x1024_0_2_1 : S8x1024x1024.Transposes [0, 2, 1] S8x1024x1024
  numel1_S1 : S1.numel = 1
  h_S1x1024x1024 : 0 < S1x1024x1024.numel
  shapeCasts_S1x1024x1024_S1024x1024 : S1x1024x1024.ShapeCasts S1024x1024
  h_S1x1024 : 0 < S1x1024.numel
  shapeCasts_S1x1024_S1024 : S1x1024.ShapeCasts S1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024_S1x1024 : S1024.ShapeCasts S1x1024
  broadcasts_S1x1024_S512x1024 : S1x1024.Broadcasts S512x1024
  bcast_S_S32768x1024 : S_.BroadcastsInDim S32768x1024 (![] : Fin 0 → Fin S32768x1024.rank)
  gather_S32768_S32768x1_S32768_n_0_n_n_0_1_1_wf : GatherDims.WF S32768 S32768x1 S32768 [] [0] [] [0] [] 1 ![1]
  gather_S8_S32768x1_S32768_n_0_n_n_0_1_1_wf : GatherDims.WF S8 S32768x1 S32768 [] [0] [] [0] [] 1 ![1]
  gather_S32768x1024_S32768x1_S32768x1024_1_0_n_n_0_1_11024_wf : GatherDims.WF S32768x1024 S32768x1 S32768x1024 [1] [0] [] [0] [] 1 ![1, 1024]
  scatter_S36864x1024_S32768x1_S32768x1024_1_0_0_1_wf : ScatterDims.WF S36864x1024 S32768x1 S32768x1024 [1] [0] [0] 1
  dot_S512x1024_S1024x1024_S512x1024_1_0_0_1_n_n_wf : DotDims.WF S512x1024 S1024x1024 S512x1024 [1] [0] [0] [1] [] []
  gather_S36864x1024_S32768x1_S32768x1024_1_0_n_n_0_1_11024_wf : GatherDims.WF S36864x1024 S32768x1 S32768x1024 [1] [0] [] [0] [] 1 ![1, 1024]
  scatter_S32768x1024_S32768x1_S32768x1024_1_0_0_1_wf : ScatterDims.WF S32768x1024 S32768x1 S32768x1024 [1] [0] [0] 1
  hrank0 : 0 < grid0.rank
  k0_off1_inb : ∀ i : grid0.Coords, ∀ a, (k0_off1 i) a + S1.size a ≤ S72.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S36864x1024.size a
  hwx0_0 : ∀ i : grid0.Coords, EltTy.bits .bf16 = 32 ∨ (Rect.block (s := S36864x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x1024.size a ≤ S8x1024x1024.size a
  hwx0_1 : ∀ i : grid0.Coords, EltTy.bits .bf16 = 32 ∨ (Rect.block (s := S8x1024x1024) S8x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x1024.size a
  hwx0_2 : ∀ i : grid0.Coords, EltTy.bits .f32 = 32 ∨ (Rect.block (s := S8x1024) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S36864x1024.size a
  hwx0_3 : ∀ i : grid0.Coords, EltTy.bits .f32 = 32 ∨ (Rect.block (s := S36864x1024) S512x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S32768_S32768x1_S32768_n_0_n_n_0_1_1 : GatherDims S32768 S32768x1 S32768 where
  offsetDims := []
  collapsedSliceDims := [0]
  operandBatchingDims := []
  startIndicesBatchingDims := []
  startIndexMap := [0]
  indexVectorDim := 1
  sliceSizes := ![1]
  wf := gather_S32768_S32768x1_S32768_n_0_n_n_0_1_1_wf
def gather_S8_S32768x1_S32768_n_0_n_n_0_1_1 : GatherDims S8 S32768x1 S32768 where
  offsetDims := []
  collapsedSliceDims := [0]
  operandBatchingDims := []
  startIndicesBatchingDims := []
  startIndexMap := [0]
  indexVectorDim := 1
  sliceSizes := ![1]
  wf := gather_S8_S32768x1_S32768_n_0_n_n_0_1_1_wf
def gather_S32768x1024_S32768x1_S32768x1024_1_0_n_n_0_1_11024 : GatherDims S32768x1024 S32768x1 S32768x1024 where
  offsetDims := [1]
  collapsedSliceDims := [0]
  operandBatchingDims := []
  startIndicesBatchingDims := []
  startIndexMap := [0]
  indexVectorDim := 1
  sliceSizes := ![1, 1024]
  wf := gather_S32768x1024_S32768x1_S32768x1024_1_0_n_n_0_1_11024_wf
def scatter_S36864x1024_S32768x1_S32768x1024_1_0_0_1 : ScatterDims S36864x1024 S32768x1 S32768x1024 where
  updateWindowDims := [1]
  insertedWindowDims := [0]
  scatterDimsToOperandDims := [0]
  indexVectorDim := 1
  wf := scatter_S36864x1024_S32768x1_S32768x1024_1_0_0_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def gather_S36864x1024_S32768x1_S32768x1024_1_0_n_n_0_1_11024 : GatherDims S36864x1024 S32768x1 S32768x1024 where
  offsetDims := [1]
  collapsedSliceDims := [0]
  operandBatchingDims := []
  startIndicesBatchingDims := []
  startIndexMap := [0]
  indexVectorDim := 1
  sliceSizes := ![1, 1024]
  wf := gather_S36864x1024_S32768x1_S32768x1024_1_0_n_n_0_1_11024_wf
def scatter_S32768x1024_S32768x1_S32768x1024_1_0_0_1 : ScatterDims S32768x1024 S32768x1 S32768x1024 where
  updateWindowDims := [1]
  insertedWindowDims := [0]
  scatterDimsToOperandDims := [0]
  indexVectorDim := 1
  wf := scatter_S32768x1024_S32768x1_S32768x1024_1_0_0_1_wf

abbrev spec0_0 : Pipeline.WinSpec sig grid0.rank :=
  Pipeline.WinSpec.ofSpec (Memref.whole main_v65) S512x1024.size reads0_0 false false 2 stage0_0 sem0_0 nbuf0_0 hstage0_0

abbrev spec0_1 : Pipeline.WinSpec sig grid0.rank :=
  Pipeline.WinSpec.ofSpec (Memref.whole main_v67) S8x1024x1024.size reads0_1 false true 1 stage0_1 sem0_1 nbuf0_1 hstage0_1

abbrev spec0_2 : Pipeline.WinSpec sig grid0.rank :=
  Pipeline.WinSpec.ofSpec (Memref.whole main_arg3) S8x1024.size reads0_2 false true 1 stage0_2 sem0_2 nbuf0_2 hstage0_2

abbrev spec0_3 : Pipeline.WinSpec sig grid0.rank :=
  Pipeline.WinSpec.ofSpec (Memref.whole main_v68) S512x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32768x1024 : Shape := ⟨2, ![32768, 1024]⟩
abbrev S32768 : Shape := ⟨1, ![32768]⟩
abbrev S8x1024x1024 : Shape := ⟨3, ![8, 1024, 1024]⟩
abbrev S8x1024 : Shape := ⟨2, ![8, 1024]⟩
abbrev S32768x8x1024 : Shape := ⟨3, ![32768, 8, 1024]⟩
abbrev S32768x1x1 : Shape := ⟨3, ![32768, 1, 1]⟩
abbrev S_ : Shape := ⟨0, ![]⟩
abbrev S1 : Shape := ⟨1, ![1]⟩
abbrev S1x1x1 : Shape := ⟨3, ![1, 1, 1]⟩
abbrev S32768x1 : Shape := ⟨2, ![32768, 1]⟩
abbrev S32768x1x1024 : Shape := ⟨3, ![32768, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S8x1024x1024, .f32⟩
  | .hbm, ⟨3, _⟩ => ⟨S8x1024, .f32⟩
  | .hbm, ⟨4, _⟩ => ⟨S32768x8x1024, .f32⟩
  | .hbm, ⟨5, _⟩ => ⟨S32768x1x1, .i32⟩
  | .hbm, ⟨6, _⟩ => ⟨S_, .i32⟩
  | .hbm, ⟨7, _⟩ => ⟨S32768x1x1, .i32⟩
  | .hbm, ⟨8, _⟩ => ⟨S32768x1x1, .i1⟩
  | .hbm, ⟨9, _⟩ => ⟨S_, .i32⟩
  | .hbm, ⟨10, _⟩ => ⟨S32768x1x1, .i32⟩
  | .hbm, ⟨11, _⟩ => ⟨S32768x1x1, .i32⟩
  | .hbm, ⟨12, _⟩ => ⟨S32768x1x1, .i32⟩
  | .hbm, ⟨13, _⟩ => ⟨S1, .i32⟩
  | .hbm, ⟨14, _⟩ => ⟨S_, .i32⟩
  | .hbm, ⟨15, _⟩ => ⟨S32768x1x1, .i32⟩
  | .hbm, ⟨16, _⟩ => ⟨S32768x1x1, .i1⟩
  | .hbm, ⟨17, _⟩ => ⟨S1x1x1, .i32⟩
  | .hbm, ⟨18, _⟩ => ⟨S32768x1x1, .i32⟩
  | .hbm, ⟨19, _⟩ => ⟨S32768x1x1, .i1⟩
  | .hbm, ⟨20, _⟩ => ⟨S32768x1x1, .i1⟩
  | .hbm, ⟨21, _⟩ => ⟨S_, .i1⟩
  | .hbm, ⟨22, _⟩ => ⟨S32768x1, .i1⟩
  | .hbm, ⟨23, _⟩ => ⟨S32768x1x1024, .f32⟩
  | .hbm, ⟨24, _⟩ => ⟨S32768x1x1024, .i1⟩
  | .hbm, ⟨25, _⟩ => ⟨S_, .f32⟩
  | .hbm, ⟨26, _⟩ => ⟨S32768x1x1024, .f32⟩
  | .hbm, ⟨27, _⟩ => ⟨S32768x1x1024, .f32⟩
  | .hbm, ⟨28, _⟩ => ⟨S32768x1024, .f32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩

abbrev nD : Nat := 1
abbrev τ : Topo := Topo.v7x

variable {F : FTy → Type} [FloatOps F]

class Facts₀ : Prop where
  bcast_S32768_S32768x1x1_0 : S32768.BroadcastsInDim S32768x1x1 (![0] : Fin 1 → Fin S32768x1x1.rank)
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  h_S_ : 0 < S_.numel
  bcast_S32768x1_S32768x1x1024_0_1 : S32768x1.BroadcastsInDim S32768x1x1024 (![0, 1] : Fin 2 → Fin S32768x1x1024.rank)
  bcast_S_S32768x1x1024 : S_.BroadcastsInDim S32768x1x1024 (![] : Fin 0 → Fin S32768x1x1024.rank)
  shapeCasts_S32768x1x1024_S32768x1024 : S32768x1x1024.ShapeCasts S32768x1024
  bcast_S_S32768 : S_.BroadcastsInDim S32768 (![] : Fin 0 → Fin S32768.rank)
  bcast_S32768_S32768x1_0 : S32768.BroadcastsInDim S32768x1 (![0] : Fin 1 → Fin S32768x1.rank)
  dot_S32768x1024_S8x1024x1024_S32768x8x1024_1_2_0_01_n_n_wf : DotDims.WF S32768x1024 S8x1024x1024 S32768x8x1024 [1] [2] [0] [0, 1] [] []
  gather_S32768x8x1024_S32768x1x1_S32768x1x1024_2_1_0_0_1_2_111024_wf : GatherDims.WF S32768x8x1024 S32768x1x1 S32768x1x1024 [2] [1] [0] [1] [0] 2 ![1, 1, 1024]
  gather_S8x1024_S32768x1_S32768x1024_1_0_n_n_0_1_11024_wf : GatherDims.WF S8x1024 S32768x1 S32768x1024 [1] [0] [] [0] [] 1 ![1, 1024]

variable [Facts₀]

def dot_S32768x1024_S8x1024x1024_S32768x8x1024_1_2_0_01_n_n : DotDims S32768x1024 S8x1024x1024 S32768x8x1024 where
  lhsContracting := [1]
  rhsContracting := [2]
  lhsNonContracting := [0]
  rhsNonContracting := [0, 1]
  lhsBatch := []
  rhsBatch := []
  wf := dot_S32768x1024_S8x1024x1024_S32768x8x1024_1_2_0_01_n_n_wf
def gather_S32768x8x1024_S32768x1x1_S32768x1x1024_2_1_0_0_1_2_111024 : GatherDims S32768x8x1024 S32768x1x1 S32768x1x1024 where
  offsetDims := [2]
  collapsedSliceDims := [1]
  operandBatchingDims := [0]
  startIndicesBatchingDims := [0]
  startIndexMap := [1]
  indexVectorDim := 2
  sliceSizes := ![1, 1, 1024]
  wf := gather_S32768x8x1024_S32768x1x1_S32768x1x1024_2_1_0_0_1_2_111024_wf
def gather_S8x1024_S32768x1_S32768x1024_1_0_n_n_0_1_11024 : GatherDims S8x1024 S32768x1 S32768x1024 where
  offsetDims := [1]
  collapsedSliceDims := [0]
  operandBatchingDims := []
  startIndicesBatchingDims := []
  startIndexMap := [0]
  indexVectorDim := 1
  sliceSizes := ![1, 1024]
  wf := gather_S8x1024_S32768x1_S32768x1024_1_0_n_n_0_1_11024_wf

class Facts : Prop extends Facts₀ where

variable [Facts]
-- ==== Proof.RefValue.lean ====
/-
  The reference program's result, read at an index over the extended reals.

  The reference contracts every row of x with every one of the eight weight matrices
  (all[n, t, o] = Σ k, x[n, k] · w[t, o, k]), selects along the type axis the matrix named by the row's type word,
  and adds that type's bias row. Both selections first wrap a negative word by adding 8; the first one also masks
  the gathered element by the test 0 ≤ word ≤ 7 and puts a NaN where it fails. For a row whose type word is below 8
  (read as a natural number) the word is non-negative as a signed word, so neither wrap fires, the mask bit is 1 and
  neither clamp moves the start index: the result at (n, o) is Σ k, x[n, k] · w[ty n, o, k] + b[ty n, o].
-/
import proofs.«407422_j80762565034484_3_alg».proof.Proof.RefRead
import Idealize.ShloMosaic.Lib.ValueIdx
import Idealize.ShloMosaic.Lib.Pipeline.Value
import Idealize.ShloMosaic.PureOps.Ideal.Laws
import Idealize.ShloMosaic.Lib.ReduceAll
import Idealize.ShloMosaic.Lib.StableHlo.Predicate

noncomputable section

namespace Cert.ReferenceIdeal.RefValue

open Cert.ReferenceIdeal Cert.ReferenceIdeal.Gen Idealize.ShloMosaic Idealize.ShloMosaic.ValueIdx
open Cert.ReferenceIdeal.ReadP Idealize.ShloMosaic.StableHlo.Predicate

/-! ## A type word below 8 -/

/-- A word below 8 is not negative as a signed word: the comparison with zero gives the bit 0. -/
theorem slt_zero_of_lt {a : BitVec 32} (h : a.toNat < 8) : IntOp.cmpi .slt a 0#32 = 0#1 := by
  apply eq_zero_of_ne_one
  intro e
  have h' := (slt_iff_toNat (a := a) (b := 0#32) (by omega) (by decide)).mp e
  have h0 : (0#32 : BitVec 32).toNat = 0 := rfl
  omega

/-- So the wrap (add 8 to a negative word) leaves it as it is. -/
theorem wrap_eq {a : BitVec 32} (h : a.toNat < 8) :
    Scalar.select (IntOp.cmpi .slt a 0#32) (IntOp.addi a 8#32) a = a := by
  rw [slt_zero_of_lt h, select_zero]

/-- It passes the range test 0 ≤ a ≤ 7 of signed words. -/
theorem in_range {a : BitVec 32} (h : a.toNat < 8) :
    IntOp.andi (IntOp.cmpi .sge a 0#32) (IntOp.cmpi .sle a 7#32) = 1#1 := by
  rw [IntOp.andi_eq_one]
  have h0 : (0#32 : BitVec 32).toNat = 0 := rfl
  have h7 : (7#32 : BitVec 32).toNat = 7 := rfl
  exact ⟨(sge_iff_toNat (a := a) (b := 0#32) (by omega) (by decide)).mpr (by omega),
    (sle_iff_toNat (a := a) (b := 7#32) (by omega) (by decide)).mpr (by omega)⟩

/-- Read as a signed integer and clamped into [0, 7] it is itself. -/
theorem clamp_eq {a : BitVec 32} (h : a.toNat < 8) : min a.toInt.toNat (8 - 1) = a.toNat := by
  rw [toInt_eq_toNat_of_lt (by omega), Int.toNat_natCast]
  omega

/-- A left fold by and from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a (List.mem_cons_self ..), e]
    exact foldl_andi_one f l fun n hn => h n (List.mem_cons_of_mem _ hn)

/-! ## The wrapped start index and the mask -/

/-- The wrapped type word at an index of the [32768, 1, 1] start-index array whose row is n is the type word itself. -/
theorem wrapped_apply (ty : (⟨S32768, .i32⟩ : BufTy).Contents (Elt Ideal)) (i : S32768x1x1.Idx) (n : Fin 32768)
    (hi : idx_main_v1 i = ix1 n) (h : (ty (ix1 n)).toNat < 8) :
    val_main_call0_v4 (F := Ideal) ty i = ty (ix1 n) := by
  rw [val_main_call0_v4_apply, val_main_call0_v1_apply, val_main_call0_v3_apply, val_main_v1_apply,
    val_main_call0_v0_apply, val_main_call0_c_apply, val_main_call0_v2_apply, val_main_call0_c_0_apply, hi]
  exact wrap_eq h

/-- The range test's bit there is 1. -/
theorem mask_elem (ty : (⟨S32768, .i32⟩ : BufTy).Contents (Elt Ideal)) (i : S32768x1x1.Idx) (n : Fin 32768)
    (hi : idx_main_v1 i = ix1 n) (h : (ty (ix1 n)).toNat < 8) :
    val_main_call0_v10 (F := Ideal) ty i = 1#1 := by
  rw [val_main_call0_v10_apply, val_main_call0_v6_apply, val_main_call0_v9_apply, wrapped_apply ty i n hi h,
    val_main_call0_v5_apply, val_main_call0_c_2_apply, val_main_call0_v8_apply, val_main_call0_v7_apply,
    val_main_call0_c_1_apply]
  exact in_range h

/-- The and-reduction of the range test along the last (size one) axis, at row n: every index that reduces into
    row n has row n, so the fold meets only 1s. -/
theorem mask_row (ty : (⟨S32768, .i32⟩ : BufTy).Contents (Elt Ideal)) (j : S32768x1.Idx) (n : Fin 32768)
    (hj : (j 0).val = n.val) (h : (ty (ix1 n)).toNat < 8) :
    val_main_call0_v11 (F := Ideal) ty j = 1#1 := by
  unfold val_main_call0_v11
  rw [Host.reduce_eq_foldl, val_main_call0_c_3_apply]
  refine foldl_andi_one _ _ fun i hi => ?_
  have hd : reducesTo_S32768x1x1_S32768x1_d2.drop i = j := by simpa using (List.mem_filter.1 hi).2
  have h0 : (i 0).val = (j 0).val := by
    rw [← hd]; exact (Shape.ReducesTo.drop_apply_val_of_eq reducesTo_S32768x1x1_S32768x1_d2 i 0 0).symm
  refine mask_elem ty i n (funext fun a => Fin.ext ?_) h
  match a with
  | ⟨0, _⟩ => show (i 0).val = n.val; rw [h0, hj]

/-! ## The two gathers read at an index -/

/-- The batched gather's operand index on the batching axis: the result's row. -/
theorem gather_batched_axis0 (idx : IVec S32768x1x1 32) (n : Fin 32768) (o : Fin 1024) :
    (gather_S32768x8x1024_S32768x1x1_S32768x1x1024_2_1_0_0_1_2_111024.operandIdx (ix3 n 0 o) idx 0).val = n.val := by
  show gather_S32768x8x1024_S32768x1x1_S32768x1x1024_2_1_0_0_1_2_111024.start (ix3 n 0 o) idx 0
    + gather_S32768x8x1024_S32768x1x1_S32768x1x1024_2_1_0_0_1_2_111024.batchCoord (ix3 n 0 o) 0
    + gather_S32768x8x1024_S32768x1x1_S32768x1x1024_2_1_0_0_1_2_111024.offCoord (ix3 n 0 o) 0 = _
  rw [GatherDims.start_batching _ _ _ _ (by decide), GatherDims.offCoord_eq_zero _ _ _ (by decide)]
  simp only [Nat.zero_add, Nat.add_zero]
  unfold GatherDims.batchCoord
  rw [dif_pos (by decide)]
  rfl

/-- On the collapsed axis the start index map names: the start index at the result's row, read signed and clamped
    into [0, 7]. -/
theorem gather_batched_axis1 (idx : IVec S32768x1x1 32) (n : Fin 32768) (o : Fin 1024) :
    (gather_S32768x8x1024_S32768x1x1_S32768x1x1024_2_1_0_0_1_2_111024.operandIdx (ix3 n 0 o) idx 1).val
      = min (idx (ix3 n 0 0)).toInt.toNat (8 - 1) := by
  show gather_S32768x8x1024_S32768x1x1_S32768x1x1024_2_1_0_0_1_2_111024.start (ix3 n 0 o) idx 1
    + gather_S32768x8x1024_S32768x1x1_S32768x1x1024_2_1_0_0_1_2_111024.batchCoord (ix3 n 0 o) 1
    + gather_S32768x8x1024_S32768x1x1_S32768x1x1024_2_1_0_0_1_2_111024.offCoord (ix3 n 0 o) 1 = _
  rw [GatherDims.batchCoord_eq_zero _ _ _ (by decide), GatherDims.offCoord_eq_zero _ _ _ (by decide)]
  simp only [Nat.add_zero]
  unfold GatherDims.start
  rw [dif_pos (show (1 : Fin S32768x8x1024.rank) ∈ gather_S32768x8x1024_S32768x1x1_S32768x1x1024_2_1_0_0_1_2_111024.startIndexMap by decide)]
  have hsi : gather_S32768x8x1024_S32768x1x1_S32768x1x1024_2_1_0_0_1_2_111024.siIdx (ix3 n 0 o)
      ⟨List.idxOf (1 : Fin S32768x8x1024.rank) gather_S32768x8x1024_S32768x1x1_S32768x1x1024_2_1_0_0_1_2_111024.startIndexMap,
        List.idxOf_lt_length_iff.2 (by decide)⟩ = ix3 n 0 0 := by
    funext b; refine Fin.ext ?_
    match b with
    | ⟨0, _⟩ => rfl
    | ⟨1, _⟩ => rfl
    | ⟨2, _⟩ => rfl
  rw [hsi]
  rfl

/-- On the offset axis: the result's last coordinate. -/
theorem gather_batched_axis2 (idx : IVec S32768x1x1 32) (n : Fin 32768) (o : Fin 1024) :
    (gather_S32768x8x1024_S32768x1x1_S32768x1x1024_2_1_0_0_1_2_111024.operandIdx (ix3 n 0 o) idx 2).val = o.val := by
  show gather_S32768x8x1024_S32768x1x1_S32768x1x1024_2_1_0_0_1_2_111024.start (ix3 n 0 o) idx 2
    + gather_S32768x8x1024_S32768x1x1_S32768x1x1024_2_1_0_0_1_2_111024.batchCoord (ix3 n 0 o) 2
    + gather_S32768x8x1024_S32768x1x1_S32768x1x1024_2_1_0_0_1_2_111024.offCoord (ix3 n 0 o) 2 = _
  rw [GatherDims.batchCoord_eq_zero _ _ _ (by decide)]
  unfold GatherDims.start GatherDims.offCoord
  rw [dif_neg (by decide), dif_pos (by decide)]
  simp only [Nat.zero_add, Nat.add_zero]
  rfl

/-- The batched gather at (n, 0, o): the operand at (n, t, o), t the clamped start index of row n. -/
theorem gather_batched_apply {α : Type} (x : S32768x8x1024.Idx → α) (idx : IVec S32768x1x1 32) (n : Fin 32768)
    (o : Fin 1024) (t : Fin 8) (ht : min (idx (ix3 n 0 0)).toInt.toNat (8 - 1) = t.val) :
    Host.gather gather_S32768x8x1024_S32768x1x1_S32768x1x1024_2_1_0_0_1_2_111024 x idx (ix3 n 0 o) = x (ix3 n t o) := by
  unfold Host.gather
  congr 1
  funext a
  refine Fin.ext ?_
  match a with
  | ⟨0, _⟩ => exact gather_batched_axis0 idx n o
  | ⟨1, _⟩ => exact (gather_batched_axis1 idx n o).trans ht
  | ⟨2, _⟩ => exact gather_batched_axis2 idx n o

/-- The row gather's operand index on the collapsed axis: the start index of row n, read signed and clamped. -/
theorem gather_rows_axis0 (idx : IVec S32768x1 32) (n : Fin 32768) (o : Fin 1024) :
    (gather_S8x1024_S32768x1_S32768x1024_1_0_n_n_0_1_11024.operandIdx (ix2 n o) idx 0).val
      = min (idx (ix2 n 0)).toInt.toNat (8 - 1) := by
  show gather_S8x1024_S32768x1_S32768x1024_1_0_n_n_0_1_11024.start (ix2 n o) idx 0
    + gather_S8x1024_S32768x1_S32768x1024_1_0_n_n_0_1_11024.batchCoord (ix2 n o) 0
    + gather_S8x1024_S32768x1_S32768x1024_1_0_n_n_0_1_11024.offCoord (ix2 n o) 0 = _
  rw [GatherDims.batchCoord_eq_zero _ _ _ (by decide), GatherDims.offCoord_eq_zero _ _ _ (by decide)]
  simp only [Nat.add_zero]
  unfold GatherDims.start
  rw [dif_pos (show (0 : Fin S8x1024.rank) ∈ gather_S8x1024_S32768x1_S32768x1024_1_0_n_n_0_1_11024.startIndexMap by decide)]
  have hsi : gather_S8x1024_S32768x1_S32768x1024_1_0_n_n_0_1_11024.siIdx (ix2 n o)
      ⟨List.idxOf (0 : Fin S8x1024.rank) gather_S8x1024_S32768x1_S32768x1024_1_0_n_n_0_1_11024.startIndexMap,
        List.idxOf_lt_length_iff.2 (by decide)⟩ = ix2 n 0 := by
    funext b; refine Fin.ext ?_
    match b with
    | ⟨0, _⟩ => rfl
    | ⟨1, _⟩ => rfl
  rw [hsi]
  rfl

/-- On the offset axis: the result's column. -/
theorem gather_rows_axis1 (idx : IVec S32768x1 32) (n : Fin 32768) (o : Fin 1024) :
    (gather_S8x1024_S32768x1_S32768x1024_1_0_n_n_0_1_11024.operandIdx (ix2 n o) idx 1).val = o.val := by
  show gather_S8x1024_S32768x1_S32768x1024_1_0_n_n_0_1_11024.start (ix2 n o) idx 1
    + gather_S8x1024_S32768x1_S32768x1024_1_0_n_n_0_1_11024.batchCoord (ix2 n o) 1
    + gather_S8x1024_S32768x1_S32768x1024_1_0_n_n_0_1_11024.offCoord (ix2 n o) 1 = _
  rw [GatherDims.batchCoord_eq_zero _ _ _ (by decide)]
  unfold GatherDims.start GatherDims.offCoord
  rw [dif_neg (by decide), dif_pos (by decide)]
  simp only [Nat.zero_add, Nat.add_zero]
  rfl

/-- The row gather at (n, o): the table at (t, o), t the clamped start index of row n. -/
theorem gather_rows_apply {α : Type} (x : S8x1024.Idx → α) (idx : IVec S32768x1 32) (n : Fin 32768) (o : Fin 1024)
    (t : Fin 8) (ht : min (idx (ix2 n 0)).toInt.toNat (8 - 1) = t.val) :
    Host.gather gather_S8x1024_S32768x1_S32768x1024_1_0_n_n_0_1_11024 x idx (ix2 n o) = x (ix2 t o) := by
  unfold Host.gather
  congr 1
  funext a
  refine Fin.ext ?_
  match a with
  | ⟨0, _⟩ => exact (gather_rows_axis0 idx n o).trans ht
  | ⟨1, _⟩ => exact gather_rows_axis1 idx n o

/-! ## The result at (n, o) -/

/-- The selected projection: row n of x against the weight matrix of row n's type. -/
theorem sel_apply (x : (⟨S32768x1024, .f32⟩ : BufTy).Contents (Elt Ideal)) (ty : (⟨S32768, .i32⟩ : BufTy).Contents (Elt Ideal))
    (w : (⟨S8x1024x1024, .f32⟩ : BufTy).Contents (Elt Ideal)) (n : Fin 32768) (o : Fin 1024)
    (hty : (ty (ix1 n)).toNat < 8) :
    val_main_v3 (F := Ideal) x ty w (ix2 n o)
      = ∑ k : Fin 1024, x (ix2 n k) * w (ix3 ⟨(ty (ix1 n)).toNat, hty⟩ o k) := by
  have e3 : idx_main_v3 (ix2 n o) = ix3 n 0 o := funext fun a => Fin.ext (by
    have hn := n.isLt; have ho := o.isLt
    match a with
    | ⟨0, _⟩ => show (n.val * 1024 + o.val) / 1024 = n.val; omega
    | ⟨1, _⟩ => rfl
    | ⟨2, _⟩ => show (n.val * 1024 + o.val) % 1024 = o.val; omega)
  have e1 : idx_main_v1 (ix3 n 0 0) = ix1 n := funext fun a => Fin.ext (by match a with | ⟨0, _⟩ => rfl)
  rw [val_main_v3_apply, e3, val_main_v2_apply, val_main_call0_v13_apply, mask_row ty _ n rfl hty, select_one]
  unfold val_main_call0_v12
  rw [gather_batched_apply _ _ n o ⟨(ty (ix1 n)).toNat, hty⟩
    (by rw [wrapped_apply ty _ n e1 hty]; exact clamp_eq hty), val_main_v0_apply]
  refine Finset.sum_congr rfl fun k _ => ?_
  have el : lidx_main_v0 (ix3 n (⟨(ty (ix1 n)).toNat, hty⟩ : Fin 8) o) k = ix2 n k := funext fun a => Fin.ext (by
    match a with
    | ⟨0, _⟩ => rfl
    | ⟨1, _⟩ => rfl)
  have er : ridx_main_v0 (ix3 n (⟨(ty (ix1 n)).toNat, hty⟩ : Fin 8) o) k = ix3 ⟨(ty (ix1 n)).toNat, hty⟩ o k :=
    funext fun a => Fin.ext (by
      match a with
      | ⟨0, _⟩ => rfl
      | ⟨1, _⟩ => rfl
      | ⟨2, _⟩ => rfl)
  rw [el, er]

/-- The gathered bias: the bias row of row n's type. -/
theorem bias_apply (ty : (⟨S32768, .i32⟩ : BufTy).Contents (Elt Ideal)) (b : (⟨S8x1024, .f32⟩ : BufTy).Contents (Elt Ideal))
    (n : Fin 32768) (o : Fin 1024) (hty : (ty (ix1 n)).toNat < 8) :
    val_main_v10 (F := Ideal) ty b (ix2 n o) = b (ix2 ⟨(ty (ix1 n)).toNat, hty⟩ o) := by
  have e9 : idx_main_v9 (ix2 n 0) = ix1 n := funext fun a => Fin.ext (by match a with | ⟨0, _⟩ => rfl)
  have hw : val_main_v9 (F := Ideal) ty (ix2 n 0) = ty (ix1 n) := by
    rw [val_main_v9_apply, e9, val_main_v8_apply, val_main_v5_apply, val_main_v7_apply, val_main_v4_apply,
      val_main_c_apply, val_main_v6_apply, val_main_c_0_apply]
    exact wrap_eq hty
  unfold val_main_v10
  exact gather_rows_apply _ _ n o ⟨(ty (ix1 n)).toNat, hty⟩ (by rw [hw]; exact clamp_eq hty)

/-- THE REFERENCE AT (n, o), for a row whose type word is below 8: row n of x against the weight matrix of that type,
    plus that type's bias. -/
theorem ref_apply (x : (⟨S32768x1024, .f32⟩ : BufTy).Contents (Elt Ideal)) (ty : (⟨S32768, .i32⟩ : BufTy).Contents (Elt Ideal))
    (w : (⟨S8x1024x1024, .f32⟩ : BufTy).Contents (Elt Ideal)) (b : (⟨S8x1024, .f32⟩ : BufTy).Contents (Elt Ideal))
    (n : Fin 32768) (o : Fin 1024) (hty : (ty (ix1 n)).toNat < 8) :
    Cert.ReferenceIdeal.ReadP.val_main_v11 (F := Ideal) x ty w b (ix2 n o)
      = (∑ k : Fin 1024, x (ix2 n k) * w (ix3 ⟨(ty (ix1 n)).toNat, hty⟩ o k)) + b (ix2 ⟨(ty (ix1 n)).toNat, hty⟩ o) := by
  rw [val_main_v11_apply, sel_apply x ty w n o hty, bias_apply ty b n o hty]
  rfl

end Cert.ReferenceIdeal.RefValue

end
-- ==== Proof.Stages.lean ====
/-
  The host computation that the kernel's wrapper performs before and after its one pallas_call, stage by stage, as
  pure functions of the argument arrays — the words first (clip, the sorting permutation, the per-type counts, the
  three running sums, each row's destination, each tile's type), then the float arrays (the rows gathered in sorted
  order and scattered to their padded places, the transposed weights) — spelled operation by operation as the program
  prints them, so that the region-entry contents of each buffer ARE these functions of the launch memory.
-/
import proofs.«407422_j80762565034484_3_alg».proof.Proof.Gen.KernelIdeal.Frame

noncomputable section

namespace Cert.KernelIdeal.Hand

open Cert.KernelIdeal Cert.KernelIdeal.Gen
open Idealize.ShloMosaic Idealize.ShloMosaic.TcCoe Idealize.SL.Sem

variable {F : FTy → Type} [FloatOps F]

/-! ## Words -/

/-- A scalar word spread over the 32768 positions. -/
abbrev splatN (v : BitVec 32) : IVec S32768 32 := broadcastInDim S32768 ![] bcast_S_S32768 (constantI S_ 32 v)
/-- A scalar word spread over the 8 types. -/
abbrev splat8 (v : BitVec 32) : IVec S8 32 := broadcastInDim S8 ![] bcast_S_S8 (constantI S_ 32 v)

/-- The types clipped to [0, 7]. -/
def clipW (ty : IVec S32768 32) : IVec S32768 32 :=
  minsi (broadcastInDim S32768 ![] bcast_S_S32768 (id (constantI S_ 32 7#32)))
    (maxsi (broadcastInDim S32768 ![] bcast_S_S32768 (id (constantI S_ 32 0#32))) ty)

/-- jnp's wrap of a negative index by the axis length n. -/
def wrapW (n : BitVec 32) (x : IVec S32768 32) : IVec S32768 32 :=
  select (cmpi .slt x (splatN 0#32)) (addi x (splatN n)) x

/-- A vector of 32768 words as a column of start indices. -/
abbrev colW (x : IVec S32768 32) : IVec S32768x1 32 := broadcastInDim S32768x1 ![0] bcast_S32768_S32768x1_0 x

/-- The stable argsort of the clipped types: entry j is the position whose type sorts to place j. -/
def sortIdxW (ty : IVec S32768 32) : IVec S32768 32 :=
  (Host.sort2 S32768 0 comparator_i32_i32_d0 (clipW ty) (iotaInDim S32768 32 0)).2

/-- The clipped types in sorted order. -/
def sortedW (ty : IVec S32768 32) : IVec S32768 32 :=
  Host.gather gather_S32768_S32768x1_S32768_n_0_n_n_0_1_1 (clipW ty) (colW (wrapW 32768#32 (sortIdxW ty)))

/-- How many positions carry each of the 8 types. -/
def cntW (ty : IVec S32768 32) : IVec S8 32 :=
  Host.reduce IntOp.addi
    (extui 32 (cmpi .eq (broadcastInDim S32768x8 ![0, 1] bcast_S32768x1_S32768x8_0_1 (colW (sortedW ty)))
      (broadcastInDim S32768x8 ![0, 1] bcast_S1x8_S32768x8_0_1 (broadcastInDim S1x8 ![1] bcast_S8_S1x8_1 (iotaInDim S8 32 0)))) natLt_1_32)
    (constantI S_ 32 0#32) reducesTo_S32768x8_S8_d0 h_S_

/-- The running sum of 8 words. -/
def cumsumW (a : IVec S8 32) : IVec S8 32 :=
  Host.reduceWindow IntOp.addi ![8] ![1] ![7] ![0] a (broadcastInDim S_ ![] bcast_S_S_ (constantI S_ 32 0#32))
    reduceWindows_S8_S8_w8s1p7_0 h_S_

/-- A zero followed by the first seven of 8 words. -/
def shiftW (c : IVec S8 32) : IVec S8 32 :=
  concatenate S8 0 [⟨S1, broadcastInDim S1 ![] bcast_S_S1 (constantI S_ 32 0#32)⟩, ⟨S7, extractStridedSlice S7 ![0] c slices_S8_S7_0⟩]
    concatenates_S1_S7_S8_d0

/-- jnp's floor division of 8 words by the scalar 512. -/
def floorDivW (a : IVec S8 32) : IVec S8 32 :=
  select
    (andi (cmpi .ne (signi a) (broadcastInDim S8 ![] bcast_S_S8 (signi (id (constantI S_ 32 512#32)))))
      (cmpi .ne (Host.remsi a (broadcastInDim S8 ![] bcast_S_S8 (id (constantI S_ 32 512#32)))) (splat8 0#32)))
    (subi (Host.divsi a (broadcastInDim S8 ![] bcast_S_S8 (id (constantI S_ 32 512#32)))) (splat8 1#32))
    (Host.divsi a (broadcastInDim S8 ![] bcast_S_S8 (id (constantI S_ 32 512#32))))

/-- Where each type's run starts among the sorted positions. -/
def gsW (ty : IVec S32768 32) : IVec S8 32 := shiftW (cumsumW (cntW ty))
/-- How many tiles of 512 rows each type takes. -/
def tpgW (ty : IVec S32768 32) : IVec S8 32 := floorDivW (addi (cntW ty) (splat8 511#32))
/-- Where each type's padded run starts among the padded rows. -/
def psW (ty : IVec S32768 32) : IVec S8 32 := shiftW (cumsumW (muli (tpgW ty) (splat8 512#32)))
/-- Which tile each type's padded run starts at. -/
def tsW (ty : IVec S32768 32) : IVec S8 32 := shiftW (cumsumW (tpgW ty))

/-- jnp.take of a table of 8 words at 32768 word indices, out-of-range entries filled. -/
def takeW (table : IVec S8 32) (idx : IVec S32768 32) : IVec S32768 32 :=
  select
    (Host.reduce IntOp.andi
      (andi (cmpi .sge (colW (wrapW 8#32 idx)) (broadcastInDim S32768x1 ![] bcast_S_S32768x1 (constantI S_ 32 0#32)))
        (cmpi .sle (colW (wrapW 8#32 idx))
          (broadcastInDim S32768x1 ![0, 1] bcast_S1x1_S32768x1_0_1 (broadcastInDim S1x1 ![1] bcast_S1_S1x1_1 (constantI S1 32 7#32)))))
      (constantI S_ 1 1#1) reducesTo_S32768x1_S32768_d1 h_S_)
    (Host.gather gather_S8_S32768x1_S32768_n_0_n_n_0_1_1 table (colW (wrapW 8#32 idx)))
    (splatN 2147483648#32)

/-- The padded row each sorted position goes to. -/
def destW (ty : IVec S32768 32) : IVec S32768 32 :=
  addi (takeW (psW ty) (sortedW ty)) (subi (iotaInDim S32768 32 0) (takeW (gsW ty) (sortedW ty)))

/-- The type of each of the 72 tiles. -/
def gidW (ty : IVec S32768 32) : IVec S72 32 :=
  minsi (broadcastInDim S72 ![] bcast_S_S72 (id (constantI S_ 32 7#32)))
    (maxsi (broadcastInDim S72 ![] bcast_S_S72 (id (constantI S_ 32 0#32)))
      (subi
        (Host.reduce IntOp.addi
          (extui 32 (cmpi .sge (broadcastInDim S72x8 ![0, 1] bcast_S72x1_S72x8_0_1 (broadcastInDim S72x1 ![0] bcast_S72_S72x1_0 (iotaInDim S72 32 0)))
            (broadcastInDim S72x8 ![0, 1] bcast_S1x8_S72x8_0_1 (broadcastInDim S1x8 ![1] bcast_S8_S1x8_1 (tsW ty)))) natLt_1_32)
          (constantI S_ 32 0#32) reducesTo_S72x8_S72_d1 h_S_)
        (broadcastInDim S72 ![] bcast_S_S72 (constantI S_ 32 1#32))))

/-! ## Float arrays -/

/-- The rows of x in sorted order, scattered to their padded places over zeros. -/
def paddedX (x : FVec F S32768x1024 .f32) (ty : IVec S32768 32) : FVec F S36864x1024 .bf16 :=
  Host.scatter scatter_S36864x1024_S32768x1_S32768x1024_1_0_0_1 (fun _ b => b)
    (broadcastInDim S36864x1024 ![] bcast_S_S36864x1024 (constant S_ .bf16 0x0000#16))
    (colW (wrapW 36864#32 (destW ty)))
    (Host.gather gather_S32768x1024_S32768x1_S32768x1024_1_0_n_n_0_1_11024 (truncf .bf16 x bitsLt_bf16_f32) (colW (wrapW 32768#32 (sortIdxW ty))))

/-- The weights with their last two axes exchanged. -/
def weightT (w : FVec F S8x1024x1024 .f32) : FVec F S8x1024x1024 .bf16 :=
  truncf .bf16 (transpose S8x1024x1024 [0, 2, 1] w transposes_S8x1024x1024_S8x1024x1024_0_2_1) bitsLt_bf16_f32

/-- The wrapper's last two operations: the padded result's rows gathered back in sorted order, then scattered to
    their original positions over zeros. -/
def unsortW (po : FVec F S36864x1024 .f32) (ty : IVec S32768 32) : FVec F S32768x1024 .f32 :=
  Host.scatter scatter_S32768x1024_S32768x1_S32768x1024_1_0_0_1 (fun _ b => b)
    (broadcastInDim S32768x1024 ![] bcast_S_S32768x1024 (constant S_ .f32 0x00000000#32))
    (colW (wrapW 32768#32 (sortIdxW ty)))
    (Host.gather gather_S36864x1024_S32768x1_S32768x1024_1_0_n_n_0_1_11024 po (colW (wrapW 36864#32 (destW ty))))

end Cert.KernelIdeal.Hand

end
-- ==== Proof.KernelTail.lean ====
/-
  The kernel wrapper's operations after its pallas_call: the padded result's rows are gathered back in sorted order and
  scattered to their original positions. What the program's result buffer holds at the end is that function of the
  pallas_call's output array and of two word vectors the host computed before the call (the sorting permutation and
  the destinations), each read where the region found it.
-/
import proofs.«407422_j80762565034484_3_alg».proof.Proof.Gen.KernelIdeal.Frame
import proofs.«407422_j80762565034484_3_alg».proof.Proof.Stages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The wrapper's last two operations on given word vectors: rows `ds j` of `po` gathered to place `j`, then row
    `j` scattered to place `si j` over zeros. -/
def unsortRaw (po : FVec F S36864x1024 .f32) (si ds : IVec S32768 32) : FVec F S32768x1024 .f32 :=
  Host.scatter scatter_S32768x1024_S32768x1_S32768x1024_1_0_0_1 (fun _ b => b)
    (broadcastInDim S32768x1024 ![] bcast_S_S32768x1024 (constant S_ .f32 0x00000000#32))
    (colW (wrapW 32768#32 si))
    (Host.gather gather_S36864x1024_S32768x1_S32768x1024_1_0_n_n_0_1_11024 po (colW (wrapW 36864#32 ds)))

theorem unsortW_eq (po : FVec F S36864x1024 .f32) (ty : IVec S32768 32) :
    unsortW po ty = unsortRaw po (sortIdxW ty) (destW ty) := rfl

set_option maxHeartbeats 4000000 in
/-- The result buffer after the operations that follow the region: the un-sorting of the region's output array by the
    two word vectors as the region found them. -/
theorem tail_result (hO : Ok m) (hH : Hyps m hO) (c : Dev nD) :
    Pipeline.afterTail pcfgs (fun _ => adm m hO) (dats m hO hH) 0 (V0 m) [hostOps1] c main_v83
      = unsortRaw ((dats m hO hH 0 c).arrAt 3 (cfgM m hO).N) (V m c main_v1) (V m c main_v38) := by
  unfold Pipeline.afterTail
  simp only [hostOps1, List.flatten_cons, List.flatten_nil, List.append_nil]
  after_results_simp
  rw [Pipeline.withArrays_of_ne _ c (V0 m c) _ main_v1 (by exact (by decide : ∀ w, Pipeline.arrRef spec0 w ≠ main_v1)),
    Pipeline.withArrays_of_ne _ c (V0 m c) _ main_v38 (by exact (by decide : ∀ w, Pipeline.arrRef spec0 w ≠ main_v38))]
  have h68 := Pipeline.withArrays_arr (τ := τ) spec0 (launch0 (F := F)).win.arr_inj c (V0 m c)
    (fun w => (dats m hO hH 0 c).arrAt w (Pipeline.pin pcfgs (fun _ => adm m hO) 0).N) 3
  exact congrArg (fun A : FVec F S36864x1024 .f32 => unsortRaw A (V m c main_v1) (V m c main_v38)) h68

end Cert.KernelIdeal.Hand

end
-- ==== Proof.KernelArray.lean ====
/- What the grouped linear kernel leaves in its output array, index by index, over the extended reals:
   row r of the result is row r of the staged activations against the weight slab the group table names for
   r's block of 512 rows, plus that group's bias row. -/
import proofs.«407422_j80762565034484_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-block access. -/
theorem zero_off2 : (![0, 0] : Fin 2 → Nat) = fun _ => 0 := funext fun a => by fin_cases a <;> rfl

section Piece
variable {F : FTy → Type} [FloatOps F]

/-- What the body leaves in the output's block: its one store covers the block, so the block holds the store's
    value, a function of the activations' block, of the one weight slab and of the one bias row the group word selects. -/
theorem stored_block (c : Dev nD) (i : grid0.Coords) (arg2 : Memref sig .tc .vmem S512x1024 .bf16) (harg2 : arg2.IsWhole) (arg3 : Memref sig .tc .vmem S8x1024x1024 .bf16) (harg3 : arg3.IsWhole) (arg4 : Memref sig .tc .vmem S8x1024 .f32) (harg4 : arg4.IsWhole) (arg5 : Memref sig .tc .vmem S512x1024 .f32) (harg5 : arg5.IsWhole)
    (x0 : Vec F S512x1024 .bf16) (x1 : Vec F S8x1024x1024 .bf16) (x2 : Vec F S8x1024 .f32) (xt0 : TbBuf0 (F := F) c tbM0_0) (k0_hw1 : k0_chk1 (tbM0_0.view.readAt (Elt F) (Rect.unit (s := S72) (k0_off1 i) S1.size (k0_off1_inb i)).toLoadRect xt0 (Shape.Idx.first (numel1_S1.symm ▸ Nat.one_pos)))) :
    out0_A_3 c i arg2 harg2 arg3 harg3 arg4 harg4 arg5 harg5 x0 x1 x2 xt0 k0_hw1
      = k0_pay1
          (View.ld x1 (Rect.unit (s := S8x1024x1024) (k0_off2 (tbM0_0.view.readAt (Elt F) (Rect.unit (s := S72) (k0_off1 i) S1.size (k0_off1_inb i)).toLoadRect xt0 (Shape.Idx.first (numel1_S1.symm ▸ Nat.one_pos)))) S1x1024x1024.size (k0_off2_inb _ k0_hw1)))
          (View.ld x2 (Rect.unit (s := S8x1024) (k0_off3 (tbM0_0.view.readAt (Elt F) (Rect.unit (s := S72) (k0_off1 i) S1.size (k0_off1_inb i)).toLoadRect xt0 (Shape.Idx.first (numel1_S1.symm ▸ Nat.one_pos)))) S1x1024.size (k0_off3_inb _ k0_hw1)))
          x0 := by
  unfold out0_A_3
  rw [View.read_writes_eq_canon _ _ _ (cover0_A_3 c i arg2 harg2 arg3 harg3 arg4 harg4 arg5 harg5 x0 x1 x2 xt0 k0_hw1)]
  unfold kernelRun0_A
  dsimp only
  sl_unfold_words
  rw [View.canon_unit_zero zero_off2]
  simp only [View.readAt_eq_ld, harg2.read_unread, harg3.read_unread, harg4.read_unread, View.ld_unit_zero (S := S512x1024) zero_off2]

end Piece

/-! ## The stored block at an index, over the extended reals -/

/-- The left operand's row axis follows the result's row. -/
theorem lhs_axis_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's column axis is the contracted one. -/
theorem lhs_axis_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's row axis is the contracted one. -/
theorem rhs_axis_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- The right operand's column axis follows the result's column. -/
theorem rhs_axis_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a [512,1024] block and a [1024,1024] matrix from a zero accumulator, at an element: the row of the
    one against the column of the other. -/
theorem matmul_apply_rc (a : FVec Ideal S512x1024 .bf16) (b : FVec Ideal S1024x1024 .bf16) (p : Fin 512) (q : Fin 1024) :
    matmul (F := Ideal) dot_S512x1024_S1024x1024_S512x1024_1_0_0_1_n_n none a b (constant (F := Ideal) S512x1024 .f32 0x00000000#32) (ix2 p q)
      = ∑ k : Fin 1024, a (ix2 p k) * b (ix2 k q) := by
  refine (Ideal.matmul_constant_zero_apply dot_S512x1024_S1024x1024_S512x1024_1_0_0_1_n_n none a b (ix2 p q)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_axis_0 _ _
    | ⟨1, _⟩ => exact (lhs_axis_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_axis_0 _ _).trans hk
    | ⟨1, _⟩ => exact rhs_axis_1 _ _)
  rw [el, er]

/-- What the body stores, at row p and column q of its block: the activations' row p against column q of the one
    loaded weight slab, plus entry q of the one loaded bias row. -/
theorem stored_apply (v3 : Vec Ideal S1x1024x1024 .bf16) (v6 : Vec Ideal S1x1024 .f32) (v8 : Vec Ideal S512x1024 .bf16) (p : Fin 512) (q : Fin 1024) :
    k0_pay1 (F := Ideal) v3 v6 v8 (ix2 p q) = (∑ k : Fin 1024, v8 (ix2 p k) * v3 (ix3 0 k q)) + v6 (ix2 0 q) := by
  unfold k0_pay1
  refine (addf_apply _ _ (ix2 p q)).trans ?_
  refine congrArg₂ (· + ·) ?_ ?_
  · refine (matmul_apply_rc _ _ p q).trans ?_
    refine Finset.sum_congr rfl fun k _ => ?_
    rw [shapeCast_self, shapeCast_1ab_ab_apply]
  · refine (broadcastTo_1b_ab_apply _ _ p q).trans ?_
    refine (shapeCast_a_1a_apply _ _ 0 q).trans ?_
    exact shapeCast_1a_a_apply _ _ q

/-! ## The grid's index maps, decided once -/

/-- At grid point t the activations' and the result's windows sit at row block t, the weights' and the biases'
    windows at the whole arrays. -/
theorem index_facts (a : (pcfg0 (F := Ideal)).Adm) : ∀ t : Fin (cfg0 a).N,
    ((cfg0 a).win 0).index t (0 : Fin 2) = t.val ∧ ((cfg0 a).win 0).index t (1 : Fin 2) = 0
    ∧ ((cfg0 a).win 1).index t (0 : Fin 3) = 0 ∧ ((cfg0 a).win 1).index t (1 : Fin 3) = 0 ∧ ((cfg0 a).win 1).index t (2 : Fin 3) = 0
    ∧ ((cfg0 a).win 2).index t (0 : Fin 2) = 0 ∧ ((cfg0 a).win 2).index t (1 : Fin 2) = 0
    ∧ ((cfg0 a).win 3).index t (0 : Fin 2) = t.val ∧ ((cfg0 a).win 3).index t (1 : Fin 2) = 0 :=
  (by decide +kernel : ∀ t : Fin grid0.N,
    cc0_transform_0 (grid0.coords t) (0 : Fin 2) = t.val ∧ cc0_transform_0 (grid0.coords t) (1 : Fin 2) = 0
    ∧ cc0_transform_1 (grid0.coords t) (0 : Fin 3) = 0 ∧ cc0_transform_1 (grid0.coords t) (1 : Fin 3) = 0 ∧ cc0_transform_1 (grid0.coords t) (2 : Fin 3) = 0
    ∧ cc0_transform_2 (grid0.coords t) (0 : Fin 2) = 0 ∧ cc0_transform_2 (grid0.coords t) (1 : Fin 2) = 0
    ∧ cc0_transform_3 (grid0.coords t) (0 : Fin 2) = t.val ∧ cc0_transform_3 (grid0.coords t) (1 : Fin 2) = 0)

/-- The one grid coordinate of point t is t. -/
theorem coord_facts : ∀ t : Fin grid0.N, ((grid0.coords t) 0).val = t.val := by decide +kernel

/-- The grid has 72 points. -/
theorem grid_size : grid0.N = 72 := by decide

section Reads
variable (m : (ℓ : Loc nD τ sig) → Buf (Elt Ideal) ℓ)

/-- The staged activations, weight slabs and bias rows as the region finds them. -/
abbrev acts (c : Dev nD) : Vec Ideal S36864x1024 .bf16 := V m c main_v65
abbrev slabs (c : Dev nD) : Vec Ideal S8x1024x1024 .bf16 := V m c main_v67
abbrev biases (c : Dev nD) : Vec Ideal S8x1024 .f32 := V m c main_arg3

/-- A block of the activations' window at point t reads rows 512t … 512t + 511 of the array it is cut from. -/
theorem read_rows (a : (pcfg0 (F := Ideal)).Adm) (t : Fin (cfg0 a).N) (X : Vec Ideal S36864x1024 .bf16) (p : Fin 512) (k : Fin 1024)
    (r : Fin 36864) (hr : r.val = 512 * t.val + p.val) :
    (((cfg0 a).win 0).blk t).view.read (Elt Ideal) X (ix2 p k) = X (ix2 r k) := by
  obtain ⟨e0, e1, -⟩ := index_facts a t
  show X ((((cfg0 a).win 0).blk t).view.emb (ix2 p k)) = X (ix2 r k)
  refine congrArg X ?_
  funext b
  apply Fin.ext
  match b with
  | ⟨0, _⟩ => show ((cfg0 a).win 0).index t (0 : Fin 2) * 512 + 1 * p.val = r.val; rw [e0, hr]; omega
  | ⟨1, _⟩ => show ((cfg0 a).win 0).index t (1 : Fin 2) * 1024 + 1 * k.val = k.val; rw [e1]; omega

/-- A load of one slab out of the weights' window, which holds the whole array: the offset on the slab axis is the word. -/
theorem read_slab (a : (pcfg0 (F := Ideal)).Adm) (t : Fin (cfg0 a).N) (X : Vec Ideal S8x1024x1024 .bf16) (w : BitVec 32)
    (inb : ∀ b, (k0_off2 w) b + S1x1024x1024.size b ≤ S8x1024x1024.size b) (k q : Fin 1024) (g : Fin 8) (hg : w.toNat = g.val) :
    View.ld ((((cfg0 a).win 1).blk t).view.read (Elt Ideal) X) (Rect.unit (s := S8x1024x1024) (k0_off2 w) S1x1024x1024.size inb) (ix3 (0 : Fin 1) k q)
      = X (ix3 g k q) := by
  obtain ⟨-, -, e0, e1, e2, -⟩ := index_facts a t
  show X ((((cfg0 a).win 1).blk t).view.emb ((Rect.unit (s := S8x1024x1024) (k0_off2 w) S1x1024x1024.size inb).idx (ix3 (0 : Fin 1) k q))) = X (ix3 g k q)
  refine congrArg X ?_
  funext b
  apply Fin.ext
  match b with
  | ⟨0, _⟩ => show ((cfg0 a).win 1).index t (0 : Fin 3) * 8 + 1 * (w.toNat + 1 * 0) = g.val; rw [e0, hg]; omega
  | ⟨1, _⟩ => show ((cfg0 a).win 1).index t (1 : Fin 3) * 1024 + 1 * (0 + 1 * k.val) = k.val; rw [e1]; omega
  | ⟨2, _⟩ => show ((cfg0 a).win 1).index t (2 : Fin 3) * 1024 + 1 * (0 + 1 * q.val) = q.val; rw [e2]; omega

/-- A load of one row out of the biases' window, likewise. -/
theorem read_bias (a : (pcfg0 (F := Ideal)).Adm) (t : Fin (cfg0 a).N) (X : Vec Ideal S8x1024 .f32) (w : BitVec 32)
    (inb : ∀ b, (k0_off3 w) b + S1x1024.size b ≤ S8x1024.size b) (q : Fin 1024) (g : Fin 8) (hg : w.toNat = g.val) :
    View.ld ((((cfg0 a).win 2).blk t).view.read (Elt Ideal) X) (Rect.unit (s := S8x1024) (k0_off3 w) S1x1024.size inb) (ix2 (0 : Fin 1) q)
      = X (ix2 g q) := by
  obtain ⟨-, -, -, -, -, e0, e1, -⟩ := index_facts a t
  show X ((((cfg0 a).win 2).blk t).view.emb ((Rect.unit (s := S8x1024) (k0_off3 w) S1x1024.size inb).idx (ix2 (0 : Fin 1) q))) = X (ix2 g q)
  refine congrArg X ?_
  funext b
  apply Fin.ext
  match b with
  | ⟨0, _⟩ => show ((cfg0 a).win 2).index t (0 : Fin 2) * 8 + 1 * (w.toNat + 1 * 0) = g.val; rw [e0, hg]; omega
  | ⟨1, _⟩ => show ((cfg0 a).win 2).index t (1 : Fin 2) * 1024 + 1 * (0 + 1 * q.val) = q.val; rw [e1]; omega

/-- The activations' block at point t is rows 512t … 512t + 511 of the staged array. -/
theorem acts_block (hO : Ok m) (c : Dev nD) (t : Fin (cfgM m hO).N) (p : Fin 512) (k : Fin 1024) (r : Fin 36864)
    (hr : r.val = 512 * t.val + p.val) :
    (iblk m hO c 0 t : Vec Ideal S512x1024 .bf16) (ix2 p k) = acts m c (ix2 r k) :=
  read_rows (adm m hO) t (V m c main_v65) p k r hr

/-- The loaded weight slab, out of the staged array. -/
theorem slab_block (hO : Ok m) (c : Dev nD) (t : Fin (cfgM m hO).N) (w : BitVec 32)
    (inb : ∀ b, (k0_off2 w) b + S1x1024x1024.size b ≤ S8x1024x1024.size b) (k q : Fin 1024) (g : Fin 8) (hg : w.toNat = g.val) :
    View.ld (iblk m hO c 1 t : Vec Ideal S8x1024x1024 .bf16) (Rect.unit (s := S8x1024x1024) (k0_off2 w) S1x1024x1024.size inb) (ix3 (0 : Fin 1) k q)
      = slabs m c (ix3 g k q) :=
  read_slab (adm m hO) t (V m c main_v67) w inb k q g hg

/-- The loaded bias row, out of the staged array. -/
theorem bias_block (hO : Ok m) (c : Dev nD) (t : Fin (cfgM m hO).N) (w : BitVec 32)
    (inb : ∀ b, (k0_off3 w) b + S1x1024.size b ≤ S8x1024.size b) (q : Fin 1024) (g : Fin 8) (hg : w.toNat = g.val) :
    View.ld (iblk m hO c 2 t : Vec Ideal S8x1024 .f32) (Rect.unit (s := S8x1024) (k0_off3 w) S1x1024.size inb) (ix2 (0 : Fin 1) q)
      = biases m c (ix2 g q) :=
  read_bias (adm m hO) t (V m c main_arg3) w inb q g hg

/-- The group word the body reads at a grid point. -/
abbrev gword (c : Dev nD) (i : grid0.Coords) (xt : TbBuf0 (F := Ideal) c tbM0_0) : BitVec 32 :=
  tbM0_0.view.readAt (Elt Ideal) (Rect.unit (s := S72) (k0_off1 i) S1.size (k0_off1_inb i)).toLoadRect xt (Shape.Idx.first (numel1_S1.symm ▸ Nat.one_pos))

/-- What the body leaves in the output's staging buffer at point t, at row p and column q: row 512t + p of the
    activations against column q of the slab the point's group word names, plus that group's bias at q. -/
theorem point_apply (hO : Ok m) (hH : Hyps m hO) (c : Dev nD) (t : Fin (cfgM m hO).N) (p : Fin 512) (q : Fin 1024) (g : Fin 8)
    (hg : (gword c (grid0.coords t) (tbl m 0)).toNat = g.val) (r : Fin 36864) (hr : r.val = 512 * t.val + p.val) :
    outsAt0 m hO hH c t (ix2 p q) = (∑ k : Fin 1024, acts m c (ix2 r k) * slabs m c (ix3 g k q)) + biases m c (ix2 g q) := by
  unfold outsAt0
  refine (congrFun (stored_block (F := Ideal) c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (Hyps.c0 hH c t)) (ix2 p q)).trans ?_
  refine (stored_apply _ _ _ p q).trans ?_
  refine congrArg₂ (· + ·) (Finset.sum_congr rfl fun k _ => congrArg₂ (· * ·) ?_ ?_) ?_
  · exact acts_block m hO c t p k r hr
  · exact slab_block m hO c t _ _ k q g hg
  · exact bias_block m hO c t _ _ q g hg

/-! ## From the blocks to the array -/

/-- A word the body's side condition holds of names one of the eight slabs. -/
theorem word_lt (w : BitVec 32) (h : k0_chk1 w) : w.toNat < 8 := by
  have h0 : w.toNat + 1 ≤ 8 := h.1 (0 : Fin 3)
  omega

/-- The grid point whose block holds row r. -/
def pointOf (r : Fin 36864) : Fin grid0.N := ⟨r.val / 512, by rw [grid_size]; have := r.isLt; omega⟩

/-- A word as a slab number. -/
def slabOf (w : BitVec 32) : Fin 8 := ⟨w.toNat % 8, Nat.mod_lt _ (by decide)⟩

/-- The group of row r: what the table holds for r's row block. -/
def groupOf (c : Dev nD) (r : Fin 36864) : Fin 8 := slabOf (gword c (grid0.coords (pointOf r)) (tbl m 0))

/-- Row r, column o of the result for group g. -/
def rowVal (c : Dev nD) (r : Fin 36864) (o : Fin 1024) (g : Fin 8) : Ideal .f32 :=
  (∑ k : Fin 1024, acts m c (ix2 r k) * slabs m c (ix3 g k o)) + biases m c (ix2 g o)

/-- The whole result: every row against its own group's slab, plus its group's bias. -/
def padded (c : Dev nD) : Vec Ideal S36864x1024 .f32 := fun i => rowVal m c (i 0) (i 1) (groupOf m c (i 0))

/-- The whole result at row r and column o, the group named through the row's grid point. -/
theorem padded_at (c : Dev nD) (r : Fin 36864) (o : Fin 1024) (t : Fin grid0.N) (ht : r.val / 512 = t.val) (g : Fin 8)
    (hg : (gword c (grid0.coords t) (tbl m 0)).toNat = g.val) :
    padded m c (ix2 r o) = (∑ k : Fin 1024, acts m c (ix2 r k) * slabs m c (ix3 g k o)) + biases m c (ix2 g o) := by
  have et : pointOf r = t := Fin.ext ht
  show rowVal m c r o (groupOf m c r) = rowVal m c r o g
  refine congrArg (rowVal m c r o) ?_
  unfold groupOf
  rw [et]
  exact Fin.ext (by show _ % 8 = g.val; rw [hg]; exact Nat.mod_eq_of_lt g.isLt)

/-- A block of the result's window at point t reads rows 512t … 512t + 511 of the array it is cut from. -/
theorem read_out_rows (a : (pcfg0 (F := Ideal)).Adm) (t : Fin (cfg0 a).N) (G : Vec Ideal S36864x1024 .f32) (p : Fin 512) (q : Fin 1024)
    (r : Fin 36864) (hr : r.val = 512 * t.val + p.val) :
    (((cfg0 a).win 3).blk t).view.read (Elt Ideal) G (ix2 p q) = G (ix2 r q) := by
  obtain ⟨-, -, -, -, -, -, -, e0, e1⟩ := index_facts a t
  show G ((((cfg0 a).win 3).blk t).view.emb (ix2 p q)) = G (ix2 r q)
  refine congrArg G ?_
  funext b
  apply Fin.ext
  match b with
  | ⟨0, _⟩ => show ((cfg0 a).win 3).index t (0 : Fin 2) * 512 + 1 * p.val = r.val; rw [e0, hr]; omega
  | ⟨1, _⟩ => show ((cfg0 a).win 3).index t (1 : Fin 2) * 1024 + 1 * q.val = q.val; rw [e1]; omega

/-- What a point writes back is its block of an array G as soon as it agrees with G entry by entry. -/
theorem block_ext (a : (pcfg0 (F := Ideal)).Adm) (t : Fin (cfg0 a).N) (Y : Vec Ideal S512x1024 .f32) (G : Vec Ideal S36864x1024 .f32)
    (h : ∀ (p : Fin 512) (q : Fin 1024) (r : Fin 36864), r.val = 512 * t.val + p.val → Y (ix2 p q) = G (ix2 r q)) :
    ((cfg0 a).win 3).cut (grid0.coords t) Y = (((cfg0 a).win 3).blk t).view.read (Elt Ideal) G := by
  have ht : t.val < 72 := Nat.lt_of_lt_of_eq t.isLt grid_size
  refine funext fun (y : S512x1024.Idx) => ?_
  obtain ⟨p, q, rfl⟩ : ∃ (p : Fin 512) (q : Fin 1024), y = ix2 p q := ⟨y 0, y 1, eq_ix2 y⟩
  exact (h p q ⟨512 * t.val + p.val, by have := p.isLt; omega⟩ rfl).trans (read_out_rows a t G p q _ rfl).symm

set_option backward.isDefEq.respectTransparency.types false in
/-- An index of the result array is in point t's block iff each coordinate is in the block's range on its axis. -/
theorem mem_block (a : (pcfg0 (F := Ideal)).Adm) (t : Fin (cfg0 a).N) (i : S36864x1024.Idx) :
    i ∈ (((cfg0 a).win 3).blk t).view.set ↔ ∀ b : Fin 2, ((cfg0 a).win 3).index t b * S512x1024.size b ≤ (i b).val ∧ (i b).val < ((cfg0 a).win 3).index t b * S512x1024.size b + S512x1024.size b := by
  show i ∈ ((View.whole main_v68).slice (((cfg0 a).win 3).rect t)).set ↔ _
  rw [View.set_slice_whole]
  exact Rect.mem_set_unit

/-- Row r of the result array lies in the block of point r / 512, which is written back. -/
theorem cover_rows (a : (pcfg0 (F := Ideal)).Adm) (i : S36864x1024.Idx) :
    ∃ t : Fin (cfg0 a).N, ((cfg0 a).win 3).flush t = true ∧ i ∈ (((cfg0 a).win 3).blk t).view.set := by
  have h0 : (i 0).val < 36864 := (i 0).isLt
  have h1 : (i 1).val < 1024 := (i 1).isLt
  have hN : (cfg0 a).N = 72 := grid_size
  refine ⟨⟨(i 0).val / 512, by rw [hN]; omega⟩, flush0_3 a _, ?_⟩
  obtain ⟨-, -, -, -, -, -, -, e0, e1⟩ := index_facts a ⟨(i 0).val / 512, by rw [hN]; omega⟩
  rw [mem_block]
  intro b
  match b with
  | ⟨0, _⟩ =>
    show ((cfg0 a).win 3).index ⟨(i 0).val / 512, _⟩ (0 : Fin 2) * 512 ≤ (i 0).val ∧ (i 0).val < ((cfg0 a).win 3).index ⟨(i 0).val / 512, _⟩ (0 : Fin 2) * 512 + 512
    rw [e0]; show (i 0).val / 512 * 512 ≤ (i 0).val ∧ (i 0).val < (i 0).val / 512 * 512 + 512; omega
  | ⟨1, _⟩ =>
    show ((cfg0 a).win 3).index ⟨(i 0).val / 512, _⟩ (1 : Fin 2) * 1024 ≤ (i 1).val ∧ (i 1).val < ((cfg0 a).win 3).index ⟨(i 0).val / 512, _⟩ (1 : Fin 2) * 1024 + 1024
    rw [e1]; omega

/-- The group word at point t is entry t of the table. -/
theorem word_read (c : Dev nD) (t : Fin grid0.N) (xt : TbBuf0 (F := Ideal) c tbM0_0) (n : Fin 72) (hn : n.val = t.val) :
    gword c (grid0.coords t) xt = (xt : S72.Idx → BitVec 32) (ix1 n) := by
  show (xt : S72.Idx → BitVec 32) _ = (xt : S72.Idx → BitVec 32) (ix1 n)
  refine congrArg (xt : S72.Idx → BitVec 32) ?_
  funext b
  apply Fin.ext
  match b with
  | ⟨0, _⟩ =>
    show k0_off1 (grid0.coords t) (0 : Fin 1) + 1 * 0 = n.val
    rw [k0_off1_eq]
    show ((grid0.coords t) 0).val + 1 * 0 = n.val
    rw [coord_facts t, hn]
    omega

/-- What point t writes back is its block of the whole result. -/
theorem flushed_eq (hO : Ok m) (hH : Hyps m hO) (c : Dev nD) (t : Fin (cfgM m hO).N) :
    (dats m hO hH 0 c).flushed 3 t = (((cfgM m hO).win 3).blk t).view.read (Elt Ideal) (padded m c) := by
  show ((cfgM m hO).win 3).cut (grid0.coords t) ((dats m hO hH 0 c).after 3 t) = _
  rw [after0_3]
  refine block_ext (adm m hO) t (outsAt0 m hO hH c t) (padded m c) fun p q r hr => ?_
  have hw : (gword c (grid0.coords t) (tbl m 0)).toNat < 8 := word_lt _ (Hyps.c0 hH c t)
  have hg : (gword c (grid0.coords t) (tbl m 0)).toNat = (slabOf (gword c (grid0.coords t) (tbl m 0))).val := (Nat.mod_eq_of_lt hw).symm
  have ht : t.val < 72 := Nat.lt_of_lt_of_eq t.isLt grid_size
  exact (point_apply m hO hH c t p q _ hg r hr).trans (padded_at m c r q t (by have := p.isLt; omega) _ hg).symm

/-- So the result array ends holding the whole result: the blocks cover it. -/
theorem padded_eq (hO : Ok m) (hH : Hyps m hO) (c : Dev nD) : (dats m hO hH 0 c).arrAt 3 (cfgM m hO).N = padded m c :=
  (dats m hO hH 0 c).arrAt_eq_of_cover 3 (padded m c) (fun t _ => flushed_eq m hO hH c t) (cover_rows (adm m hO))

/-- THE ARRAY, index by index: row r, column o of the result is row r of the staged activations against column o of the
    weight slab the table names for r's row block, plus that group's bias at o. -/
theorem padded_out_apply (hO : Gen.Ok m) (hH : Gen.Hyps m hO) (c : Dev nD) (r : Fin 36864) (o : Fin 1024) (g : Fin 8)
    (hg : (Gen.tbl m 0 (ix1 ⟨r.val / 512, by have := r.isLt; omega⟩)).toNat = g.val) :
    (Gen.dats m hO hH 0 c).arrAt 3 (Gen.cfgM m hO).N (ix2 r o)
      = (∑ k : Fin 1024, acts m c (ix2 r k) * slabs m c (ix3 g k o)) + biases m c (ix2 g o) := by
  refine (congrFun (padded_eq m hO hH c) (ix2 r o)).trans ?_
  refine padded_at m c r o (pointOf r) rfl g ?_
  rw [word_read c (pointOf r) (tbl m 0) ⟨r.val / 512, by have := r.isLt; omega⟩ rfl]
  exact hg

end Reads

end Cert.KernelIdeal.Hand

end
-- ==== Proof.GroupMath.lean ====
import Mathlib.Algebra.BigOperators.Group.Finset.Basic
import Mathlib.Algebra.BigOperators.Group.Finset.Piecewise
import Mathlib.Algebra.Order.BigOperators.Group.Finset
import Mathlib.Data.Fintype.Card
import Mathlib.Data.Fintype.BigOperators
import Mathlib.Order.Interval.Finset.Fin
import Mathlib.Tactic.Ring
import Mathlib.Tactic.Linarith

/-!
# Grouping sorted items into padded runs of tiles

`32768` items carry a type `s j` and are listed in nondecreasing order of type.
The items of one type form a contiguous run; every run is padded up to a multiple of
`512` and the padded runs are laid end to end.  `dest j` is the slot where item `j`
lands.  Each tile of `512` slots then belongs to a single type, and that type is
recovered as the number of types whose first tile is at or before the given tile,
minus one.
-/

noncomputable section

namespace Cert.Hand.Group
open Finset

variable (s : Fin 32768 → ℕ)

/-- Number of items of type `t`. -/
def cnt (t : ℕ) : ℕ := (univ.filter fun j : Fin 32768 => s j = t).card
/-- Number of tiles of `512` slots needed for the items of type `t`. -/
def tiles (t : ℕ) : ℕ := (cnt s t + 511) / 512
/-- Number of items of type below `t`: the position of the first item of type `t`. -/
def gstart (t : ℕ) : ℕ := ∑ u ∈ range t, cnt s u
/-- Number of tiles used by the types below `t`: the first tile of type `t`. -/
def tstart (t : ℕ) : ℕ := ∑ u ∈ range t, tiles s u
/-- First padded slot of type `t`. -/
def pstart (t : ℕ) : ℕ := ∑ u ∈ range t, tiles s u * 512
/-- Padded slot of item `j`: start of its type's padded run plus its offset in its run. -/
def dest (j : Fin 32768) : ℕ := pstart s (s j) + (j.val - gstart s (s j))
/-- Number of types (among `0..7`) whose first tile is at or before tile `k`. -/
def gidRaw (k : ℕ) : ℕ := ((range 8).filter fun t => tstart s t ≤ k).card

/-! ### Recurrences -/

theorem gstart_succ (t : ℕ) : gstart s (t + 1) = gstart s t + cnt s t := by
  unfold gstart; rw [sum_range_succ]

theorem tstart_succ (t : ℕ) : tstart s (t + 1) = tstart s t + tiles s t := by
  unfold tstart; rw [sum_range_succ]

theorem pstart_succ (t : ℕ) : pstart s (t + 1) = pstart s t + tiles s t * 512 := by
  unfold pstart; rw [sum_range_succ]

/-- The number of items of type below `t` is the size of the set of such items: the sets of
items of the distinct types `u < t` are disjoint and their union is that set. -/
theorem gstart_eq (t : ℕ) :
    gstart s t = (univ.filter fun j : Fin 32768 => s j < t).card := by
  induction t with
  | zero => simp [gstart]
  | succ t ih =>
    rw [gstart_succ, ih, cnt, card_filter, card_filter, card_filter, ← sum_add_distrib]
    refine sum_congr rfl fun j _ => ?_
    by_cases h1 : s j < t
    · have h2 : ¬ s j = t := by omega
      have h3 : s j < t + 1 := by omega
      simp [h1, h2, h3]
    · by_cases h2 : s j = t
      · have h3 : s j < t + 1 := by omega
        simp [h1, h2, h3]
      · have h3 : ¬ s j < t + 1 := by omega
        simp [h1, h2, h3]

/-! ### Size facts -/

theorem cnt_le (t : ℕ) : cnt s t ≤ 32768 := by
  unfold cnt
  calc (univ.filter fun j : Fin 32768 => s j = t).card
      ≤ (univ : Finset (Fin 32768)).card := card_filter_le _ _
    _ = 32768 := by simp

theorem tiles_le (t : ℕ) : tiles s t ≤ 64 := by
  have h := cnt_le s t
  unfold tiles
  omega

theorem gstart_le_total (t : ℕ) : gstart s t ≤ 32768 := by
  rw [gstart_eq]
  calc (univ.filter fun j : Fin 32768 => s j < t).card
      ≤ (univ : Finset (Fin 32768)).card := card_filter_le _ _
    _ = 32768 := by simp

/-- Each run wastes at most `511` slots of padding. -/
theorem tstart_mul_le (t : ℕ) : 512 * tstart s t ≤ gstart s t + 511 * t := by
  induction t with
  | zero => simp [tstart, gstart]
  | succ t ih =>
    rw [tstart_succ, gstart_succ]
    have h : 512 * tiles s t ≤ cnt s t + 511 := by
      unfold tiles; omega
    omega

theorem tstart_le (h8 : ∀ j, s j < 8) (t : ℕ) (ht : t ≤ 8) : tstart s t ≤ 72 := by
  have _ := h8
  have h1 := tstart_mul_le s t
  have h2 := gstart_le_total s t
  omega

theorem pstart_eq (t : ℕ) : pstart s t = 512 * tstart s t := by
  induction t with
  | zero => simp [pstart, tstart]
  | succ t ih => rw [pstart_succ, tstart_succ, ih]; ring

theorem tstart_zero : tstart s 0 = 0 := by simp [tstart]

theorem gidRaw_pos (k : ℕ) : 1 ≤ gidRaw s k := by
  unfold gidRaw
  apply card_pos.mpr
  exact ⟨0, by simp [tstart_zero]⟩

theorem gidRaw_le (k : ℕ) : gidRaw s k ≤ 8 := by
  unfold gidRaw
  calc ((range 8).filter fun t => tstart s t ≤ k).card
      ≤ (range 8).card := card_filter_le _ _
    _ = 8 := card_range 8

/-- The first tile of a type is nondecreasing in the type. -/
theorem tstart_mono {t u : ℕ} (h : t ≤ u) : tstart s t ≤ tstart s u := by
  induction u, h using Nat.le_induction with
  | base => exact le_refl _
  | succ u _ ih => rw [tstart_succ]; omega

/-! ### The sorted facts -/

/-- Every item of smaller type comes earlier, so there are at most `j` of them. -/
theorem gstart_le (h8 : ∀ j, s j < 8) (hmono : ∀ i j : Fin 32768, i ≤ j → s i ≤ s j)
    (j : Fin 32768) : gstart s (s j) ≤ j.val := by
  have _ := h8
  rw [gstart_eq]
  calc (univ.filter fun i : Fin 32768 => s i < s j).card
      ≤ (Iio j).card := by
        apply card_le_card
        intro i hi
        rw [mem_filter] at hi
        rw [mem_Iio]
        by_contra hc
        have := hmono j i (not_lt.mp hc)
        omega
    _ = j.val := Fin.card_Iio j

/-- Every item up to `j` has type at most `s j`, so there are at least `j + 1` such items. -/
theorem local_lt (h8 : ∀ j, s j < 8) (hmono : ∀ i j : Fin 32768, i ≤ j → s i ≤ s j)
    (j : Fin 32768) : j.val - gstart s (s j) < cnt s (s j) := by
  have h1 := gstart_le s h8 hmono j
  have h2 : j.val + 1 ≤ gstart s (s j + 1) := by
    rw [gstart_eq]
    calc j.val + 1 = (Iic j).card := (Fin.card_Iic j).symm
      _ ≤ (univ.filter fun i : Fin 32768 => s i < s j + 1).card := by
        apply card_le_card
        intro i hi
        rw [mem_Iic] at hi
        rw [mem_filter]
        have := hmono i j hi
        exact ⟨mem_univ _, by omega⟩
  rw [gstart_succ] at h2
  omega

/-- The items of type `t` fit in the tiles of type `t`. -/
theorem cnt_le_tiles (t : ℕ) : cnt s t ≤ 512 * tiles s t := by
  unfold tiles; omega

theorem dest_lt (h8 : ∀ j, s j < 8) (hmono : ∀ i j : Fin 32768, i ≤ j → s i ≤ s j)
    (j : Fin 32768) : dest s j < 36864 := by
  have h1 := local_lt s h8 hmono j
  have h2 := cnt_le_tiles s (s j)
  have h3 := tstart_le s h8 (s j + 1) (by have := h8 j; omega)
  have h4 := pstart_eq s (s j)
  have h5 := tstart_succ s (s j)
  unfold dest
  omega

/-- An item lands inside the padded run of its type. -/
theorem dest_bounds (h8 : ∀ j, s j < 8) (hmono : ∀ i j : Fin 32768, i ≤ j → s i ≤ s j)
    (j : Fin 32768) :
    512 * tstart s (s j) ≤ dest s j ∧ dest s j < 512 * tstart s (s j + 1) := by
  have h1 := local_lt s h8 hmono j
  have h2 := cnt_le_tiles s (s j)
  have h4 := pstart_eq s (s j)
  have h5 := tstart_succ s (s j)
  unfold dest
  omega

theorem dest_inj (h8 : ∀ j, s j < 8) (hmono : ∀ i j : Fin 32768, i ≤ j → s i ≤ s j) :
    Function.Injective (dest s) := by
  intro a b hab
  have ha := dest_bounds s h8 hmono a
  have hb := dest_bounds s h8 hmono b
  have hst : s a = s b := by
    rcases Nat.lt_trichotomy (s a) (s b) with h | h | h
    · have := tstart_mono s (show s a + 1 ≤ s b by omega)
      omega
    · exact h
    · have := tstart_mono s (show s b + 1 ≤ s a by omega)
      omega
  have ga := gstart_le s h8 hmono a
  have gb := gstart_le s h8 hmono b
  unfold dest at hab
  rw [hst] at hab ga
  apply Fin.ext
  omega

theorem gid_dest (h8 : ∀ j, s j < 8) (hmono : ∀ i j : Fin 32768, i ≤ j → s i ≤ s j)
    (j : Fin 32768) : gidRaw s (dest s j / 512) - 1 = s j := by
  have hb := dest_bounds s h8 hmono j
  have hk1 : tstart s (s j) ≤ dest s j / 512 := by omega
  have hk2 : dest s j / 512 < tstart s (s j + 1) := by omega
  have hset : ((range 8).filter fun t => tstart s t ≤ dest s j / 512) = range (s j + 1) := by
    ext u
    rw [mem_filter, mem_range, mem_range]
    constructor
    · rintro ⟨_, hu⟩
      by_contra hc
      have := tstart_mono s (show s j + 1 ≤ u by omega)
      omega
    · intro hu
      have := tstart_mono s (show u ≤ s j by omega)
      have := h8 j
      exact ⟨by omega, by omega⟩
  unfold gidRaw
  rw [hset, card_range]
  omega

end Cert.Hand.Group
-- ==== Proof.SortPerm.lean ====
import Idealize.ShloMosaic.Lib.SortFacts
import Idealize.ShloMosaic.Lib.ValueIdx
import Idealize.ShloMosaic.PureOps

/-!
# A host argsort, read as a permutation

The stable sort of a rank-1 table of (key, position) pairs by signed `<` on the keys reads both tables through one
self-map `perm key` of the positions: `perm key j` is the position whose key lands at `j`. It is a bijection, the
sorted keys are `key ∘ perm key`, the sorted positions are `perm key` itself (as words), and the sorted keys are
non-decreasing as signed integers. Everything is first proved for a table of any length `n` and then read at
`n = 32768`.
-/

set_option maxHeartbeats 200000

noncomputable section

namespace Cert.Hand.SortPerm
open Idealize.ShloMosaic Idealize.ShloMosaic.ValueIdx

abbrev SN : Shape := ⟨1, ![32768]⟩

/-- signed '<' on the keys of (key, position) pairs -/
def cmpKey : BitVec 32 × BitVec 32 → BitVec 32 × BitVec 32 → BitVec 1 := fun l r => IntOp.cmpi .slt l.1 r.1

/-! ## Rank-1 tables of any length -/

/-- A signed "less than" comparison is `1` exactly when the operands, read as signed integers, are so ordered. -/
theorem cmpi_slt_iff {w : Nat} (a b : BitVec w) : IntOp.cmpi .slt a b = 1#1 ↔ a.toInt < b.toInt := by
  rw [← BitVec.slt_iff_toInt_lt]
  show BitVec.ofBool (a.slt b) = 1#1 ↔ a.slt b = true
  cases a.slt b <;> decide

/-- On a rank-1 shape the fiber through any index along the one axis is the whole line: position `k` of it is the
    index with coordinate `k` (the update of a one-coordinate function at its one coordinate). -/
theorem along_ix1 {n : Nat} (j : (⟨1, ![n]⟩ : Shape).Idx) (h : 0 < (⟨1, ![n]⟩ : Shape).rank)
    (k : Fin ((⟨1, ![n]⟩ : Shape).size ⟨0, h⟩)) : j.along ⟨0, h⟩ k = ix1 (n := n) k := by
  funext d
  match d with
  | ⟨0, _⟩ => unfold Shape.Idx.along; exact Function.update_self ..

/-- The "sorts strictly before" relation on the positions of a rank-1 pair of tables under a comparator of pairs. -/
def beforeOf {n : Nat} {α β : Type} (cmp : α × β → α × β → BitVec 1)
    (x : (⟨1, ![n]⟩ : Shape).Idx → α) (y : (⟨1, ![n]⟩ : Shape).Idx → β) : Fin n → Fin n → Bool :=
  fun k k' => cmp (x (ix1 k), y (ix1 k)) (x (ix1 k'), y (ix1 k')) == 1#1

/-- A two-operand sort of rank-1 tables reads both through ONE self-map of the positions, the stable sorting
    permutation of the "before" relation: the fiber through every index is the whole line, so the relation, and with it
    the permutation, does not depend on the index read. -/
theorem sort2_rank1 {n : Nat} {α β : Type} (cmp : α × β → α × β → BitVec 1)
    (x : (⟨1, ![n]⟩ : Shape).Idx → α) (y : (⟨1, ![n]⟩ : Shape).Idx → β) :
    Host.sort2 ⟨1, ![n]⟩ 0 cmp x y
      = (fun j => x (ix1 (sortedFrom (beforeOf cmp x y) (j 0))),
         fun j => y (ix1 (sortedFrom (beforeOf cmp x y) (j 0)))) := by
  unfold Host.sort2
  rw [dif_pos (show 0 < (⟨1, ![n]⟩ : Shape).rank from Nat.one_pos)]
  simp only [along_ix1]
  rfl

/-- Under the key comparator, position `k` sorts strictly before `k'` exactly when its key is the smaller signed
    integer; the carried table plays no part. -/
theorem beforeOf_cmpKey_iff {n : Nat} (key y : IVec ⟨1, ![n]⟩ 32) (k k' : Fin n) :
    beforeOf cmpKey key y k k' = true ↔ (key (ix1 k)).toInt < (key (ix1 k')).toInt := by
  unfold beforeOf cmpKey
  rw [beq_iff_eq]
  exact cmpi_slt_iff _ _

/-- … and does NOT sort strictly before it exactly when the other key is at most its own. -/
theorem beforeOf_cmpKey_false_iff {n : Nat} (key y : IVec ⟨1, ![n]⟩ 32) (k k' : Fin n) :
    beforeOf cmpKey key y k k' = false ↔ (key (ix1 k')).toInt ≤ (key (ix1 k)).toInt := by
  rw [← Bool.not_eq_true, beforeOf_cmpKey_iff, not_lt]

/-- The argsort permutation of a table of any length: the position whose key the stable sort puts at `j`. -/
def permN {n : Nat} (key : IVec ⟨1, ![n]⟩ 32) : Fin n → Fin n :=
  sortedFrom (beforeOf cmpKey key (iotaInDim ⟨1, ![n]⟩ 32 0))

/-- The stable sort permutes the positions. -/
theorem permN_bijective {n : Nat} (key : IVec ⟨1, ![n]⟩ 32) : Function.Bijective (permN key) :=
  ⟨sortedFrom_injective _, sortedFrom_surjective _⟩

/-- The sorted position table at `j` is the word of the source position: the carried table is the identity table,
    read at the source position. -/
theorem sort2_snd_N {n : Nat} (key : IVec ⟨1, ![n]⟩ 32) (j : Fin n) :
    (Host.sort2 ⟨1, ![n]⟩ 0 cmpKey key (iotaInDim ⟨1, ![n]⟩ 32 0)).2 (ix1 j)
      = BitVec.ofNat 32 (permN key j).val := by
  rw [sort2_rank1]
  rfl

/-- The sorted key table at `j` is the key at the source position. -/
theorem sort2_fst_N {n : Nat} (key : IVec ⟨1, ![n]⟩ 32) (j : Fin n) :
    (Host.sort2 ⟨1, ![n]⟩ 0 cmpKey key (iotaInDim ⟨1, ![n]⟩ 32 0)).1 (ix1 j) = key (ix1 (permN key j)) := by
  rw [sort2_rank1]
  rfl

/-- The sorted keys are non-decreasing as signed integers. Signed `<` is asymmetric and its negation `≥` is
    transitive (a strict weak order), so the stable sort leaves no inversion: a later position's key is never
    strictly below an earlier one's. -/
theorem permN_sorted {n : Nat} (key : IVec ⟨1, ![n]⟩ 32) (i j : Fin n) (hij : i ≤ j) :
    (key (ix1 (permN key i))).toInt ≤ (key (ix1 (permN key j))).toInt := by
  rcases lt_or_eq_of_le hij with h | h
  · have hB := sortedFrom_noInversion (beforeOf cmpKey key (iotaInDim ⟨1, ![n]⟩ 32 0))
      (beforeOf cmpKey key (iotaInDim ⟨1, ![n]⟩ 32 0)) ?_ (fun _ _ h => h) ?_ i j h
    · exact (beforeOf_cmpKey_false_iff key _ _ _).mp hB
    · intro a b hab
      have h₁ := (beforeOf_cmpKey_iff key _ a b).mp hab
      exact (beforeOf_cmpKey_false_iff key _ b a).mpr (le_of_lt h₁)
    · intro a b c hab hbc
      have h₁ := (beforeOf_cmpKey_false_iff key _ a b).mp hab
      have h₂ := (beforeOf_cmpKey_false_iff key _ b c).mp hbc
      exact (beforeOf_cmpKey_false_iff key _ a c).mpr (le_trans h₂ h₁)
  · subst h
    exact le_refl _

/-! ## The table of 32768 keys -/

/-- the position whose key the stable sort puts at j -/
def perm (key : IVec SN 32) : Fin 32768 → Fin 32768 := permN key

theorem perm_bijective (key : IVec SN 32) : Function.Bijective (perm key) := by
  unfold perm
  exact permN_bijective key

theorem sort2_snd (key : IVec SN 32) (j : Fin 32768) :
    (Host.sort2 SN 0 cmpKey key (iotaInDim SN 32 0)).2 (ix1 j) = BitVec.ofNat 32 (perm key j).val := by
  unfold perm
  exact sort2_snd_N key j

theorem sort2_fst (key : IVec SN 32) (j : Fin 32768) :
    (Host.sort2 SN 0 cmpKey key (iotaInDim SN 32 0)).1 (ix1 j) = key (ix1 (perm key j)) := by
  unfold perm
  exact sort2_fst_N key j

theorem perm_sorted (key : IVec SN 32) (i j : Fin 32768) (hij : i ≤ j) :
    (key (ix1 (perm key i))).toInt ≤ (key (ix1 (perm key j))).toInt := by
  unfold perm
  exact permN_sorted key i j hij

attribute [irreducible] perm

end Cert.Hand.SortPerm
-- ==== Proof.StageSort.lean ====
import proofs.«407422_j80762565034484_3_alg».proof.Proof.Stages
import proofs.«407422_j80762565034484_3_alg».proof.Proof.SortPerm
import proofs.«407422_j80762565034484_3_alg».proof.Proof.GroupMath
import Idealize.ShloMosaic.Lib.ValueIdx
import Idealize.ShloMosaic.Lib.StableHlo.Predicate

/-!
# The sort stage of the host computation, read place by place

The types are words in [0, 8). Their clip is the identity; the stable argsort of the clipped types is a permutation
`sperm` of the 32768 positions; the sorted position table holds the words of `sperm`, the wrap of a negative index leaves
them alone, the gather through them reads the types in sorted order, non-decreasing, and the count of each type among
the sorted types is the number of places carrying it.
-/

set_option maxHeartbeats 200000

noncomputable section

namespace Cert.KernelIdeal.Hand
open Cert.KernelIdeal Cert.KernelIdeal.Gen Idealize.ShloMosaic Idealize.ShloMosaic.ValueIdx
open Idealize.ShloMosaic.StableHlo.Predicate

/-! ## Words and indices -/

/-- The rank-1 index with coordinate `p`, in its two spellings. -/
theorem ix1_eq_ofFin {n : Nat} (p : Fin n) : (ix1 p : (⟨1, ![n]⟩ : Shape).Idx) = Shape.Idx.ofFin p := by
  funext d
  match d with
  | ⟨0, _⟩ => exact Fin.ext rfl

/-- A word in [0, 8) is its own clip to [0, 7]: read signed it is its value, which is neither below 0 nor above 7. -/
theorem clip_word (w : BitVec 32) (hw : w.toNat < 8) : IntOp.minsi 7#32 (IntOp.maxsi 0#32 w) = w := by
  have hti : w.toInt = w.toNat := toInt_eq_toNat_of_lt (by omega)
  have h0 : (0#32 : BitVec 32).toInt = 0 := by decide
  have h7 : (7#32 : BitVec 32).toInt = 7 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h7, decide_eq_true_eq]
  omega

/-- The word of a position below 32768 has that position as its value. -/
theorem toNat_ofNat_pos (p : Fin 32768) : (BitVec.ofNat 32 p.val).toNat = p.val := by
  have := p.isLt
  rw [BitVec.toNat_ofNat]
  exact Nat.mod_eq_of_lt (by omega)

/-- The wrap of a table at a place where it holds a position: a position below 32768 is non-negative as a signed
    word, so the wrap's select keeps the word itself. -/
theorem wrapW_of_pos (n : BitVec 32) (x : IVec S32768 32) (j p : Fin 32768)
    (hx : x (ix1 j) = BitVec.ofNat 32 p.val) : wrapW n x (ix1 j) = BitVec.ofNat 32 p.val := by
  show Scalar.select (IntOp.cmpi .slt (x (ix1 j)) 0#32) (IntOp.addi (x (ix1 j)) n) (x (ix1 j)) = _
  rw [hx]
  have hlt : ¬ IntOp.cmpi .slt (BitVec.ofNat 32 p.val) 0#32 = 1#1 := by
    have := p.isLt
    rw [slt_iff_toNat (by rw [toNat_ofNat_pos]; omega) (by decide)]
    exact Nat.not_lt_zero _
  rw [eq_zero_of_ne_one hlt, select_zero]

/-- The take-gather of a table of 32768 words through a column of start words, at a place where the start word is
    a position `p`: the start index, read signed and clamped into the table, is `p`, so the gather reads the table
    at `p`. -/
theorem gather_at_pos (tab x : IVec S32768 32) (j p : Fin 32768) (hx : x (ix1 j) = BitVec.ofNat 32 p.val) :
    Host.gather gather_S32768_S32768x1_S32768_n_0_n_n_0_1_1 tab (colW x) (ix1 j) = tab (ix1 p) := by
  have hp := p.isLt
  rw [ix1_eq_ofFin j, gather_take gather_S32768_S32768x1_S32768_n_0_n_n_0_1_1 rfl rfl rfl rfl tab (colW x) j (by decide),
    ix1_eq_ofFin p]
  refine congrArg tab (congrArg Shape.Idx.ofFin (Fin.ext ?_))
  show min (colW x (ixP j)).toInt.toNat (32768 - 1) = p.val
  rw [show colW x (ixP j) = x (Shape.Idx.ofFin j) from bcast_col1 _ x j, ← ix1_eq_ofFin, hx,
    toInt_ofNat_small _ (by omega), Int.toNat_natCast]
  omega

variable (ty : IVec S32768 32)

/-- A type in [0, 8) is its own clip. -/
theorem clipW_apply (hty : ∀ n : Fin 32768, (ty (ix1 n)).toNat < 8) (n : Fin 32768) :
    clipW ty (ix1 n) = ty (ix1 n) := by
  show IntOp.minsi 7#32 (IntOp.maxsi 0#32 (ty (ix1 n))) = _
  exact clip_word _ (hty n)

/-- the sorting permutation of the clipped types -/
def sperm : Fin 32768 → Fin 32768 := Cert.Hand.SortPerm.perm (clipW ty)

/-- the type at sorted place j, as a number -/
def styp (j : Fin 32768) : ℕ := (ty (ix1 (sperm ty j))).toNat

theorem sperm_bijective : Function.Bijective (sperm ty) := Cert.Hand.SortPerm.perm_bijective (clipW ty)

theorem styp_lt (hty : ∀ n : Fin 32768, (ty (ix1 n)).toNat < 8) (j : Fin 32768) : styp ty j < 8 := hty _

/-- The types at the sorted places are non-decreasing: the sorted clipped keys are, as signed integers, and on
    words in [0, 8) the clip is the identity and the signed reading is the value. -/
theorem styp_mono (hty : ∀ n : Fin 32768, (ty (ix1 n)).toNat < 8) (i j : Fin 32768) (hij : i ≤ j) :
    styp ty i ≤ styp ty j := by
  have h := Cert.Hand.SortPerm.perm_sorted (clipW ty) i j hij
  rw [clipW_apply ty hty, clipW_apply ty hty,
    toInt_eq_toNat_of_lt (a := ty (ix1 (Cert.Hand.SortPerm.perm (clipW ty) i))) (by have := hty (Cert.Hand.SortPerm.perm (clipW ty) i); omega),
    toInt_eq_toNat_of_lt (a := ty (ix1 (Cert.Hand.SortPerm.perm (clipW ty) j))) (by have := hty (Cert.Hand.SortPerm.perm (clipW ty) j); omega)] at h
  exact Int.ofNat_le.mp h

/-- The printed comparator is signed `<` on the keys. -/
theorem comparator_eq : comparator_i32_i32_d0 = Cert.Hand.SortPerm.cmpKey := rfl

/-- The sorted position table at place `j` is the word of the position that sorts there. -/
theorem sortIdxW_apply (j : Fin 32768) : sortIdxW ty (ix1 j) = BitVec.ofNat 32 (sperm ty j).val := by
  unfold sortIdxW sperm
  rw [comparator_eq]
  exact Cert.Hand.SortPerm.sort2_snd (clipW ty) j

/-- The wrap leaves the sorted position table alone. -/
theorem wrapW_sortIdx (n : BitVec 32) (j : Fin 32768) :
    wrapW n (sortIdxW ty) (ix1 j) = BitVec.ofNat 32 (sperm ty j).val :=
  wrapW_of_pos n (sortIdxW ty) j (sperm ty j) (sortIdxW_apply ty j)

/-- The sorted types at place `j`: the type at the position that sorts there. -/
theorem sortedW_apply (hty : ∀ n : Fin 32768, (ty (ix1 n)).toNat < 8) (j : Fin 32768) :
    sortedW ty (ix1 j) = ty (ix1 (sperm ty j)) := by
  unfold sortedW
  rw [gather_at_pos (clipW ty) (wrapW 32768#32 (sortIdxW ty)) j (sperm ty j) (wrapW_sortIdx ty 32768#32 j)]
  exact clipW_apply ty hty _

/-- The count of type `t`: the reduction adds, down column `t` of the 32768 × 8 mask, one for every sorted place
    whose type word is the word of `t`, that is whose type is `t`. -/
theorem cntW_toNat (hty : ∀ n : Fin 32768, (ty (ix1 n)).toNat < 8) (t : Fin 8) :
    (cntW ty (ix1 t)).toNat = Cert.Hand.Group.cnt (styp ty) t.val := by
  have ht := t.isLt
  unfold cntW
  rw [toNat_reduce_count_rows (by decide) _ natLt_1_32 reducesTo_S32768x8_S8_d0 h_S_ (ix1 t)]
  unfold Cert.Hand.Group.cnt
  refine congrArg Finset.card (Finset.filter_congr fun p _ => ?_)
  show IntOp.cmpi .eq
      (broadcastInDim S32768x8 ![0, 1] bcast_S32768x1_S32768x8_0_1
        (broadcastInDim S32768x1 ![0] bcast_S32768_S32768x1_0 (sortedW ty)) (ij p t))
      (broadcastInDim S32768x8 ![0, 1] bcast_S1x8_S32768x8_0_1
        (broadcastInDim S1x8 ![1] bcast_S8_S1x8_1 (iotaInDim S8 32 0)) (ij p t)) = 1#1 ↔ _
  rw [cmpi_eq_iff, bcast_of_col, bcast_col1, bcast_of_row, bcast_row1, iota_apply, ← ix1_eq_ofFin,
    sortedW_apply ty hty p]
  unfold styp
  constructor
  · intro h
    rw [h, BitVec.toNat_ofNat]
    exact Nat.mod_eq_of_lt (by omega)
  · intro h
    apply BitVec.eq_of_toNat_eq
    rw [h, BitVec.toNat_ofNat]
    exact (Nat.mod_eq_of_lt (by omega)).symm

end Cert.KernelIdeal.Hand
-- ==== Proof.WordTake.lean ====
/-
  WORDS TAKEN FROM A SMALL TABLE. Three index idioms over 32-bit words, each read at one element:

  * the take of a table of eight words at 32768 word indices, with the out-of-range fill: where the index word is one of
    0 … 7 the result is the table's entry there (`take_apply`);
  * the clip of a word to [0, 7]: its value is below 8 for every word, and it is the word itself when that is already
    below 8 (`clip_lt`, `clip_id`);
  * the wrap of a negative index by adding the extent: a word below 2³¹ is non-negative read signed, and is left alone
    (`wrap_id`, `wrap_vec_id`).
-/
import Idealize.ShloMosaic.PureOps
import Idealize.ShloMosaic.Lib.ValueIdx
import Idealize.ShloMosaic.Lib.ReduceAll
import Idealize.ShloMosaic.Lib.StableHlo.Predicate

noncomputable section

namespace Cert.Hand.WordTake

open Idealize.ShloMosaic Idealize.ShloMosaic.ValueIdx

/-! ## Words -/

/-- A word below 2³¹ is not negative read signed. -/
theorem slt_zero_false (s : BitVec 32) (hs : s.toNat < 2 ^ 31) : s.slt 0#32 = false := by
  have hti : s.toInt = s.toNat := StableHlo.Predicate.toInt_eq_toNat_of_lt hs
  have h0 : (0#32 : BitVec 32).toInt = 0 := by decide
  simp only [BitVec.slt, hti, h0, decide_eq_false_iff_not, not_lt]
  omega

/-- THE WRAP, one word: a word below 2³¹ is non-negative, so the select keeps it. -/
theorem wrap_id (s n : BitVec 32) (hs : s.toNat < 2 ^ 31) :
    Scalar.select (IntOp.cmpi .slt s 0#32) (IntOp.addi s n) s = s := by
  have hc : IntOp.cmpi .slt s 0#32 = 0#1 := by
    show BitVec.ofBool (s.slt 0#32) = 0#1
    rw [slt_zero_false s hs]; rfl
  rw [hc]; exact select_zero _ _

/-- The clip of any word to [0, 7] has value below 8. -/
theorem clip_word_lt (x : BitVec 32) : (IntOp.minsi 7#32 (IntOp.maxsi 0#32 x)).toNat < 8 := by
  have hx := x.isLt
  have h0 : (0#32 : BitVec 32).toInt = 0 := by decide
  have h7 : (7#32 : BitVec 32).toInt = 7 := by decide
  have hxi := BitVec.toInt_eq_toNat_cond x
  unfold IntOp.maxsi
  by_cases hneg : x.slt 0#32 = true
  · -- a negative word clips to 0
    rw [if_pos hneg]; decide
  · rw [if_neg hneg]
    unfold IntOp.minsi
    by_cases hbig : (7#32 : BitVec 32).slt x = true
    · -- a word above 7 clips to 7
      rw [if_pos hbig]; decide
    · -- a word that is neither is one of 0 … 7
      rw [if_neg hbig]
      simp only [BitVec.slt, h0, h7, decide_eq_true_eq, not_lt] at hneg hbig
      split at hxi <;> omega

/-- The clip of a word already below 8 is the word. -/
theorem clip_word_id (x : BitVec 32) (hx : x.toNat < 8) : IntOp.minsi 7#32 (IntOp.maxsi 0#32 x) = x := by
  have hti : x.toInt = x.toNat := StableHlo.Predicate.toInt_eq_toNat_of_lt (by omega)
  have h7 : (7#32 : BitVec 32).toInt = 7 := by decide
  have hmax : IntOp.maxsi 0#32 x = x := by
    unfold IntOp.maxsi
    rw [slt_zero_false x (by omega)]; rfl
  have hbig : (7#32 : BitVec 32).slt x = false := by
    simp only [BitVec.slt, hti, h7, decide_eq_false_iff_not, not_lt]
    omega
  rw [hmax]
  unfold IntOp.minsi
  rw [hbig]; rfl

/-! ## The clip and the wrap at an index -/

/-- A scalar broadcast reads the scalar's one element everywhere. -/
theorem bcast0_apply {α : Type} {S : Shape} (hb : (⟨0, ![]⟩ : Shape).BroadcastsInDim S ![])
    (v : (⟨0, ![]⟩ : Shape).Idx → α) (i : S.Idx) : broadcastInDim S ![] hb v i = v ix0 := by
  simp only [broadcastInDim]
  congr 1
  funext a
  exact Fin.elim0 a

theorem clip_lt {S : Shape} (hb : (⟨0, ![]⟩ : Shape).BroadcastsInDim S ![]) (zero seven' : IVec ⟨0, ![]⟩ 32)
    (hzero : zero ix0 = 0#32) (hseven : seven' ix0 = 7#32) (x : IVec S 32) (i : S.Idx) :
    (minsi (broadcastInDim S ![] hb seven') (maxsi (broadcastInDim S ![] hb zero) x) i).toNat < 8 := by
  show (IntOp.minsi (broadcastInDim S ![] hb seven' i) (IntOp.maxsi (broadcastInDim S ![] hb zero i) (x i))).toNat < 8
  rw [bcast0_apply, bcast0_apply, hzero, hseven]
  exact clip_word_lt (x i)

theorem clip_id {S : Shape} (hb : (⟨0, ![]⟩ : Shape).BroadcastsInDim S ![]) (zero seven' : IVec ⟨0, ![]⟩ 32)
    (hzero : zero ix0 = 0#32) (hseven : seven' ix0 = 7#32) (x : IVec S 32) (i : S.Idx) (hx : (x i).toNat < 8) :
    minsi (broadcastInDim S ![] hb seven') (maxsi (broadcastInDim S ![] hb zero) x) i = x i := by
  show IntOp.minsi (broadcastInDim S ![] hb seven' i) (IntOp.maxsi (broadcastInDim S ![] hb zero i) (x i)) = x i
  rw [bcast0_apply, bcast0_apply, hzero, hseven]
  exact clip_word_id (x i) hx

theorem wrap_vec_id {S : Shape} (hb : (⟨0, ![]⟩ : Shape).BroadcastsInDim S ![]) (zero nn : IVec ⟨0, ![]⟩ 32)
    (hzero : zero ix0 = 0#32) (x : IVec S 32) (i : S.Idx) (hx : (x i).toNat < 2 ^ 31) :
    select (cmpi .slt x (broadcastInDim S ![] hb zero)) (addi x (broadcastInDim S ![] hb nn)) x i = x i := by
  show Scalar.select (IntOp.cmpi .slt (x i) (broadcastInDim S ![] hb zero i)) (IntOp.addi (x i) (broadcastInDim S ![] hb nn i)) (x i)
    = x i
  rw [bcast0_apply, hzero]
  exact wrap_id (x i) _ hx

/-! ## The take -/

/-- An and-fold from 1 over words that are all 1 is 1. -/
theorem fold_andi_one {ι : Type} (T : Finset ι) (f : ι → BitVec 1) (h : ∀ i ∈ T, f i = 1#1) :
    T.fold IntOp.andi 1#1 f = 1#1 := by
  induction T using Finset.cons_induction with
  | empty => rfl
  | cons a T ha ih =>
    rw [Finset.fold_cons, h a (Finset.mem_cons_self a T), ih (fun i hi => h i (Finset.mem_cons_of_mem hi))]
    decide

/-- The rank-1 index at a coordinate, in this file's spelling. -/
theorem ofFin_eq_ix1 {n : Nat} (p : Fin n) : Shape.Idx.ofFin p = ix1 p := by
  funext a; match a with | ⟨0, _⟩ => exact Fin.ext rfl

/-- Row p of a one-column rectangle, in this file's spelling. -/
theorem ixP_eq_ix2 {n : Nat} (p : Fin n) : StableHlo.Predicate.ixP p = ix2 p (0 : Fin 1) := by
  funext a; match a with | ⟨0, _⟩ => rfl | ⟨1, _⟩ => rfl

/-- Row p, column q of a rectangle, in this file's spelling. -/
theorem ij_eq_ix2 {n m : Nat} (p : Fin n) (q : Fin m) : StableHlo.Predicate.ij p q = ix2 p q := by
  funext a; match a with | ⟨0, _⟩ => rfl | ⟨1, _⟩ => rfl

/-- A vector kept as a column reads, at row p, the vector at p. -/
theorem col_apply {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  rw [← ixP_eq_ix2, StableHlo.Predicate.bcast_col1, ofFin_eq_ix1]

/-- A one-word vector laid over a column (through the 1 × 1 rectangle) reads that word at every row. -/
theorem one_col_apply {α : Type} {n : Nat} (h₁ : (⟨1, ![1]⟩ : Shape).BroadcastsInDim ⟨2, ![1, 1]⟩ ![1])
    (h₂ : (⟨2, ![1, 1]⟩ : Shape).BroadcastsInDim ⟨2, ![n, 1]⟩ ![0, 1]) (v : (⟨1, ![1]⟩ : Shape).Idx → α) (p : Fin n) :
    broadcastInDim ⟨2, ![n, 1]⟩ ![0, 1] h₂ (broadcastInDim ⟨2, ![1, 1]⟩ ![1] h₁ v) (ix2 p (0 : Fin 1)) = v (ix1 0) := by
  rw [← ij_eq_ix2, StableHlo.Predicate.bcast_cols h₁ h₂ v p 0, ofFin_eq_ix1]

/-- The scalar shape, the 32768 indices, their column, the table of eight words, and the two shapes the bound 7 passes
    through. -/
abbrev S0 : Shape := ⟨0, ![]⟩
abbrev SN : Shape := ⟨1, ![32768]⟩
abbrev SNx1 : Shape := ⟨2, ![32768, 1]⟩
abbrev ST : Shape := ⟨1, ![8]⟩
abbrev S1 : Shape := ⟨1, ![1]⟩
abbrev S1x1 : Shape := ⟨2, ![1, 1]⟩

theorem take_apply (table : IVec ST 32) (idx : IVec SN 32)
    (zero zero' eight intMin : IVec S0 32) (seven : IVec S1 32) (tt : IVec S0 1)
    (hzero : zero ix0 = 0#32) (hzero' : zero' ix0 = 0#32) (hseven : seven (ix1 0) = 7#32) (htt : tt ix0 = 1#1)
    (hbN : S0.BroadcastsInDim SN ![]) (hcol : SN.BroadcastsInDim SNx1 ![0]) (hbC : S0.BroadcastsInDim SNx1 ![])
    (h1 : S1.BroadcastsInDim S1x1 ![1]) (h11 : S1x1.BroadcastsInDim SNx1 ![0, 1])
    (hred : SNx1.ReducesTo [1] SN) (h0 : 0 < S0.numel)
    (gd : GatherDims ST SNx1 SN) (hcoll : gd.collapsedSliceDims = [0]) (hob : gd.operandBatchingDims = [])
    (hsim : gd.startIndexMap = [0]) (hivd : gd.indexVectorDim = 1)
    (j : Fin 32768) (hj : (idx (ix1 j)).toNat < 8) :
    select
        (Host.reduce IntOp.andi
          (andi
            (cmpi .sge
              (broadcastInDim SNx1 ![0] hcol
                (select (cmpi .slt idx (broadcastInDim SN ![] hbN zero)) (addi idx (broadcastInDim SN ![] hbN eight)) idx))
              (broadcastInDim SNx1 ![] hbC zero'))
            (cmpi .sle
              (broadcastInDim SNx1 ![0] hcol
                (select (cmpi .slt idx (broadcastInDim SN ![] hbN zero)) (addi idx (broadcastInDim SN ![] hbN eight)) idx))
              (broadcastInDim SNx1 ![0, 1] h11 (broadcastInDim S1x1 ![1] h1 seven))))
          tt hred h0)
        (Host.gather gd table
          (broadcastInDim SNx1 ![0] hcol
            (select (cmpi .slt idx (broadcastInDim SN ![] hbN zero)) (addi idx (broadcastInDim SN ![] hbN eight)) idx)))
        (broadcastInDim SN ![] hbN intMin) (ix1 j)
      = table (ix1 ⟨(idx (ix1 j)).toNat, hj⟩) := by
  -- the wrapped index vector reads, at j, the index word itself: it is not negative
  generalize hW : select (cmpi .slt idx (broadcastInDim SN ![] hbN zero)) (addi idx (broadcastInDim SN ![] hbN eight)) idx = W
  have hWj : W (ix1 j) = idx (ix1 j) := by
    rw [← hW]; exact wrap_vec_id hbN zero eight hzero idx (ix1 j) (by omega)
  -- so does its column at row j
  generalize hC : broadcastInDim SNx1 ![0] hcol W = col
  have hcolj : col (ix2 j (0 : Fin 1)) = idx (ix1 j) := by
    rw [← hC, col_apply hcol W j, hWj]
  -- the in-range mask at j: the and over the one column of row j of 0 ≤ index ≤ 7
  have hmask : Host.reduce IntOp.andi
      (andi (cmpi .sge col (broadcastInDim SNx1 ![] hbC zero'))
        (cmpi .sle col (broadcastInDim SNx1 ![0, 1] h11 (broadcastInDim S1x1 ![1] h1 seven))))
      tt hred h0 (ix1 j) = 1#1 := by
    rw [Host.reduce_eq_fold]
    have hinit : tt (Shape.Idx.first h0) = 1#1 := by rw [eq_ix0 (Shape.Idx.first h0)]; exact htt
    rw [hinit]
    apply fold_andi_one
    intro i hi
    have hdrop : hred.drop i = ix1 j := (Finset.mem_filter.1 hi).2
    have hv : (hred.drop i 0 : Nat) = i 0 := Shape.ReducesTo.drop_apply_val hred i 0
    rw [hdrop] at hv
    have hi0 : i 0 = j := Fin.ext hv.symm
    have hii : i = ix2 j (0 : Fin 1) := by
      rw [eq_ix2 i, hi0]
      congr 1
      exact Fin.ext (by have := idx2_lt1 i; show (i 1).val = 0; omega)
    rw [hii]
    show IntOp.andi (IntOp.cmpi .sge (col (ix2 j (0 : Fin 1))) (broadcastInDim SNx1 ![] hbC zero' (ix2 j (0 : Fin 1))))
      (IntOp.cmpi .sle (col (ix2 j (0 : Fin 1)))
        (broadcastInDim SNx1 ![0, 1] h11 (broadcastInDim S1x1 ![1] h1 seven) (ix2 j (0 : Fin 1)))) = 1#1
    rw [hcolj, bcast0_apply, hzero', one_col_apply h1 h11 seven j, hseven]
    refine IntOp.andi_eq_one.2 ⟨?_, ?_⟩
    · exact (StableHlo.Predicate.sge_iff_toNat (by omega) (by decide)).2 (Nat.zero_le _)
    · exact (StableHlo.Predicate.sle_iff_toNat (by omega) (by decide)).2 (by show _ ≤ 7; omega)
  -- the gather at j reads the table at the index word: signed it is its value, and the clamp to 7 leaves it
  have hmin : min (col (StableHlo.Predicate.ixP j)).toInt.toNat (8 - 1) = (idx (ix1 j)).toNat := by
    rw [ixP_eq_ix2, hcolj, StableHlo.Predicate.toInt_eq_toNat_of_lt (by omega), Int.toNat_natCast]
    omega
  have hg : Host.gather gd table col (ix1 j) = table (ix1 ⟨(idx (ix1 j)).toNat, hj⟩) := by
    have hgt := StableHlo.Predicate.gather_take gd hcoll hob hsim hivd table col j (by decide)
    rw [ofFin_eq_ix1, ofFin_eq_ix1] at hgt
    rw [hgt]
    exact congrArg (fun k => table (ix1 k)) (Fin.ext hmin)
  rw [select_apply, hmask, hg]
  exact select_one _ _

end Cert.Hand.WordTake

end
-- ==== Proof.WordScan.lean ====
/-
  THREE SMALL COMPUTATIONS ON VECTORS OF EIGHT 32-BIT WORDS, each read at one index as natural numbers.

  (1) The running sum written as a windowed reduction: window 8, stride 1, seven cells of padding below and none
      above, the padding holding the initial value zero. Entry t folds word addition over the cells t-7 .. t of the
      padded vector, that is over the entries 0 .. t of the operand; when the total of all eight entries is below
      2^32 no addition wraps and the entry is the sum of the values.
  (2) The running sum shifted up by one place: a one-element vector laid before the first seven entries. Entry 0 is
      the one-element vector's, entry t > 0 is the operand's entry t-1.
  (3) Floor division by the scalar 512 as it is written over truncating division: where the signs of dividend and
      divisor differ and the remainder is not zero, one is taken off the truncating quotient. For a word below 2^31
      the sign differs from the divisor's only at zero, whose remainder is zero, so the result is the truncating
      quotient, which is the quotient of the values.
-/
import Idealize.ShloMosaic.PureOps
import Idealize.ShloMosaic.PureOps.Contract
import Idealize.ShloMosaic.Lib.ValueIdx
import Idealize.ShloMosaic.Lib.StableHlo.Predicate

noncomputable section

open scoped BigOperators

namespace Cert.Hand.WordScan

open Idealize.ShloMosaic Idealize.ShloMosaic.ValueIdx

abbrev S8 : Shape := ⟨1, ![8]⟩
abbrev S7 : Shape := ⟨1, ![7]⟩
abbrev S1 : Shape := ⟨1, ![1]⟩
abbrev S_ : Shape := ⟨0, ![]⟩

/-! ## (1) The running sum as a windowed reduction -/

/-- Over eight values, the terms `A (t + k - 7)` for the window positions `k` with `t + k ≥ 7` are exactly the terms
    `A u` for `u ≤ t`: position `k` names entry `u = t + k - 7`, and `k` runs over `7 - t .. 7` as `u` runs over
    `0 .. t`. Checked at each of the eight `t`. -/
theorem sum_window (A : Fin 8 → ℕ) (t : Fin 8) :
    ∑ k : Fin 8, (if h : 7 ≤ t.val + k.val then A ⟨t.val + k.val - 7, by omega⟩ else 0)
      = ∑ u ∈ Finset.univ.filter (fun u : Fin 8 => u ≤ t), A u := by
  revert A
  fin_cases t <;> intro A <;> simp [Fin.sum_univ_eight, Finset.sum_filter]

/-- A left fold of word addition along a list, from an accumulator, whose values total (with the accumulator) less
    than 2^32 never wraps: its value is the accumulator's plus the sum of the values. By induction along the list,
    the bound passing to the tail with the head added into the accumulator. -/
theorem toNat_foldl_add {ι : Type} (g : ι → BitVec 32) : ∀ (l : List ι) (acc : BitVec 32),
    acc.toNat + (l.map fun n => (g n).toNat).sum < 2 ^ 32 →
    (l.foldl (fun r n => r + g n) acc).toNat = acc.toNat + (l.map fun n => (g n).toNat).sum
  | [], acc, _ => by simp
  | n :: l, acc, h => by
    rw [List.map_cons, List.sum_cons] at h
    have h1 : (acc + g n).toNat = acc.toNat + (g n).toNat := by
      rw [BitVec.toNat_add]; exact Nat.mod_eq_of_lt (by omega)
    rw [List.foldl_cons, toNat_foldl_add g l (acc + g n) (by rw [h1]; omega), h1, List.map_cons, List.sum_cons]
    omega

/-- Cell `k` of the window ending at `t`, in the vector padded by seven zero cells below: the operand's entry
    `t + k - 7` where `t + k ≥ 7`, the zero word in the padding. -/
def cell (a : IVec S8 32) (t k : Fin 8) : BitVec 32 :=
  if h : 7 ≤ t.val + k.val then a (ix1 ⟨t.val + k.val - 7, by omega⟩) else 0#32

/-- The value of a window cell: the entry's value, or zero in the padding. -/
theorem cell_toNat (a : IVec S8 32) (t k : Fin 8) :
    (cell a t k).toNat = if h : 7 ≤ t.val + k.val then (a (ix1 ⟨t.val + k.val - 7, by omega⟩)).toNat else 0 := by
  unfold cell; split <;> rfl

/-- A rank-1 index is its one coordinate. -/
def idxEquiv1 (n : Nat) : (⟨1, ![n]⟩ : Shape).Idx ≃ Fin n where
  toFun i := i 0
  invFun := ix1
  left_inv i := (eq_ix1 i).symm
  right_inv _ := rfl

/-- The windowed reduction at entry `t` is the left fold of word addition, from zero, of the window's cells in order:
    at window position `n` the padded coordinate is `t · 1 + n`, inside the operand exactly when it is at least 7 (it is
    below 7 + 8 always), and then the operand is read at `t + n - 7`; elsewhere the initial value, zero, is read. -/
theorem reduceWindow_eq_foldl (a : IVec S8 32) (z : IVec S_ 32) (hz : z ix0 = 0#32)
    (hrw : S8.ReduceWindows (![8] : Fin 1 → Nat) ![1] ![7] ![0] S8) (h0 : 0 < S_.numel) (t : Fin 8) :
    Host.reduceWindow IntOp.addi ![8] ![1] ![7] ![0] a z hrw h0 (ix1 t)
      = (List.finRange S8.numel).foldl (fun r n => r + cell a t (S8.rowMajor.symm n 0)) 0#32 := by
  have hz' : z (Shape.Idx.first h0) = 0#32 := by rw [← hz]; congr 1; funext x; exact x.elim0
  unfold Host.reduceWindow
  simp only [hz']
  refine List.foldl_ext _ _ _ (fun r n _ => ?_)
  show r + _ = r + _
  congr 1
  have hk : ((S8.rowMajor.symm n) 0).val < 8 := (S8.rowMajor.symm n 0).isLt
  split
  · next hin =>
    have h1 : 7 ≤ t.val * 1 + (S8.rowMajor.symm n 0).val := (hin 0).1
    have h7 : 7 ≤ t.val + (S8.rowMajor.symm n 0).val := by omega
    unfold cell
    rw [dif_pos h7]
    congr 1
    funext d
    match d with
    | ⟨0, _⟩ =>
      exact Fin.ext (by
        show t.val * 1 + (S8.rowMajor.symm n 0).val - 7 = t.val + (S8.rowMajor.symm n 0).val - 7; omega)
  · next hin =>
    unfold cell
    rw [dif_neg]
    intro h
    apply hin
    intro d
    match d with
    | ⟨0, _⟩ =>
      exact ⟨by show 7 ≤ t.val * 1 + (S8.rowMajor.symm n 0).val; omega,
        by show t.val * 1 + (S8.rowMajor.symm n 0).val - 7 < 8; omega⟩

/-- THE RUNNING SUM. Entry `t` of the windowed reduction (window 8, stride 1, padding 7 below, initial value zero) of
    eight words whose values total less than 2^32 has the value of the sum of the entries `u ≤ t`: the fold of the
    window's cells does not wrap (its cells' values are those entries' and zeros, at most the total), so its value is
    the sum of the cells' values, re-indexed from window positions to entries. -/
theorem cumsum_toNat (a : IVec S8 32) (z : IVec S_ 32) (hz : z ix0 = 0#32)
    (hrw : S8.ReduceWindows (![8] : Fin 1 → Nat) ![1] ![7] ![0] S8) (h0 : 0 < S_.numel)
    (hsum : ∑ u : Fin 8, (a (ix1 u)).toNat < 2 ^ 32) (t : Fin 8) :
    (Host.reduceWindow IntOp.addi ![8] ![1] ![7] ![0] a z hrw h0 (ix1 t)).toNat
      = ∑ u ∈ Finset.univ.filter (fun u : Fin 8 => u ≤ t), (a (ix1 u)).toNat := by
  have hA := sum_window (fun u => (a (ix1 u)).toNat) t
  have hcells : ∑ k : Fin 8, (cell a t k).toNat
      = ∑ u ∈ Finset.univ.filter (fun u : Fin 8 => u ≤ t), (a (ix1 u)).toNat := by
    rw [← hA]; exact Finset.sum_congr rfl (fun k _ => cell_toNat a t k)
  have hle : ∑ u ∈ Finset.univ.filter (fun u : Fin 8 => u ≤ t), (a (ix1 u)).toNat
      ≤ ∑ u : Fin 8, (a (ix1 u)).toNat :=
    Finset.sum_le_sum_of_subset (Finset.filter_subset _ _)
  have hlist : ((List.finRange S8.numel).map fun n => (cell a t (S8.rowMajor.symm n 0)).toNat).sum
      = ∑ k : Fin 8, (cell a t k).toNat := by
    rw [← Fin.sum_univ_def, Equiv.sum_comp S8.rowMajor.symm (fun i : S8.Idx => (cell a t (i 0)).toNat)]
    exact (Equiv.sum_comp (idxEquiv1 8).symm (fun i : S8.Idx => (cell a t (i 0)).toNat)).symm
  have hlt := lt_of_le_of_lt hle hsum
  rw [reduceWindow_eq_foldl a z hz hrw h0 t,
    toNat_foldl_add _ _ _ (by rw [hlist, hcells]; show 0 + _ < _; omega), hlist, hcells]
  show 0 + _ = _
  omega

/-! ## (2) The shift by one place -/

/-- Entry 0 of the one-element vector laid before the first seven entries is the one-element vector's entry: position
    0 falls in the first piece, of length one, at its offset 0. -/
theorem shift_zero (z1 : IVec S1 32) (c : IVec S8 32) (hsl : S8.Slices ![0] S7)
    (hcat : Shape.Concatenates [S1, S7] S8 0) :
    concatenate S8 0 [⟨S1, z1⟩, ⟨S7, extractStridedSlice S7 ![0] c hsl⟩] hcat (ix1 0) = z1 (ix1 0) := by
  show z1 _ = z1 _
  congr 1
  funext d
  match d with
  | ⟨0, _⟩ => rfl

/-- Entry `t > 0` is the operand's entry `t - 1`: position `t` is past the first piece (length one), at offset `t - 1`
    of the second, which is the operand's block of seven entries from offset 0. Checked at each `t`. -/
theorem shift_succ (z1 : IVec S1 32) (c : IVec S8 32) (hsl : S8.Slices ![0] S7)
    (hcat : Shape.Concatenates [S1, S7] S8 0) (t : Fin 8) (ht : 0 < t.val) :
    concatenate S8 0 [⟨S1, z1⟩, ⟨S7, extractStridedSlice S7 ![0] c hsl⟩] hcat (ix1 t)
      = c (ix1 ⟨t.val - 1, by omega⟩) := by
  fin_cases t
  · exact absurd ht (by decide)
  all_goals
    show c _ = c _
    congr 1
    funext d
    match d with
    | ⟨0, _⟩ => rfl

/-! ## (3) Floor division by 512 of a nonnegative word -/

/-- A word below 2^31 divided, signed, by 512: neither operand is negative and the divisor is neither 0 nor -1, so
    the signed quotient is the unsigned one, the quotient of the values. -/
theorem divsi_512 (w : BitVec 32) (hw : w.toNat < 2 ^ 31) : (IntOp.divsi .host w 512#32).toNat = w.toNat / 512 := by
  have hcorner : ¬ IntOp.SDivCorner w 512#32 := by
    rintro (hc | ⟨_, hc⟩) <;> exact absurd hc (by decide)
  have hm : w.msb = false := BitVec.msb_eq_false_iff_two_mul_lt.mpr (by omega)
  have hd : (512#32 : BitVec 32).msb = false := by decide
  unfold IntOp.divsi
  rw [if_neg hcorner, BitVec.sdiv_eq]
  simp only [hm, hd, BitVec.udiv_eq, BitVec.toNat_udiv, BitVec.toNat_ofNat]

/-- FLOOR DIVISION BY 512. At an entry whose word `w` is below 2^31, the correction's condition is false: the
    divisor's sign is 1; if `w` is zero its remainder is zero, and otherwise its sign is 1, the divisor's. So the
    truncating quotient is selected, whose value is `w / 512`. -/
theorem floorDiv512_toNat (a : IVec S8 32) (c512 zero one : IVec S_ 32) (hc : c512 ix0 = 512#32)
    (hzero : zero ix0 = 0#32) (hone : one ix0 = 1#32)
    (hb : S_.BroadcastsInDim S8 (![] : Fin 0 → Fin S8.rank)) (t : Fin 8) (ha : (a (ix1 t)).toNat < 2 ^ 31) :
    (select (andi (cmpi .ne (signi a) (broadcastInDim S8 ![] hb (signi c512)))
        (cmpi .ne (Host.remsi a (broadcastInDim S8 ![] hb c512)) (broadcastInDim S8 ![] hb zero)))
      (subi (Host.divsi a (broadcastInDim S8 ![] hb c512)) (broadcastInDim S8 ![] hb one))
      (Host.divsi a (broadcastInDim S8 ![] hb c512)) (ix1 t)).toNat = (a (ix1 t)).toNat / 512 := by
  have hbc : ∀ v : IVec S_ 32, broadcastInDim S8 ![] hb v (ix1 t) = v ix0 := by
    intro v
    show v _ = v _
    congr 1
    funext x; exact x.elim0
  have hs512 : signi c512 ix0 = 1#32 := by
    show (if c512 ix0 = 0 then 0 else if (c512 ix0).msb then -1 else 1) = 1#32
    rw [hc]; decide
  show (Scalar.select (IntOp.andi (IntOp.cmpi .ne (signi a (ix1 t)) (broadcastInDim S8 ![] hb (signi c512) (ix1 t)))
        (IntOp.cmpi .ne (IntOp.remsi .host (a (ix1 t)) (broadcastInDim S8 ![] hb c512 (ix1 t)))
          (broadcastInDim S8 ![] hb zero (ix1 t))))
      (IntOp.subi (IntOp.divsi .host (a (ix1 t)) (broadcastInDim S8 ![] hb c512 (ix1 t)))
        (broadcastInDim S8 ![] hb one (ix1 t)))
      (IntOp.divsi .host (a (ix1 t)) (broadcastInDim S8 ![] hb c512 (ix1 t)))).toNat = _
  have hsa : signi a (ix1 t) = if a (ix1 t) = 0 then 0 else if (a (ix1 t)).msb then -1 else 1 := rfl
  rw [hbc, hbc, hbc, hbc, hc, hzero, hone, hs512, hsa]
  generalize a (ix1 t) = w at ha ⊢
  have hm : w.msb = false := BitVec.msb_eq_false_iff_two_mul_lt.mpr (by omega)
  have hcond : IntOp.andi (IntOp.cmpi .ne (if w = 0 then 0 else if w.msb then -1 else 1) 1#32)
      (IntOp.cmpi .ne (IntOp.remsi .host w 512#32) 0#32) = 0#1 := by
    by_cases hw0 : w = 0
    · subst hw0; decide
    · rw [if_neg hw0, hm]
      show (IntOp.cmpi .ne 1#32 1#32) &&& _ = 0#1
      rw [show IntOp.cmpi .ne (1#32) (1#32) = 0#1 from by decide, BitVec.zero_and]
  rw [hcond, select_zero]
  exact divsi_512 w ha

/-! ## Axiom pins -/

/-- info: 'Cert.Hand.WordScan.cumsum_toNat' depends on axioms: [propext, Classical.choice, Quot.sound] -/
#guard_msgs (whitespace := lax) in #print axioms cumsum_toNat

end Cert.Hand.WordScan

end
-- ==== Proof.StageNat.lean ====
/-
  THE HOST COMPUTATION'S WORD STAGES READ AS NATURAL NUMBERS. Given that the sorted types read as a nondecreasing
  sequence s of numbers below 8 and that the count word of each type is the number of positions carrying it, each later
  stage's word is the corresponding number of the grouping arithmetic: the run starts (a shifted running sum of the
  counts), the tiles per type (a floor division by 512 of count + 511), the tile starts and padded starts (shifted
  running sums again), each position's destination (two takes at the type, the position, a subtraction that does not
  go below zero and a sum below 36864), and each tile's type (a count of the types whose first tile is at or before the
  tile, less one, which the clip to [0, 7] leaves alone). No word operation on the way wraps.
-/
import proofs.«407422_j80762565034484_3_alg».proof.Proof.Stages
import proofs.«407422_j80762565034484_3_alg».proof.Proof.GroupMath
import proofs.«407422_j80762565034484_3_alg».proof.Proof.WordTake
import proofs.«407422_j80762565034484_3_alg».proof.Proof.WordScan
import Idealize.ShloMosaic.Lib.StableHlo.Predicate
import Idealize.ShloMosaic.Lib.ValueIdx
import Mathlib.Data.Fintype.BigOperators
import Mathlib.Algebra.BigOperators.Group.Finset.Piecewise

noncomputable section

open scoped BigOperators

namespace Cert.KernelIdeal.Hand

open Cert.KernelIdeal Cert.KernelIdeal.Gen Idealize.ShloMosaic Idealize.ShloMosaic.ValueIdx Cert.Hand

/-! ## Sums and counts over Fin n and over range n -/

/-- A sum over the members of Fin n that are at most t is the sum over the numbers 0 … t. -/
theorem sum_filter_le {n : ℕ} (f : ℕ → ℕ) (t : Fin n) :
    ∑ u ∈ Finset.univ.filter (fun u : Fin n => u ≤ t), f u.val = ∑ u ∈ Finset.range (t.val + 1), f u := by
  have hset : (Finset.range n).filter (fun k => k ≤ t.val) = Finset.range (t.val + 1) := by
    ext k
    simp only [Finset.mem_filter, Finset.mem_range]
    have := t.isLt
    omega
  rw [← hset, Finset.sum_filter, Finset.sum_filter, ← Fin.sum_univ_eq_sum_range (fun k => if k ≤ t.val then f k else 0) n]
  exact Finset.sum_congr rfl (fun u _ => by simp only [Fin.le_def])

/-- The number of members of Fin n whose value satisfies p is the number of k below n that satisfy p. -/
theorem card_fin_filter (p : ℕ → Prop) [DecidablePred p] (n : ℕ) :
    (Finset.univ.filter fun q : Fin n => p q.val).card = ((Finset.range n).filter p).card := by
  rw [Finset.card_filter, Finset.card_filter, Fin.sum_univ_eq_sum_range (fun k => if p k then 1 else 0) n]

/-! ## A shifted running sum of eight small words -/

/-- Eight words whose values are f 0 … f 7, totalling less than 2³²: entry t of their running sum shifted up one place
    (a zero first) is f 0 + … + f (t − 1). Entry 0 is the zero laid first, the empty sum; entry t > 0 is the running
    sum's entry t − 1, the sum over the entries at most t − 1. -/
theorem shift_cumsum_toNat (a : IVec S8 32) (f : ℕ → ℕ) (ha : ∀ u : Fin 8, (a (ix1 u)).toNat = f u.val)
    (hsum : ∑ u ∈ Finset.range 8, f u < 2 ^ 32) (t : Fin 8) :
    (shiftW (cumsumW a) (ix1 t)).toNat = ∑ u ∈ Finset.range t.val, f u := by
  have hsum' : ∑ u : Fin 8, (a (ix1 u)).toNat < 2 ^ 32 := by
    rw [Finset.sum_congr rfl (fun u _ => ha u), Fin.sum_univ_eq_sum_range f 8]; exact hsum
  by_cases ht : t.val = 0
  · have ht0 : t = 0 := Fin.ext ht
    subst ht0
    have e0 : shiftW (cumsumW a) (ix1 0) = 0#32 :=
      WordScan.shift_zero (broadcastInDim S1 ![] bcast_S_S1 (constantI S_ 32 0#32)) (cumsumW a) slices_S8_S7_0
        concatenates_S1_S7_S8_d0
    rw [e0]
    rfl
  · have htpos : 0 < t.val := Nat.pos_of_ne_zero ht
    have e1 : shiftW (cumsumW a) (ix1 t) = cumsumW a (ix1 ⟨t.val - 1, by omega⟩) :=
      WordScan.shift_succ (broadcastInDim S1 ![] bcast_S_S1 (constantI S_ 32 0#32)) (cumsumW a) slices_S8_S7_0
        concatenates_S1_S7_S8_d0 t htpos
    have e2 : (cumsumW a (ix1 ⟨t.val - 1, by omega⟩)).toNat
        = ∑ u ∈ Finset.univ.filter (fun u : Fin 8 => u ≤ (⟨t.val - 1, by omega⟩ : Fin 8)), (a (ix1 u)).toNat :=
      WordScan.cumsum_toNat a (broadcastInDim S_ ![] bcast_S_S_ (constantI S_ 32 0#32)) rfl reduceWindows_S8_S8_w8s1p7_0
        h_S_ hsum' ⟨t.val - 1, by omega⟩
    rw [e1, e2, Finset.sum_congr rfl (fun u _ => ha u), sum_filter_le f ⟨t.val - 1, by omega⟩]
    have hr : t.val - 1 + 1 = t.val := by omega
    show ∑ u ∈ Finset.range (t.val - 1 + 1), f u = _
    rw [hr]

/-! ## The stages -/

theorem sum_cnt_lt (s : Fin 32768 → ℕ) : ∑ u ∈ Finset.range 8, Group.cnt s u < 2 ^ 32 := by
  have h := Group.gstart_le_total s 8
  unfold Group.gstart at h
  omega

/-- The run starts: the shifted running sum of the counts. -/
theorem gsW_toNat (ty : IVec S32768 32) (s : Fin 32768 → ℕ) (h8 : ∀ j, s j < 8)
    (hmono : ∀ i j : Fin 32768, i ≤ j → s i ≤ s j)
    (hsorted : ∀ j : Fin 32768, sortedW ty (ix1 j) = BitVec.ofNat 32 (s j))
    (hcnt : ∀ t : Fin 8, (cntW ty (ix1 t)).toNat = Group.cnt s t.val) (t : Fin 8) :
    (gsW ty (ix1 t)).toNat = Group.gstart s t.val :=
  shift_cumsum_toNat (cntW ty) (Group.cnt s) hcnt (sum_cnt_lt s) t

/-- The tiles per type: count + 511 does not wrap (a count is at most 32768) and is below 2³¹, so its floor division by
    512 is the quotient of the values. -/
theorem tpgW_toNat (ty : IVec S32768 32) (s : Fin 32768 → ℕ) (h8 : ∀ j, s j < 8)
    (hmono : ∀ i j : Fin 32768, i ≤ j → s i ≤ s j)
    (hsorted : ∀ j : Fin 32768, sortedW ty (ix1 j) = BitVec.ofNat 32 (s j))
    (hcnt : ∀ t : Fin 8, (cntW ty (ix1 t)).toNat = Group.cnt s t.val) (t : Fin 8) :
    (tpgW ty (ix1 t)).toNat = Group.tiles s t.val := by
  have hc := hcnt t
  have hle := Group.cnt_le s t.val
  have ha : (addi (cntW ty) (splat8 511#32) (ix1 t)).toNat = Group.cnt s t.val + 511 := by
    show (cntW ty (ix1 t) + 511#32).toNat = _
    rw [BitVec.toNat_add, hc]
    show (Group.cnt s t.val + 511) % 2 ^ 32 = _
    omega
  have h := WordScan.floorDiv512_toNat (addi (cntW ty) (splat8 511#32)) (constantI S_ 32 512#32) (constantI S_ 32 0#32)
    (constantI S_ 32 1#32) rfl rfl rfl bcast_S_S8 t (by rw [ha]; omega)
  rw [ha] at h
  exact h

theorem sum_tiles_lt (s : Fin 32768 → ℕ) : ∑ u ∈ Finset.range 8, Group.tiles s u < 2 ^ 32 := by
  have h : ∑ u ∈ Finset.range 8, Group.tiles s u ≤ ∑ _u ∈ Finset.range 8, 64 :=
    Finset.sum_le_sum (fun u _ => Group.tiles_le s u)
  rw [Finset.sum_const, Finset.card_range] at h
  simp only [smul_eq_mul] at h
  omega

/-- The tile starts: the shifted running sum of the tiles per type. -/
theorem tsW_toNat (ty : IVec S32768 32) (s : Fin 32768 → ℕ) (h8 : ∀ j, s j < 8)
    (hmono : ∀ i j : Fin 32768, i ≤ j → s i ≤ s j)
    (hsorted : ∀ j : Fin 32768, sortedW ty (ix1 j) = BitVec.ofNat 32 (s j))
    (hcnt : ∀ t : Fin 8, (cntW ty (ix1 t)).toNat = Group.cnt s t.val) (t : Fin 8) :
    (tsW ty (ix1 t)).toNat = Group.tstart s t.val :=
  shift_cumsum_toNat (tpgW ty) (Group.tiles s) (tpgW_toNat ty s h8 hmono hsorted hcnt) (sum_tiles_lt s) t

theorem sum_tiles512_lt (s : Fin 32768 → ℕ) : ∑ u ∈ Finset.range 8, Group.tiles s u * 512 < 2 ^ 32 := by
  have h : ∑ u ∈ Finset.range 8, Group.tiles s u * 512 ≤ ∑ _u ∈ Finset.range 8, 64 * 512 :=
    Finset.sum_le_sum (fun u _ => Nat.mul_le_mul_right 512 (Group.tiles_le s u))
  rw [Finset.sum_const, Finset.card_range] at h
  simp only [smul_eq_mul] at h
  omega

/-- The padded starts: tiles · 512 is at most 64 · 512 and does not wrap; the shifted running sum of those. -/
theorem psW_toNat (ty : IVec S32768 32) (s : Fin 32768 → ℕ) (h8 : ∀ j, s j < 8)
    (hmono : ∀ i j : Fin 32768, i ≤ j → s i ≤ s j)
    (hsorted : ∀ j : Fin 32768, sortedW ty (ix1 j) = BitVec.ofNat 32 (s j))
    (hcnt : ∀ t : Fin 8, (cntW ty (ix1 t)).toNat = Group.cnt s t.val) (t : Fin 8) :
    (psW ty (ix1 t)).toNat = Group.pstart s t.val := by
  have hm : ∀ u : Fin 8, (muli (tpgW ty) (splat8 512#32) (ix1 u)).toNat = Group.tiles s u.val * 512 := by
    intro u
    have htl := Group.tiles_le s u.val
    show (tpgW ty (ix1 u) * 512#32).toNat = _
    rw [BitVec.toNat_mul, tpgW_toNat ty s h8 hmono hsorted hcnt u]
    show (Group.tiles s u.val * 512) % 2 ^ 32 = _
    omega
  exact shift_cumsum_toNat (muli (tpgW ty) (splat8 512#32)) (fun u => Group.tiles s u * 512) hm (sum_tiles512_lt s) t

/-! ## The take at a sorted type -/

/-- The take of a table of eight words at an in-range index word reads the table there. -/
theorem takeW_apply (table : IVec S8 32) (idx : IVec S32768 32) (j : Fin 32768) (hj : (idx (ix1 j)).toNat < 8) :
    takeW table idx (ix1 j) = table (ix1 ⟨(idx (ix1 j)).toNat, hj⟩) :=
  WordTake.take_apply table idx (constantI S_ 32 0#32) (constantI S_ 32 0#32) (constantI S_ 32 8#32)
    (constantI S_ 32 2147483648#32) (constantI S1 32 7#32) (constantI S_ 1 1#1) rfl rfl rfl rfl bcast_S_S32768
    bcast_S32768_S32768x1_0 bcast_S_S32768x1 bcast_S1_S1x1_1 bcast_S1x1_S32768x1_0_1 reducesTo_S32768x1_S32768_d1 h_S_
    gather_S8_S32768x1_S32768_n_0_n_n_0_1_1 rfl rfl rfl rfl j hj

/-- At the sorted types, whose word at j is the number s j below 8, the take reads the table at s j. -/
theorem takeW_sorted (ty : IVec S32768 32) (s : Fin 32768 → ℕ) (h8 : ∀ j, s j < 8)
    (hsorted : ∀ j : Fin 32768, sortedW ty (ix1 j) = BitVec.ofNat 32 (s j)) (table : IVec S8 32) (j : Fin 32768) :
    takeW table (sortedW ty) (ix1 j) = table (ix1 ⟨s j, h8 j⟩) := by
  have hv : (sortedW ty (ix1 j)).toNat = s j := by
    rw [hsorted j, BitVec.toNat_ofNat]
    exact Nat.mod_eq_of_lt (by have := h8 j; omega)
  have hj : (sortedW ty (ix1 j)).toNat < 8 := by rw [hv]; exact h8 j
  rw [takeW_apply table (sortedW ty) j hj]
  exact congrArg (fun k => table (ix1 k)) (Fin.ext hv)

/-- Each position's destination: the padded start of its type plus its offset in its type's run. The run start is at
    most the position, so the subtraction stays above zero, and the sum is below 36864. -/
theorem destW_apply (ty : IVec S32768 32) (s : Fin 32768 → ℕ) (h8 : ∀ j, s j < 8)
    (hmono : ∀ i j : Fin 32768, i ≤ j → s i ≤ s j)
    (hsorted : ∀ j : Fin 32768, sortedW ty (ix1 j) = BitVec.ofNat 32 (s j))
    (hcnt : ∀ t : Fin 8, (cntW ty (ix1 t)).toNat = Group.cnt s t.val) (j : Fin 32768) :
    destW ty (ix1 j) = BitVec.ofNat 32 (Group.dest s j) := by
  have hp := psW_toNat ty s h8 hmono hsorted hcnt ⟨s j, h8 j⟩
  have hg := gsW_toNat ty s h8 hmono hsorted hcnt ⟨s j, h8 j⟩
  have hgle := Group.gstart_le s h8 hmono j
  have hdlt := Group.dest_lt s h8 hmono j
  have hjlt := j.isLt
  have hd : Group.dest s j = Group.pstart s (s j) + (j.val - Group.gstart s (s j)) := rfl
  show IntOp.addi (takeW (psW ty) (sortedW ty) (ix1 j))
      (IntOp.subi (BitVec.ofNat 32 j.val) (takeW (gsW ty) (sortedW ty) (ix1 j))) = _
  rw [takeW_sorted ty s h8 hsorted, takeW_sorted ty s h8 hsorted]
  apply BitVec.eq_of_toNat_eq
  show (psW ty (ix1 ⟨s j, h8 j⟩) + (BitVec.ofNat 32 j.val - gsW ty (ix1 ⟨s j, h8 j⟩))).toNat = _
  rw [BitVec.toNat_add, BitVec.toNat_sub, hp, hg, BitVec.toNat_ofNat, BitVec.toNat_ofNat, hd]
  show (Group.pstart s (s j) + (2 ^ 32 - Group.gstart s (s j) + j.val % 2 ^ 32) % 2 ^ 32) % 2 ^ 32
    = (Group.pstart s (s j) + (j.val - Group.gstart s (s j))) % 2 ^ 32
  rw [hd] at hdlt
  omega

/-- A destination is below 2³¹, non-negative read signed, so the wrap of negative indices leaves it. -/
theorem wrapW_dest (ty : IVec S32768 32) (s : Fin 32768 → ℕ) (h8 : ∀ j, s j < 8)
    (hmono : ∀ i j : Fin 32768, i ≤ j → s i ≤ s j)
    (hsorted : ∀ j : Fin 32768, sortedW ty (ix1 j) = BitVec.ofNat 32 (s j))
    (hcnt : ∀ t : Fin 8, (cntW ty (ix1 t)).toNat = Group.cnt s t.val) (n : BitVec 32) (j : Fin 32768) :
    wrapW n (destW ty) (ix1 j) = BitVec.ofNat 32 (Group.dest s j) := by
  have hdlt := Group.dest_lt s h8 hmono j
  have hd := destW_apply ty s h8 hmono hsorted hcnt j
  have hx : (destW ty (ix1 j)).toNat < 2 ^ 31 := by
    rw [hd, BitVec.toNat_ofNat]
    show Group.dest s j % 2 ^ 32 < 2 ^ 31
    omega
  have hw : wrapW n (destW ty) (ix1 j) = destW ty (ix1 j) :=
    WordTake.wrap_vec_id bcast_S_S32768 (constantI S_ 32 0#32) (constantI S_ 32 n) rfl (destW ty) (ix1 j) hx
  rw [hw, hd]

/-! ## Each tile's type -/

/-- The type of tile k: over the eight types, the number whose first tile is at or before k (every word involved is
    small, so the signed comparison is the comparison of the values), less one — at least 0 since type 0 starts at tile
    0, at most 7 — which the clip to [0, 7] leaves alone. -/
theorem gidW_toNat (ty : IVec S32768 32) (s : Fin 32768 → ℕ) (h8 : ∀ j, s j < 8)
    (hmono : ∀ i j : Fin 32768, i ≤ j → s i ≤ s j)
    (hsorted : ∀ j : Fin 32768, sortedW ty (ix1 j) = BitVec.ofNat 32 (s j))
    (hcnt : ∀ t : Fin 8, (cntW ty (ix1 t)).toNat = Group.cnt s t.val) (k : Fin 72) :
    (gidW ty (ix1 k)).toNat = Group.gidRaw s k.val - 1 := by
  have hpos := Group.gidRaw_pos s k.val
  have hle := Group.gidRaw_le s k.val
  have hklt := k.isLt
  -- the mask "tile k is at or after type q's first tile", at (k, q)
  have hm : ∀ q : Fin 8,
      cmpi .sge (broadcastInDim S72x8 ![0, 1] bcast_S72x1_S72x8_0_1 (broadcastInDim S72x1 ![0] bcast_S72_S72x1_0 (iotaInDim S72 32 0)))
        (broadcastInDim S72x8 ![0, 1] bcast_S1x8_S72x8_0_1 (broadcastInDim S1x8 ![1] bcast_S8_S1x8_1 (tsW ty)))
        (StableHlo.Predicate.ij k q) = 1#1 ↔ Group.tstart s q.val ≤ k.val := by
    intro q
    have hts := tsW_toNat ty s h8 hmono hsorted hcnt q
    have htle := Group.tstart_le s h8 q.val (by have := q.isLt; omega)
    show IntOp.cmpi .sge
        (broadcastInDim S72x8 ![0, 1] bcast_S72x1_S72x8_0_1 (broadcastInDim S72x1 ![0] bcast_S72_S72x1_0 (iotaInDim S72 32 0))
          (StableHlo.Predicate.ij k q))
        (broadcastInDim S72x8 ![0, 1] bcast_S1x8_S72x8_0_1 (broadcastInDim S1x8 ![1] bcast_S8_S1x8_1 (tsW ty))
          (StableHlo.Predicate.ij k q)) = 1#1 ↔ _
    rw [StableHlo.Predicate.bcast_rows bcast_S72_S72x1_0 bcast_S72x1_S72x8_0_1 (iotaInDim S72 32 0) k q,
      StableHlo.Predicate.bcast_cols bcast_S8_S1x8_1 bcast_S1x8_S72x8_0_1 (tsW ty) k q,
      StableHlo.Predicate.iota_apply, WordTake.ofFin_eq_ix1]
    have hkn : (BitVec.ofNat 32 k.val).toNat = k.val := by
      rw [BitVec.toNat_ofNat]; exact Nat.mod_eq_of_lt (by omega)
    rw [StableHlo.Predicate.sge_iff_toNat (by rw [hkn]; omega) (by rw [hts]; omega), hts, hkn]
  -- the count over the eight types
  have hcount : (Host.reduce IntOp.addi
        (extui 32 (cmpi .sge (broadcastInDim S72x8 ![0, 1] bcast_S72x1_S72x8_0_1 (broadcastInDim S72x1 ![0] bcast_S72_S72x1_0 (iotaInDim S72 32 0)))
          (broadcastInDim S72x8 ![0, 1] bcast_S1x8_S72x8_0_1 (broadcastInDim S1x8 ![1] bcast_S8_S1x8_1 (tsW ty)))) natLt_1_32)
        (constantI S_ 32 0#32) reducesTo_S72x8_S72_d1 h_S_ (ix1 k)).toNat = Group.gidRaw s k.val := by
    rw [StableHlo.Predicate.toNat_reduce_count_cols (by decide) _ natLt_1_32 reducesTo_S72x8_S72_d1 h_S_ (ix1 k)]
    rw [Finset.filter_congr (fun q _ => hm q)]
    exact card_fin_filter (fun t => Group.tstart s t ≤ k.val) 8
  -- less one, then the clip
  have hsub : (subi
        (Host.reduce IntOp.addi
          (extui 32 (cmpi .sge (broadcastInDim S72x8 ![0, 1] bcast_S72x1_S72x8_0_1 (broadcastInDim S72x1 ![0] bcast_S72_S72x1_0 (iotaInDim S72 32 0)))
            (broadcastInDim S72x8 ![0, 1] bcast_S1x8_S72x8_0_1 (broadcastInDim S1x8 ![1] bcast_S8_S1x8_1 (tsW ty)))) natLt_1_32)
          (constantI S_ 32 0#32) reducesTo_S72x8_S72_d1 h_S_)
        (broadcastInDim S72 ![] bcast_S_S72 (constantI S_ 32 1#32)) (ix1 k)).toNat = Group.gidRaw s k.val - 1 := by
    show (Host.reduce IntOp.addi _ (constantI S_ 32 0#32) reducesTo_S72x8_S72_d1 h_S_ (ix1 k) - 1#32).toNat = _
    rw [BitVec.toNat_sub, hcount]
    show (2 ^ 32 - 1 + Group.gidRaw s k.val) % 2 ^ 32 = _
    omega
  have hclip := WordTake.clip_id bcast_S_S72 (constantI S_ 32 0#32) (constantI S_ 32 7#32) rfl rfl _ (ix1 k)
    (by rw [hsub]; omega)
  show (minsi _ (maxsi _ _) (ix1 k)).toNat = _
  rw [← hsub]
  exact congrArg BitVec.toNat hclip

end Cert.KernelIdeal.Hand

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.LibScatterSet.lean ====
/-
  GENERAL LEMMA: a host scatter whose body returns the update (jnp's `x.at[idx].set(v)`), READ AT AN INDEX, for any
  dimension numbers and any element type.

  The scatter is the left fold, over the update indices in row-major order, of "replace the element the update lands
  on by the update". So an element no update lands on keeps the operand's value (`scatter_set_none`), and an element
  some update lands on ends at the LAST such update in row-major order (`scatter_set_last`): every later step leaves
  it alone.
  Nothing here mentions a program.
-/
import Idealize.ShloMosaic.PureOps.ShapeOps
import Idealize.ShloMosaic.PureOps.Dims

noncomputable section

namespace Cert.Hand.ScatterSet

open Idealize.ShloMosaic

variable {s si u : Shape} {α : Type} {w : Nat}

/-- A left fold of steps on functions, read at one point `i`: if every step of the list leaves the value at `i`
    alone, the fold does. -/
theorem foldl_keep {ι β γ : Type} (step : (β → γ) → ι → β → γ) (i : β) (P : ι → Prop)
    (hkeep : ∀ r n, ¬ P n → step r n i = r i) (l : List ι) (r₀ : β → γ) (h : ∀ n ∈ l, ¬ P n) :
    l.foldl step r₀ i = r₀ i := by
  induction l generalizing r₀ with
  | nil => rfl
  | cons n l ih =>
    rw [List.foldl_cons, ih _ (fun m hm => h m (List.mem_cons_of_mem _ hm))]
    exact hkeep r₀ n (h n List.mem_cons_self)

/-- The same fold when the step at `n₀` writes `v n₀` at `i` and every step after it leaves `i` alone: the fold
    ends at `v n₀` there, whatever came before. -/
theorem foldl_last {ι β γ : Type} (step : (β → γ) → ι → β → γ) (i : β) (P : ι → Prop) (v : ι → γ)
    (hkeep : ∀ r n, ¬ P n → step r n i = r i) (hset : ∀ r n, P n → step r n i = v n)
    (l₁ l₂ : List ι) (n₀ : ι) (r₀ : β → γ) (h₀ : P n₀) (h₂ : ∀ n ∈ l₂, ¬ P n) :
    (l₁ ++ n₀ :: l₂).foldl step r₀ i = v n₀ := by
  rw [List.foldl_append, List.foldl_cons, foldl_keep step i P hkeep l₂ _ h₂]
  exact hset _ n₀ h₀

/-- One step of the scatter whose body returns the update: the update at row-major position `n` replaces the element
    it lands on, and is dropped when it lands outside the operand. -/
private def step (d : ScatterDims s si u) (idx : IVec si w) (upd : u.Idx → α) (r : s.Idx → α) (n : Fin u.numel) :
    s.Idx → α :=
  match d.resultIdx? (u.rowMajor.symm n) idx with
  | some i'' => fun i' => if i' = i'' then upd (u.rowMajor.symm n) else r i'
  | none => r

/-- The scatter is the fold of that step over the row-major enumeration of the updates. -/
private theorem scatter_eq_foldl (d : ScatterDims s si u) (x : s.Idx → α) (idx : IVec si w) (upd : u.Idx → α) :
    Host.scatter d (fun _ b => b) x idx upd = (List.finRange u.numel).foldl (step d idx upd) x := rfl

/-- A step that does not land on `i` leaves the value there. -/
private theorem step_keep (d : ScatterDims s si u) (idx : IVec si w) (upd : u.Idx → α) (i : s.Idx)
    (r : s.Idx → α) (n : Fin u.numel) (hn : ¬ d.resultIdx? (u.rowMajor.symm n) idx = some i) :
    step d idx upd r n i = r i := by
  unfold step
  generalize d.resultIdx? (u.rowMajor.symm n) idx = o at hn
  cases o with
  | none => rfl
  | some i'' =>
    have hne : i ≠ i'' := fun e => hn (e ▸ rfl)
    exact if_neg hne

/-- A step that lands on `i` writes its update there. -/
private theorem step_set (d : ScatterDims s si u) (idx : IVec si w) (upd : u.Idx → α) (i : s.Idx)
    (r : s.Idx → α) (n : Fin u.numel) (hn : d.resultIdx? (u.rowMajor.symm n) idx = some i) :
    step d idx upd r n i = upd (u.rowMajor.symm n) := by
  unfold step
  rw [hn]
  exact if_pos rfl

/-- No update lands on `i`: the scatter leaves the operand's element there. -/
theorem scatter_set_none (d : ScatterDims s si u) (x : s.Idx → α) (idx : IVec si w) (upd : u.Idx → α) (i : s.Idx)
    (h : ∀ j : u.Idx, d.resultIdx? j idx ≠ some i) :
    Host.scatter d (fun _ b => b) x idx upd i = x i := by
  rw [scatter_eq_foldl]
  exact foldl_keep _ i (fun n => d.resultIdx? (u.rowMajor.symm n) idx = some i)
    (step_keep d idx upd i) _ x (fun n _ => h (u.rowMajor.symm n))

/-- Update `j₀` lands on `i` and no update after it in row-major order does: the scatter leaves `upd j₀` there. -/
theorem scatter_set_last (d : ScatterDims s si u) (x : s.Idx → α) (idx : IVec si w) (upd : u.Idx → α) (i : s.Idx)
    (j₀ : u.Idx) (h₀ : d.resultIdx? j₀ idx = some i)
    (hl : ∀ j : u.Idx, (u.rowMajor j₀).val < (u.rowMajor j).val → d.resultIdx? j idx ≠ some i) :
    Host.scatter d (fun _ b => b) x idx upd i = upd j₀ := by
  rw [scatter_eq_foldl]
  -- split the row-major enumeration at the position of `j₀`; it is strictly increasing, so what follows is later
  obtain ⟨l₁, l₂, hl₁₂⟩ := List.append_of_mem (List.mem_finRange (u.rowMajor j₀))
  have hpw := List.pairwise_lt_finRange u.numel
  rw [hl₁₂] at hpw ⊢
  have hlater : ∀ n ∈ l₂, u.rowMajor j₀ < n := (List.pairwise_cons.1 (List.pairwise_append.1 hpw).2.1).1
  have key := foldl_last (step d idx upd) i (fun n => d.resultIdx? (u.rowMajor.symm n) idx = some i)
    (fun n => upd (u.rowMajor.symm n)) (step_keep d idx upd i) (step_set d idx upd i)
    l₁ l₂ (u.rowMajor j₀) x (by rw [Equiv.symm_apply_apply]; exact h₀)
    (fun n hn => hl (u.rowMajor.symm n) (by rw [Equiv.apply_symm_apply]; exact hlater n hn))
  rw [Equiv.symm_apply_apply] at key
  exact key

end Cert.Hand.ScatterSet

end
-- ==== Proof.HostRows.lean ====
/-
  GENERAL LEMMAS: jnp's row gather `x[idx]` and row scatter `x.at[idx].set(u)`, each READ AT AN INDEX, when the index words
  are in range and (for the scatter) pairwise distinct, for ARBITRARY extents N (table rows), E (updates) and D (columns)
  and any element type.

  * `rowScatterSet_apply`: the start words of the E updates are the values of an INJECTIVE map f : Fin E → Fin N. Then row
    f e of the result is update row e: update (e, q) lands on (f e, q), and any update landing there has the same start
    word, hence (injectivity) the same e, and the same column, so it is (e, q) itself and nothing later overwrites it.
  * `rowScatterSet_none`: a row d that is no value of f keeps the operand's entries: no update lands on it.
  * `rowGather_at`: when the start word of e, read signed, is a row r, the clamp into [0, N − 1] does nothing and
    the gathered row e is row r of the table.
  * `scatterDims_eq_rowScatter`, `gatherDims_eq_rowGather`: a dimension-number record whose fields are the row scatter's
    (row gather's) IS that record: a structure is determined by its fields, the well-formedness field being a proof.
-/
import Idealize.ShloMosaic.Lib.ValueIdx
import Idealize.ShloMosaic.PureOps
import proofs.«407422_j80762565034484_3_alg».proof.Proof.LibRowGatherScatter
import proofs.«407422_j80762565034484_3_alg».proof.Proof.LibScatterSet

noncomputable section

namespace Cert.Hand.HostRows

open Idealize.ShloMosaic Idealize.ShloMosaic.ValueIdx Cert.ReferenceIdeal.Hand

/-! ## The row scatter that sets -/

section Scatter
variable {α : Type} {N E D : Nat}

/-- Two updates whose start words are values of the injective f at the same row are the same update row. -/
theorem row_eq_of_word_eq (idx : IVec ⟨2, ![E, 1]⟩ 32) (f : Fin E → Fin N)
    (hf : ∀ e, (idx (ix2 e 0)).toInt = ((f e).val : ℤ)) (hinj : Function.Injective f) (e e' : Fin E)
    (h : (idx (ix2 e' 0)).toInt = ((f e).val : ℤ)) : e' = e := by
  have h' : ((f e').val : ℤ) = ((f e).val : ℤ) := (hf e').symm.trans h
  exact hinj (Fin.ext (by omega))

/-- Row f e of the result is update row e. -/
theorem rowScatterSet_apply (wf : ScatterDims.WF ⟨2, ![N, D]⟩ ⟨2, ![E, 1]⟩ ⟨2, ![E, D]⟩ [1] [0] [0] 1)
    (x : (⟨2, ![N, D]⟩ : Shape).Idx → α) (idx : IVec ⟨2, ![E, 1]⟩ 32) (upd : (⟨2, ![E, D]⟩ : Shape).Idx → α)
    (f : Fin E → Fin N) (hf : ∀ e, (idx (ix2 e 0)).toInt = ((f e).val : ℤ)) (hinj : Function.Injective f)
    (e : Fin E) (q : Fin D) :
    Host.scatter (rowScatter N E D wf) (fun _ b => b) x idx upd (ix2 (f e) q) = upd (ix2 e q) := by
  refine Cert.Hand.ScatterSet.scatter_set_last (rowScatter N E D wf) x idx upd (ix2 (f e) q) (ix2 e q)
    ((rowScatter_resultIdx_iff wf idx e q (f e) q).mpr ⟨hf e, rfl⟩) ?_
  intro j hlt hj
  -- an update landing on (f e, q) is (e, q) itself, so it is not strictly later
  obtain ⟨e', q', rfl⟩ : ∃ (e' : Fin E) (q' : Fin D), j = ix2 e' q' := ⟨j 0, j 1, eq_ix2 j⟩
  obtain ⟨hw, hq⟩ := (rowScatter_resultIdx_iff wf idx e' q' (f e) q).mp hj
  have he : e' = e := row_eq_of_word_eq idx f hf hinj e e' hw
  subst he hq
  exact absurd hlt (lt_irrefl _)

/-- A row that is no value of f keeps the operand's entries. -/
theorem rowScatterSet_none (wf : ScatterDims.WF ⟨2, ![N, D]⟩ ⟨2, ![E, 1]⟩ ⟨2, ![E, D]⟩ [1] [0] [0] 1)
    (x : (⟨2, ![N, D]⟩ : Shape).Idx → α) (idx : IVec ⟨2, ![E, 1]⟩ 32) (upd : (⟨2, ![E, D]⟩ : Shape).Idx → α)
    (f : Fin E → Fin N) (hf : ∀ e, (idx (ix2 e 0)).toInt = ((f e).val : ℤ))
    (d : Fin N) (hd : ∀ e, f e ≠ d) (q : Fin D) :
    Host.scatter (rowScatter N E D wf) (fun _ b => b) x idx upd (ix2 d q) = x (ix2 d q) := by
  refine Cert.Hand.ScatterSet.scatter_set_none (rowScatter N E D wf) x idx upd (ix2 d q) ?_
  intro j hj
  -- an update landing on row d would have start word d, a value of f
  obtain ⟨e', q', rfl⟩ : ∃ (e' : Fin E) (q' : Fin D), j = ix2 e' q' := ⟨j 0, j 1, eq_ix2 j⟩
  obtain ⟨hw, _⟩ := (rowScatter_resultIdx_iff wf idx e' q' d q).mp hj
  have h' := hf e'
  exact hd e' (Fin.ext (by omega))

end Scatter

/-! ## The row gather at an in-range word -/

section Gather
variable {α : Type} {N E D : Nat}

/-- The gathered row e is row r of the table when the start word of e, read signed, is r. -/
theorem rowGather_at (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (e : Fin E) (q : Fin D) (r : Fin N)
    (hr : (idx (ix2 e 0)).toInt = (r.val : ℤ)) :
    Host.gather (rowGather N E D wf) x idx (ix2 e q) = x (ix2 r q) := by
  -- the word read signed is r < N, so its clamp into [0, N − 1] is r
  have hrow : (⟨min (idx (ix2 e 0)).toInt.toNat (N - 1), by omega⟩ : Fin N) = r := by
    apply Fin.ext
    show min (idx (ix2 e 0)).toInt.toNat (N - 1) = r.val
    have := r.isLt
    omega
  exact (rowGather_apply hN wf x idx e q).trans (congrArg (fun r' : Fin N => x (ix2 r' q)) hrow)

end Gather

/-! ## A record given field by field is the row scatter's / row gather's -/

section Records
variable {N E D : Nat}

/-- A scatter record with the row scatter's four lists is the row scatter's record, whichever proof of
    well-formedness the latter is built from: the lists agree and the last field is a proof. -/
theorem scatterDims_eq_rowScatter_of (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (wf : ScatterDims.WF ⟨2, ![N, D]⟩ ⟨2, ![E, 1]⟩ ⟨2, ![E, D]⟩ [1] [0] [0] 1) :
    d = rowScatter N E D wf := by
  obtain ⟨uw, iw, sd, iv, wf'⟩ := d
  dsimp only at h1 h2 h3 h4
  subst h1 h2 h3 h4
  rfl

/-- The same, the proof of well-formedness being the record's own. -/
theorem scatterDims_eq_rowScatter (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) :
    ∃ wf, d = rowScatter N E D wf := by
  obtain ⟨uw, iw, sd, iv, wf'⟩ := d
  dsimp only at h1 h2 h3 h4
  subst h1 h2 h3 h4
  exact ⟨wf', rfl⟩

/-- A gather record with the row gather's seven fields is the row gather's record, whichever proof of
    well-formedness the latter is built from. -/
theorem gatherDims_eq_rowGather_of (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (wf : GatherDims.WF ⟨2, ![N, D]⟩ ⟨2, ![E, 1]⟩ ⟨2, ![E, D]⟩ [1] [0] [] [0] [] 1 ![1, D]) :
    d = rowGather N E D wf := by
  obtain ⟨od, cd, ob, sb, sm, iv, ss, wf'⟩ := d
  dsimp only at h1 h2 h3 h4 h5 h6 h7
  subst h1 h2 h3 h4 h5 h6 h7
  rfl

/-- The same, the proof of well-formedness being the record's own. -/
theorem gatherDims_eq_rowGather (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D]) :
    ∃ wf, d = rowGather N E D wf := by
  obtain ⟨od, cd, ob, sb, sm, iv, ss, wf'⟩ := d
  dsimp only at h1 h2 h3 h4 h5 h6 h7
  subst h1 h2 h3 h4 h5 h6 h7
  exact ⟨wf', rfl⟩

end Records

end Cert.Hand.HostRows

end
-- ==== Proof.Unsort.lean ====
/-
  The float stages of the wrapper's host computation, READ AT AN INDEX, given what the two columns of start words
  are: the wrapped sorting words are the values of a map π of the 32768 positions, and the wrapped destination words
  the values of a map dst of the positions into the 36864 padded rows.

  * `unsortW_apply` (π injective): row π j of the un-sorted result is row dst j of the padded result. The last scatter
    sets row π j to row j of its updates, distinct positions going to distinct rows; and row j of the updates is the
    gather's row at the in-range word dst j.
  * `paddedX_apply` (dst injective): padded row dst j is row π j of x. The scatter sets row dst j to row j of its
    updates, row j of the updates is the gather's row at the in-range word π j, and over the extended reals the change
    of float format is the identity.
  * `weightT_apply`: the transposed weights at (t, k, o) are the weights at (t, o, k), the permutation exchanging the
    last two axes and the change of float format being the identity.
-/
import Idealize.ShloMosaic.Lib.ValueIdx
import Idealize.ShloMosaic.Lib.Pipeline.Value
import Idealize.ShloMosaic.PureOps.Ideal
import Idealize.ShloMosaic.Lib.StableHlo.Predicate
import proofs.«407422_j80762565034484_3_alg».proof.Proof.Stages
import proofs.«407422_j80762565034484_3_alg».proof.Proof.HostRows

noncomputable section

namespace Cert.KernelIdeal.Hand

open Cert.KernelIdeal Cert.KernelIdeal.Gen Idealize.ShloMosaic Idealize.ShloMosaic.ValueIdx
open Cert.ReferenceIdeal.Hand Cert.Hand.HostRows
open Idealize.ShloMosaic.StableHlo.Predicate (toInt_ofNat_small)

/-! ## The two columns of start words, read signed -/

/-- A vector of words as a column, at (e, 0), is the vector at e. -/
theorem colW_apply (v : IVec S32768 32) (e : Fin 32768) : colW v (ix2 e 0) = v (ix1 e) :=
  bcastCol_apply bcast_S32768_S32768x1_0 v e 0

/-- The column of wrapped sorting words at (e, 0), read signed, is π e: the word is the numeral π e < 2³¹. -/
theorem sortCol_toInt (ty : IVec S32768 32) (π : Fin 32768 → Fin 32768)
    (hσ : ∀ (n : BitVec 32) (j : Fin 32768), wrapW n (sortIdxW ty) (ix1 j) = BitVec.ofNat 32 (π j).val)
    (n : BitVec 32) (e : Fin 32768) :
    (colW (wrapW n (sortIdxW ty)) (ix2 e 0)).toInt = ((π e).val : ℤ) := by
  rw [colW_apply, hσ n e]
  exact toInt_ofNat_small _ (by have := (π e).isLt; omega)

/-- The column of wrapped destination words at (e, 0), read signed, is dst e: the word is the numeral dst e < 2³¹. -/
theorem destCol_toInt (ty : IVec S32768 32) (dst : Fin 32768 → Fin 36864)
    (hd : ∀ j : Fin 32768, wrapW 36864#32 (destW ty) (ix1 j) = BitVec.ofNat 32 (dst j).val) (e : Fin 32768) :
    (colW (wrapW 36864#32 (destW ty)) (ix2 e 0)).toInt = ((dst e).val : ℤ) := by
  rw [colW_apply, hd e]
  exact toInt_ofNat_small _ (by have := (dst e).isLt; omega)

/-! ## The float stages -/

/-- Row π j of the un-sorted result is row dst j of the padded result. -/
theorem unsortW_apply {F : FTy → Type} [FloatOps F] (ty : IVec S32768 32) (π : Fin 32768 → Fin 32768)
    (dst : Fin 32768 → Fin 36864)
    (hσ : ∀ (n : BitVec 32) (j : Fin 32768), wrapW n (sortIdxW ty) (ix1 j) = BitVec.ofNat 32 (π j).val)
    (hd : ∀ j : Fin 32768, wrapW 36864#32 (destW ty) (ix1 j) = BitVec.ofNat 32 (dst j).val)
    (po : FVec F S36864x1024 .f32) (hπ : Function.Injective π) (j : Fin 32768) (o : Fin 1024) :
    unsortW po ty (ix2 (π j) o) = po (ix2 (dst j) o) := by
  unfold unsortW
  rw [show scatter_S32768x1024_S32768x1_S32768x1024_1_0_0_1
        = rowScatter 32768 32768 1024 scatter_S32768x1024_S32768x1_S32768x1024_1_0_0_1_wf from rfl,
    rowScatterSet_apply _ _ (colW (wrapW 32768#32 (sortIdxW ty))) _ π (sortCol_toInt ty π hσ 32768#32) hπ j o,
    show gather_S36864x1024_S32768x1_S32768x1024_1_0_n_n_0_1_11024
        = rowGather 36864 32768 1024 gather_S36864x1024_S32768x1_S32768x1024_1_0_n_n_0_1_11024_wf from rfl]
  exact rowGather_at (by decide) _ po _ j o (dst j) (destCol_toInt ty dst hd j)

/-- Padded row dst j is row π j of x. -/
theorem paddedX_apply (ty : IVec S32768 32) (π : Fin 32768 → Fin 32768) (dst : Fin 32768 → Fin 36864)
    (hσ : ∀ (n : BitVec 32) (j : Fin 32768), wrapW n (sortIdxW ty) (ix1 j) = BitVec.ofNat 32 (π j).val)
    (hd : ∀ j : Fin 32768, wrapW 36864#32 (destW ty) (ix1 j) = BitVec.ofNat 32 (dst j).val)
    (x : FVec Ideal S32768x1024 .f32) (hdinj : Function.Injective dst) (j : Fin 32768) (k : Fin 1024) :
    paddedX (F := Ideal) x ty (ix2 (dst j) k) = x (ix2 (π j) k) := by
  unfold paddedX
  rw [show scatter_S36864x1024_S32768x1_S32768x1024_1_0_0_1
        = rowScatter 36864 32768 1024 scatter_S36864x1024_S32768x1_S32768x1024_1_0_0_1_wf from rfl,
    rowScatterSet_apply _ _ (colW (wrapW 36864#32 (destW ty))) _ dst (destCol_toInt ty dst hd) hdinj j k,
    show gather_S32768x1024_S32768x1_S32768x1024_1_0_n_n_0_1_11024
        = rowGather 32768 32768 1024 gather_S32768x1024_S32768x1_S32768x1024_1_0_n_n_0_1_11024_wf from rfl,
    rowGather_at (by decide) _ _ _ j k (π j) (sortCol_toInt ty π hσ 32768#32 j)]
  rfl

/-- The transposed weights at (t, k, o) are the weights at (t, o, k). -/
theorem weightT_apply (w : FVec Ideal S8x1024x1024 .f32) (t : Fin 8) (k o : Fin 1024) :
    weightT (F := Ideal) w (ix3 t k o) = w (ix3 t o k) := by
  unfold weightT
  rw [truncf_apply]
  refine transpose_apply _ w _ (ix3 t k o) (ix3 t o k) fun b => ?_
  match b with
  | ⟨0, _⟩ => rfl
  | ⟨1, _⟩ => rfl
  | ⟨2, _⟩ => rfl

end Cert.KernelIdeal.Hand

end
-- ==== Proof.KernelValue.lean ====
/-
  THE KERNEL SIDE'S VALUE, ASSEMBLED. The wrapper sorts the 32768 positions by type, lays the sorted rows out in runs
  padded to whole tiles of 512 rows, and after the tiled product gathers the rows back and scatters them to their
  original positions. Four facts about those stages combine:

  * the sorting map is a bijection of the positions, the types along it are nondecreasing and below 8, and the counts
    per type are the counts of the sorted types;
  * the destination words are the padded slots `dest` of the sorted places, and the tile types are the types recovered
    from the tile starts;
  * row (sorting map of j) of the un-sorted result is row `dest j` of the padded result; padded input row `dest j` is
    input row (sorting map of j); the transposed weights exchange the last two axes;
  * `dest` is one to one into the 36864 padded rows and the tile of `dest j` has the type of place j.

  So the un-sorted result at a position is the padded result at that position's slot, whose tile carries the position's
  own type, and the padded operands there are the position's own row and its type's weights.
-/
import proofs.«407422_j80762565034484_3_alg».proof.Proof.Stages
import proofs.«407422_j80762565034484_3_alg».proof.Proof.GroupMath
import proofs.«407422_j80762565034484_3_alg».proof.Proof.StageSort
import proofs.«407422_j80762565034484_3_alg».proof.Proof.StageNat
import proofs.«407422_j80762565034484_3_alg».proof.Proof.Unsort
import Idealize.ShloMosaic.Lib.ValueIdx

noncomputable section

open scoped BigOperators

namespace Cert.KernelIdeal.Hand

open Cert.KernelIdeal Cert.KernelIdeal.Gen Idealize.ShloMosaic Idealize.ShloMosaic.ValueIdx Cert.Hand

/-- THE KERNEL SIDE'S VALUE. Given that every padded row of the padded result holds, at the type of its tile, the
    product of that padded row of the inputs with the transposed weights of that type plus that type's bias, the
    un-sorted result at position `n` is the product of row `n` of the inputs with the weights of `n`'s type plus that
    type's bias. Position `n` is the place `j` of the sorted order (the sorting map is onto); row `n` of the un-sorted
    result is the padded result's row `dest j`; the tile of `dest j` has the type of place `j`, which is `n`'s type;
    padded input row `dest j` is row `n` of the inputs (`dest` is one to one); and the transposed weights at
    (type, k, o) are the weights at (type, o, k). -/
theorem kernel_value (ty : IVec S32768 32) (hty : ∀ n : Fin 32768, (ty (ix1 n)).toNat < 8)
    (x : FVec Ideal S32768x1024 .f32) (w : FVec Ideal S8x1024x1024 .f32) (b : FVec Ideal S8x1024 .f32)
    (po : FVec Ideal S36864x1024 .f32)
    (hpo : ∀ (r : Fin 36864) (o : Fin 1024) (g : Fin 8),
        (gidW ty (ix1 (⟨r.val / 512, by omega⟩ : Fin 72))).toNat = g.val →
        po (ix2 r o) = (∑ k : Fin 1024, paddedX (F := Ideal) x ty (ix2 r k) * weightT (F := Ideal) w (ix3 g k o))
          + b (ix2 g o))
    (n : Fin 32768) (o : Fin 1024) :
    unsortW po ty (ix2 n o)
      = (∑ k : Fin 1024, x (ix2 n k) * w (ix3 ⟨(ty (ix1 n)).toNat, hty n⟩ o k))
        + b (ix2 ⟨(ty (ix1 n)).toNat, hty n⟩ o) := by
  obtain ⟨j, rfl⟩ := (sperm_bijective ty).2 n
  have h8 : ∀ i, styp ty i < 8 := styp_lt ty hty
  have hmono : ∀ i i' : Fin 32768, i ≤ i' → styp ty i ≤ styp ty i' := styp_mono ty hty
  have hsorted : ∀ i, sortedW ty (ix1 i) = BitVec.ofNat 32 (styp ty i) := by
    intro i
    rw [sortedW_apply ty hty i]
    show ty (ix1 (sperm ty i)) = BitVec.ofNat 32 (ty (ix1 (sperm ty i))).toNat
    rw [BitVec.ofNat_toNat, BitVec.setWidth_eq]
  have hcnt : ∀ t : Fin 8, (cntW ty (ix1 t)).toNat = Group.cnt (styp ty) t.val := cntW_toNat ty hty
  let dst : Fin 32768 → Fin 36864 := fun i => ⟨Group.dest (styp ty) i, Group.dest_lt (styp ty) h8 hmono i⟩
  have hdinj : Function.Injective dst := fun i i' h =>
    Group.dest_inj (styp ty) h8 hmono (congrArg Fin.val h)
  have hσ : ∀ (m : BitVec 32) (i : Fin 32768),
      wrapW m (sortIdxW ty) (ix1 i) = BitVec.ofNat 32 (sperm ty i).val := wrapW_sortIdx ty
  have hd : ∀ i : Fin 32768, wrapW 36864#32 (destW ty) (ix1 i) = BitVec.ofNat 32 (dst i).val := fun i =>
    wrapW_dest ty (styp ty) h8 hmono hsorted hcnt 36864#32 i
  have hg : (gidW ty (ix1 (⟨(dst j).val / 512, by have := (dst j).isLt; omega⟩ : Fin 72))).toNat
      = (⟨styp ty j, h8 j⟩ : Fin 8).val := by
    rw [gidW_toNat ty (styp ty) h8 hmono hsorted hcnt]
    exact Group.gid_dest (styp ty) h8 hmono j
  have hterm : ∀ k : Fin 1024,
      paddedX (F := Ideal) x ty (ix2 (dst j) k) * weightT (F := Ideal) w (ix3 ⟨styp ty j, h8 j⟩ k o)
        = x (ix2 (sperm ty j) k) * w (ix3 ⟨(ty (ix1 (sperm ty j))).toNat, hty (sperm ty j)⟩ o k) := by
    intro k
    rw [paddedX_apply ty (sperm ty) dst hσ hd x hdinj j k, weightT_apply]
    rfl
  rw [unsortW_apply ty (sperm ty) dst hσ hd po (sperm_bijective ty).1 j o,
    hpo (dst j) o ⟨styp ty j, h8 j⟩ hg, Finset.sum_congr rfl (fun k _ => hterm k)]
  rfl

end Cert.KernelIdeal.Hand

end
-- ==== Proof.KernelIdealHyps.lean ====
/-
  The side condition the kernel body assumes of the word it loads from its prefetched table holds at every grid point.

  The body reads one word of the 72-word table of tile types and uses it as the row offset of two loads: a block of
  extent one along an axis of extent 8 of the weight array and of the bias array. The offsets are inside the arrays
  exactly when the word, read as a natural number, is below 8. The host computes the table as a clip into [0, 7]:
  the signed minimum with 7 of the signed maximum with 0. Whatever word is clipped, the result is a signed word in
  [0, 7], so it is below 8 as a natural number, and the side condition holds for every word of the table.
-/
import proofs.«407422_j80762565034484_3_alg».proof.Proof.Gen.KernelIdeal.Frame
import Idealize.ShloMosaic.Lib.ValueIdx
import Idealize.ShloMosaic.Lib.Pipeline.Value
import Idealize.ShloMosaic.Lib.StableHlo.Predicate

noncomputable section

namespace Cert.KernelIdeal.Hand

open Cert.KernelIdeal Cert.KernelIdeal.Gen Idealize.ShloMosaic Idealize.ShloMosaic.TcCoe Idealize.SL.Sem Idealize.ShloMosaic.ValueIdx

variable {F : FTy → Type} [FloatOps F] (m : (ℓ : Loc nD τ sig) → Buf (Elt F) ℓ)

/-- A word below 8 passes the body's check: as a row offset, with a block of extent one, it stays inside the axis
    of extent 8 of the weight array and of the bias array; the other offsets are zero and the blocks span those axes. -/
theorem chk_of_lt (w : BitVec 32) (hw : w.toNat < 8) : k0_chk1 w := by
  have e : (Scalar.indexCast w).toNat = w.toNat := rfl
  unfold k0_chk1 k0_off2 k0_off3
  refine ⟨fun a => ?_, fun a => ?_⟩
  · fin_cases a <;> simp [e, S1x1024x1024, S8x1024x1024] <;> omega
  · fin_cases a <;> simp [e, S1x1024, S8x1024] <;> omega

/-- The signed maximum with 0 followed by the signed minimum with 7 lands in [0, 7]: below 8 as a natural number. -/
theorem clip_lt (z : BitVec 32) : (IntOp.minsi 7#32 (IntOp.maxsi 0#32 z)).toNat < 8 := by
  have h7 : (7#32 : BitVec 32).toInt = 7 := by decide
  have h0 : (0#32 : BitVec 32).toInt = 0 := by decide
  have hz : z.toInt = if 2 * z.toNat < 2 ^ 32 then (z.toNat : Int) else (z.toNat : Int) - 2 ^ 32 :=
    BitVec.toInt_eq_toNat_cond z
  have hlt : z.toNat < 2 ^ 32 := z.isLt
  by_cases hneg : z.toInt < 0
  · have hc : z.slt 0#32 = true := by simp only [BitVec.slt, decide_eq_true_eq, h0]; exact hneg
    have e1 : IntOp.maxsi 0#32 z = 0#32 := by unfold IntOp.maxsi; rw [if_pos hc]
    rw [e1]; decide
  · have hc : ¬ z.slt 0#32 = true := by simp only [BitVec.slt, decide_eq_true_eq, h0]; exact hneg
    have e1 : IntOp.maxsi 0#32 z = z := by unfold IntOp.maxsi; rw [if_neg hc]
    rw [e1]
    unfold IntOp.minsi
    by_cases h : (7#32 : BitVec 32).slt z = true
    · rw [if_pos h]; decide
    · rw [if_neg h]
      simp only [BitVec.slt, decide_eq_true_eq, h7] at h
      split_ifs at hz <;> omega

/-- Every word of a table clipped into [0, 7] is below 8. -/
theorem clip_word_lt (Z : IVec S72 32) (i : S72.Idx) :
    (minsi (broadcastInDim S72 ![] bcast_S_S72 (id (constantI S_ 32 7#32)))
      (maxsi (broadcastInDim S72 ![] bcast_S_S72 (id (constantI S_ 32 0#32))) Z) i).toNat < 8 := by
  show (IntOp.minsi (broadcastInDim S72 ![] bcast_S_S72 (id (constantI S_ 32 7#32)) i)
    (IntOp.maxsi (broadcastInDim S72 ![] bcast_S_S72 (id (constantI S_ 32 0#32)) i) (Z i))).toNat < 8
  rw [broadcastInDim_apply _ bcast_S_S72 (id (constantI S_ 32 7#32)) i (fun a => a.elim0) (fun a => a.elim0),
    broadcastInDim_apply _ bcast_S_S72 (id (constantI S_ 32 0#32)) i (fun a => a.elim0) (fun a => a.elim0)]
  exact clip_lt (Z i)

/-- When the table is such a clip, the body's assumed side condition holds at every grid point: the word the body
    loads is the table at some index, and every word of the table is below 8. -/
theorem hyps_of_clip (hO : Ok m) (Z : IVec S72 32)
    (hV : tbl m 0 = minsi (broadcastInDim S72 ![] bcast_S_S72 (id (constantI S_ 32 7#32)))
      (maxsi (broadcastInDim S72 ![] bcast_S_S72 (id (constantI S_ 32 0#32))) Z)) : Hyps m hO := by
  refine Hyps.of fun c t => ?_
  show k0_chk1 ((tbl m 0 : S72.Idx → BitVec 32) _)
  rw [hV]
  exact chk_of_lt _ (clip_word_lt Z _)

end Cert.KernelIdeal.Hand

end
-- ==== Proof.HostGid.lean ====
/-
  Which tile belongs to which type: the prefetched table the region finds is the wrapper's tile-to-type computation of the launch memory's types (the host operations before the region, composed).
-/
import proofs.«407422_j80762565034484_3_alg».proof.Proof.Gen.KernelIdeal.Frame
import proofs.«407422_j80762565034484_3_alg».proof.Proof.Stages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- A one-word vector followed by a seven-word vector, as a function of the two (so that each can be rewritten). -/
private def cat2 (a : IVec S1 32) (b : IVec S7 32) : IVec S8 32 := concatenate S8 0 [⟨S1, a⟩, ⟨S7, b⟩] concatenates_S1_S7_S8_d0
private theorem cat2_def (a : IVec S1 32) (b : IVec S7 32) : concatenate S8 0 [⟨S1, a⟩, ⟨S7, b⟩] concatenates_S1_S7_S8_d0 = cat2 a b := rfl

set_option maxHeartbeats 16000000 in
/-- The table of tile types as the region finds it. -/
theorem V_gid (c : Dev nD) : V m c main_v49 = gidW (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cat2_def]
  (try simp only [TRef.ofBuf, TRef.toBuf, cast_eq])
  rfl

end Cert.KernelIdeal.Hand

end
-- ==== Proof.HostDest.lean ====
/-
  Where each sorted row goes: the destination vector the region (and the operations after it) find is the wrapper's destination computation of the launch memory's types.
-/
import proofs.«407422_j80762565034484_3_alg».proof.Proof.Gen.KernelIdeal.Frame
import proofs.«407422_j80762565034484_3_alg».proof.Proof.Stages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- A one-word vector followed by a seven-word vector, as a function of the two (so that each can be rewritten). -/
private def cat2 (a : IVec S1 32) (b : IVec S7 32) : IVec S8 32 := concatenate S8 0 [⟨S1, a⟩, ⟨S7, b⟩] concatenates_S1_S7_S8_d0
private theorem cat2_def (a : IVec S1 32) (b : IVec S7 32) : concatenate S8 0 [⟨S1, a⟩, ⟨S7, b⟩] concatenates_S1_S7_S8_d0 = cat2 a b := rfl

set_option maxHeartbeats 16000000 in
/-- The destinations as the region finds them. -/
theorem V_dest (c : Dev nD) : V m c main_v38 = destW (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cat2_def]
  (try simp only [TRef.ofBuf, TRef.toBuf, cast_eq])
  rfl

end Cert.KernelIdeal.Hand

end
-- ==== Proof.HostSortIdx.lean ====
/-
  The sorting permutation the region (and the operations after it) find is the stable argsort of the launch memory's clipped types.
-/
import proofs.«407422_j80762565034484_3_alg».proof.Proof.Gen.KernelIdeal.Frame
import proofs.«407422_j80762565034484_3_alg».proof.Proof.Stages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- A one-word vector followed by a seven-word vector, as a function of the two (so that each can be rewritten). -/
private def cat2 (a : IVec S1 32) (b : IVec S7 32) : IVec S8 32 := concatenate S8 0 [⟨S1, a⟩, ⟨S7, b⟩] concatenates_S1_S7_S8_d0
private theorem cat2_def (a : IVec S1 32) (b : IVec S7 32) : concatenate S8 0 [⟨S1, a⟩, ⟨S7, b⟩] concatenates_S1_S7_S8_d0 = cat2 a b := rfl

set_option maxHeartbeats 16000000 in
/-- The sorting permutation as the region finds it. -/
theorem V_sortIdx (c : Dev nD) : V m c main_v1 = sortIdxW (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cat2_def]
  (try simp only [TRef.ofBuf, TRef.toBuf, cast_eq])
  rfl

end Cert.KernelIdeal.Hand

end
-- ==== Proof.HostPaddedX.lean ====
/-
  The padded, type-sorted copy of x that the region's first window stages is the wrapper's gather-then-scatter of the launch memory's x by its types.
-/
import proofs.«407422_j80762565034484_3_alg».proof.Proof.Gen.KernelIdeal.Frame
import proofs.«407422_j80762565034484_3_alg».proof.Proof.Stages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- A one-word vector followed by a seven-word vector, as a function of the two (so that each can be rewritten). -/
private def cat2 (a : IVec S1 32) (b : IVec S7 32) : IVec S8 32 := concatenate S8 0 [⟨S1, a⟩, ⟨S7, b⟩] concatenates_S1_S7_S8_d0
private theorem cat2_def (a : IVec S1 32) (b : IVec S7 32) : concatenate S8 0 [⟨S1, a⟩, ⟨S7, b⟩] concatenates_S1_S7_S8_d0 = cat2 a b := rfl

set_option maxHeartbeats 16000000 in
/-- The padded input as the region finds it. -/
theorem V_paddedX (c : Dev nD) : V m c main_v65 = paddedX (m ((c : Thread nD τ).loc main_arg0)) (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cat2_def]
  (try simp only [TRef.ofBuf, TRef.toBuf, cast_eq])
  rfl

end Cert.KernelIdeal.Hand

end
-- ==== Proof.HostWeightT.lean ====
/-
  The weights the region's second window stages are the launch memory's weights with their last two axes exchanged.
-/
import proofs.«407422_j80762565034484_3_alg».proof.Proof.Gen.KernelIdeal.Frame
import proofs.«407422_j80762565034484_3_alg».proof.Proof.Stages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- A one-word vector followed by a seven-word vector, as a function of the two (so that each can be rewritten). -/
private def cat2 (a : IVec S1 32) (b : IVec S7 32) : IVec S8 32 := concatenate S8 0 [⟨S1, a⟩, ⟨S7, b⟩] concatenates_S1_S7_S8_d0
private theorem cat2_def (a : IVec S1 32) (b : IVec S7 32) : concatenate S8 0 [⟨S1, a⟩, ⟨S7, b⟩] concatenates_S1_S7_S8_d0 = cat2 a b := rfl

set_option maxHeartbeats 16000000 in
/-- The transposed weights as the region finds them. -/
theorem V_weightT (c : Dev nD) : V m c main_v67 = weightT (m ((c : Thread nD τ).loc main_arg2)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cat2_def]
  (try simp only [TRef.ofBuf, TRef.toBuf, cast_eq])
  rfl

end Cert.KernelIdeal.Hand

end
-- ==== Proof.PreTypes.lean ====
import proofs.«407422_j80762565034484_3_alg».proof.Pre_finite_inputs
import proofs.«407422_j80762565034484_3_alg».proof.Proof.Gen.Pre_finite_inputs
import Idealize.ShloMosaic.Lib.ReduceAll
import Idealize.ShloMosaic.Lib.ValueIdx
import Idealize.ShloMosaic.Lib.StableHlo.Predicate

/-!
# What the precondition says about the integer input

The precondition is a conjunction of four scalar booleans: three say that the float inputs are
finite, and the fourth is the conjunction, over all `32768` positions, of
`0 ≤ ty[n]` and `ty[n] < 8` (both compared as signed 32-bit words).  When the whole
precondition is true, the fourth conjunct is true, hence so is each of its `32768` terms;
a word that is signed-nonnegative and signed-below `8` has unsigned value below `8`.
-/

noncomputable section

namespace Cert.Hand.PreTypes

open Idealize.ShloMosaic Idealize.ShloMosaic.ValueIdx

/-- The scalar shape has exactly one index. -/
instance : Subsingleton Cert.Pre_finite_inputs.S_.Idx := ⟨fun a b => funext fun d => d.elim0⟩

/-- A 32-bit word that is at least `0` and less than `8` as a signed integer is less than `8`
as a natural number: a word whose unsigned value is `2^31` or more is negative when read signed. -/
theorem toNat_lt (w : BitVec 32) (h0 : IntOp.cmpi .sge w (0#32) = 1#1)
    (h8 : IntOp.cmpi .slt w (8#32) = 1#1) : w.toNat < 8 := by
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have hlt := w.isLt
  rw [BitVec.toInt_eq_toNat_cond] at h0 h8
  split at h0 <;> omega

/-- If the precondition holds then every entry of the integer input is a type in `0..7`. -/
theorem types_lt_of_pre {F : FTy → Type} [FloatOps F]
    (x : FVec F Cert.Pre_finite_inputs.S32768x1024 .f32)
    (ty : IVec Cert.Pre_finite_inputs.S32768 32)
    (w : FVec F Cert.Pre_finite_inputs.S8x1024x1024 .f32)
    (b : FVec F Cert.Pre_finite_inputs.S8x1024 .f32)
    (h : Cert.Pre_finite_inputs.fn (F := F) x ty w b = fun _ => 1#1) (n : Fin 32768) :
    (ty (ix1 n)).toNat < 8 := by
  have e := congrFun h ix0
  unfold Cert.Pre_finite_inputs.fn Cert.Pre_finite_inputs.fn_part1 at e
  dsimp only at e
  have e2 := (IntOp.andi_eq_one.1 e).2
  have e3 := Host.reduce_andi_all _ _ _ _ _ e2 (ix1 n)
  obtain ⟨h0, h8⟩ := IntOp.andi_eq_one.1 e3
  exact toNat_lt _ h0 h8

end Cert.Hand.PreTypes

end
-- ==== Proof.KernelRun.lean ====
/-
  The idealized kernel program's run with its result NAMED, and that result as the reference's function.

  Under the precondition every type word is in [0, 8). Then, on every device: the region's output array is, row r,
  the row r of the padded input times the weight slab of tile r / 512's type, plus that type's bias row (the frame
  certificate's value, read block by block); the operations after the region gather row dest j to place j and scatter
  place j to position sperm j; and the words dest, sperm and the tile types are exactly what the grouping arithmetic
  says: sorted position j of type s lands in a tile of type s, no two positions share a row, every position is some
  sorted position's source. So position n of the result is  Σ_k x[n,k] · w[ty n, o, k] + b[ty n, o]  — the
  reference's element, index by index.
-/
import proofs.«407422_j80762565034484_3_alg».proof.Defs
import proofs.«407422_j80762565034484_3_alg».proof.Proof.Gen.KernelIdeal.Frame
import proofs.«407422_j80762565034484_3_alg».proof.Proof.Gen.Pre_finite_inputs
import proofs.«407422_j80762565034484_3_alg».proof.Proof.Stages
import proofs.«407422_j80762565034484_3_alg».proof.Proof.KernelTail
import proofs.«407422_j80762565034484_3_alg».proof.Proof.KernelArray
import proofs.«407422_j80762565034484_3_alg».proof.Proof.KernelValue
import proofs.«407422_j80762565034484_3_alg».proof.Proof.KernelIdealHyps
import proofs.«407422_j80762565034484_3_alg».proof.Proof.HostGid
import proofs.«407422_j80762565034484_3_alg».proof.Proof.HostDest
import proofs.«407422_j80762565034484_3_alg».proof.Proof.HostSortIdx
import proofs.«407422_j80762565034484_3_alg».proof.Proof.HostPaddedX
import proofs.«407422_j80762565034484_3_alg».proof.Proof.HostWeightT
import proofs.«407422_j80762565034484_3_alg».proof.Proof.PreTypes
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The pipeline's side condition on its tables: none (no index map reads the table). -/
theorem ok : Ok m := trivial

/-- The body's side condition at every point: the tile's type is a clipped word. -/
theorem hyps : Hyps m (ok m) :=
  hyps_of_clip m (ok m) _ (by
    show V m (0 : Dev nD) main_v49 = _
    rw [V_gid]
    rfl)

/-- The launch memory's arguments on device c. -/
abbrev argX (c : Dev nD) : FVec Ideal S32768x1024 .f32 := m ((c : Thread nD τ).loc main_arg0)
abbrev argTy (c : Dev nD) : IVec S32768 32 := m ((c : Thread nD τ).loc main_arg1)
abbrev argW (c : Dev nD) : FVec Ideal S8x1024x1024 .f32 := m ((c : Thread nD τ).loc main_arg2)
abbrev argB (c : Dev nD) : FVec Ideal S8x1024 .f32 := m ((c : Thread nD τ).loc main_arg3)

/-- What the result buffer holds after the run: the un-sorting of the region's output array. -/
def result (c : Dev nD) : FVec Ideal S32768x1024 .f32 :=
  unsortRaw ((dats m (ok m) (hyps m) 0 c).arrAt 3 (cfgM m (ok m)).N) (V m c main_v1) (V m c main_v38)

/-- The idealized kernel program runs, its result buffer ends at `result` and its arguments unchanged. -/
theorem run_named : θ_run defs (onTc (τ := τ) (main (F := Ideal))) ⟨m, fun _ => 0, ρ⟩ (fun r => ∀ c : Dev nD,
      r.2.mem ((c.tc : Thread nD τ).loc main_v83) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v83 (by decide : main_v83 ∈ Pipeline.restRefs sig spec0)).trans (tail_result m (ok m) (hyps m) c),
      (((h c).2 main_arg0 (by decide : main_arg0 ∈ Pipeline.restRefs sig spec0)).trans (W_main_arg0 m (ok m) (dats m (ok m) (hyps m)) c)),
      (((h c).2 main_arg1 (by decide : main_arg1 ∈ Pipeline.restRefs sig spec0)).trans (W_main_arg1 m (ok m) (dats m (ok m) (hyps m)) c)),
      (((h c).2 main_arg2 (by decide : main_arg2 ∈ Pipeline.restRefs sig spec0)).trans (W_main_arg2 m (ok m) (dats m (ok m) (hyps m)) c)),
      ((h c).1 2).trans (((dats m (ok m) (hyps m) 0 c).arrAt_in 2 rfl _).trans ((A_eq m (ok m) (hyps m) c 2).trans (V_main_arg3 m c)))⟩)
    (run_main m ρ (ok m) (hyps m))

/-- The result, index by index, when every type word is in [0, 8). -/
theorem result_apply (c : Dev nD) (hty : ∀ n : Fin 32768, (argTy m c (ix1 n)).toNat < 8) (n : Fin 32768) (o : Fin 1024) :
    result m c (ix2 n o)
      = (∑ k : Fin 1024, argX m c (ix2 n k) * argW m c (ix3 ⟨(argTy m c (ix1 n)).toNat, hty n⟩ o k))
        + argB m c (ix2 ⟨(argTy m c (ix1 n)).toNat, hty n⟩ o) := by
  have hc : c = 0 := Subsingleton.elim _ _
  unfold result
  rw [V_sortIdx, V_dest]
  refine kernel_value (argTy m c) hty (argX m c) (argW m c) (argB m c)
    ((dats m (ok m) (hyps m) 0 c).arrAt 3 (cfgM m (ok m)).N) (fun r o' g hg => ?_) n o
  have hg' : (tbl m 0 (ix1 (⟨r.val / 512, by omega⟩ : Fin 72))).toNat = g.val := by
    show (V m (0 : Dev nD) main_v49 (ix1 (⟨r.val / 512, by omega⟩ : Fin 72))).toNat = g.val
    rw [V_gid, ← hc]
    exact hg
  have e1 : acts m c = paddedX (argX m c) (argTy m c) := V_paddedX m c
  have e2 : slabs m c = weightT (argW m c) := V_weightT m c
  have e3 : biases m c = argB m c := V_main_arg3 m c
  rw [padded_out_apply m (ok m) (hyps m) c r o' g hg', e1, e2, e3]

end Cert.KernelIdeal.Hand

end
-- ==== Proof.KernelHyps.lean ====
/-
  The side condition the kernel body assumes of the word it loads from its prefetched table holds at every grid point.

  The body reads one word of the 72-word table of tile types and uses it as the row offset of two loads: a block of
  extent one along an axis of extent 8 of the weight array and of the bias array. The offsets are inside the arrays
  exactly when the word, read as a natural number, is below 8. The host computes the table as a clip into [0, 7]:
  the signed minimum with 7 of the signed maximum with 0. Whatever word is clipped, the result is a signed word in
  [0, 7], so it is below 8 as a natural number, and the side condition holds for every word of the table.
-/
import proofs.«407422_j80762565034484_3_alg».proof.Proof.Gen.Kernel.Frame
import Idealize.ShloMosaic.Lib.ValueIdx
import Idealize.ShloMosaic.Lib.Pipeline.Value
import Idealize.ShloMosaic.Lib.StableHlo.Predicate

noncomputable section

namespace Cert.Kernel.Hand

open Cert.Kernel Cert.Kernel.Gen Idealize.ShloMosaic Idealize.ShloMosaic.TcCoe Idealize.SL.Sem Idealize.ShloMosaic.ValueIdx

variable {F : FTy → Type} [FloatOps F] (m : (ℓ : Loc nD τ sig) → Buf (Elt F) ℓ)

/-- A word below 8 passes the body's check: as a row offset, with a block of extent one, it stays inside the axis
    of extent 8 of the weight array and of the bias array; the other offsets are zero and the blocks span those axes. -/
theorem chk_of_lt (w : BitVec 32) (hw : w.toNat < 8) : k0_chk1 w := by
  have e : (Scalar.indexCast w).toNat = w.toNat := rfl
  unfold k0_chk1 k0_off2 k0_off3
  refine ⟨fun a => ?_, fun a => ?_⟩
  · fin_cases a <;> simp [e, S1x1024x1024, S8x1024x1024] <;> omega
  · fin_cases a <;> simp [e, S1x1024, S8x1024] <;> omega

/-- The signed maximum with 0 followed by the signed minimum with 7 lands in [0, 7]: below 8 as a natural number. -/
theorem clip_lt (z : BitVec 32) : (IntOp.minsi 7#32 (IntOp.maxsi 0#32 z)).toNat < 8 := by
  have h7 : (7#32 : BitVec 32).toInt = 7 := by decide
  have h0 : (0#32 : BitVec 32).toInt = 0 := by decide
  have hz : z.toInt = if 2 * z.toNat < 2 ^ 32 then (z.toNat : Int) else (z.toNat : Int) - 2 ^ 32 :=
    BitVec.toInt_eq_toNat_cond z
  have hlt : z.toNat < 2 ^ 32 := z.isLt
  by_cases hneg : z.toInt < 0
  · have hc : z.slt 0#32 = true := by simp only [BitVec.slt, decide_eq_true_eq, h0]; exact hneg
    have e1 : IntOp.maxsi 0#32 z = 0#32 := by unfold IntOp.maxsi; rw [if_pos hc]
    rw [e1]; decide
  · have hc : ¬ z.slt 0#32 = true := by simp only [BitVec.slt, decide_eq_true_eq, h0]; exact hneg
    have e1 : IntOp.maxsi 0#32 z = z := by unfold IntOp.maxsi; rw [if_neg hc]
    rw [e1]
    unfold IntOp.minsi
    by_cases h : (7#32 : BitVec 32).slt z = true
    · rw [if_pos h]; decide
    · rw [if_neg h]
      simp only [BitVec.slt, decide_eq_true_eq, h7] at h
      split_ifs at hz <;> omega

/-- Every word of a table clipped into [0, 7] is below 8. -/
theorem clip_word_lt (Z : IVec S72 32) (i : S72.Idx) :
    (minsi (broadcastInDim S72 ![] bcast_S_S72 (id (constantI S_ 32 7#32)))
      (maxsi (broadcastInDim S72 ![] bcast_S_S72 (id (constantI S_ 32 0#32))) Z) i).toNat < 8 := by
  show (IntOp.minsi (broadcastInDim S72 ![] bcast_S_S72 (id (constantI S_ 32 7#32)) i)
    (IntOp.maxsi (broadcastInDim S72 ![] bcast_S_S72 (id (constantI S_ 32 0#32)) i) (Z i))).toNat < 8
  rw [broadcastInDim_apply _ bcast_S_S72 (id (constantI S_ 32 7#32)) i (fun a => a.elim0) (fun a => a.elim0),
    broadcastInDim_apply _ bcast_S_S72 (id (constantI S_ 32 0#32)) i (fun a => a.elim0) (fun a => a.elim0)]
  exact clip_lt (Z i)

/-- When the table is such a clip, the body's assumed side condition holds at every grid point: the word the body
    loads is the table at some index, and every word of the table is below 8. -/
theorem hyps_of_clip (hO : Ok m) (Z : IVec S72 32)
    (hV : tbl m 0 = minsi (broadcastInDim S72 ![] bcast_S_S72 (id (constantI S_ 32 7#32)))
      (maxsi (broadcastInDim S72 ![] bcast_S_S72 (id (constantI S_ 32 0#32))) Z)) : Hyps m hO := by
  refine Hyps.of fun c t => ?_
  show k0_chk1 ((tbl m 0 : S72.Idx → BitVec 32) _)
  rw [hV]
  exact chk_of_lt _ (clip_word_lt Z _)

end Cert.Kernel.Hand

end
-- ==== Proof.KernelHostGid.lean ====
/-
  The table of tile types that the word-level program's region finds is a clip to [0, 7] of some vector of words:
  the last two host operations that write it are a signed maximum with 0 and a signed minimum with 7, whatever the
  operations before them computed.
-/
import proofs.«407422_j80762565034484_3_alg».proof.Proof.Gen.Kernel.Frame
import Idealize.ShloMosaic.Lib.StableHlo.Run

set_option maxRecDepth 16384

noncomputable section

namespace Cert.Kernel.Hand

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- A one-word vector followed by a seven-word vector, as a function of the two (so that each can be rewritten). -/
private def cat2 (a : IVec S1 32) (b : IVec S7 32) : IVec S8 32 := concatenate S8 0 [⟨S1, a⟩, ⟨S7, b⟩] concatenates_S1_S7_S8_d0
private theorem cat2_def (a : IVec S1 32) (b : IVec S7 32) : concatenate S8 0 [⟨S1, a⟩, ⟨S7, b⟩] concatenates_S1_S7_S8_d0 = cat2 a b := rfl

set_option maxHeartbeats 16000000 in
/-- The table of tile types as the region finds it is a clip of some words to [0, 7]. -/
theorem V_gid_clip (c : Dev nD) : ∃ Z : IVec S72 32, V m c main_v49
    = minsi (broadcastInDim S72 ![] bcast_S_S72 (id (constantI S_ 32 7#32))) (maxsi (broadcastInDim S72 ![] bcast_S_S72 (id (constantI S_ 32 0#32))) Z) := by
  refine ⟨?Z, ?_⟩
  case Z => exact V m c main_v48
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cat2_def]
  (try simp only [TRef.ofBuf, TRef.toBuf, cast_eq])
  all_goals rfl

end Cert.Kernel.Hand

end
-- ==== Proof.lean ====
/-
  TypedLinear, grouped by type:  out[n] = weight[types[n]] · x[n] + bias[types[n]],  for types in [0, 8).

  The kernel's wrapper sorts the rows by type, pads each type's run to whole tiles of 512 rows, runs ONE matrix product
  per tile against that tile's weight slab (the tile's type read from a prefetched table), and un-sorts the result; the
  reference computes every type's product and selects. At the ideal instance the two agree element by element:
  position n of the kernel's result is the padded row dest(j) of the sorted position j = sperm⁻¹(n), whose tile has
  type types[n] (the grouping arithmetic), so it is  Σ_k x[n,k] · w[types n, o, k] + b[types n, o]  — the reference's
  element (its dot product read at the selected type, plus the gathered bias). No law beyond reading both sides at an
  index is needed; of the precondition only the range of the type words is used (outside it the reference wraps
  negative types and fills the rest with NaN where the kernel clips).

  The frames: the two kernel programs' generated frame certificates hold under the side condition that every tile's
  type word is below 8, which is a clip's range; the reference's frame is its run with the result dropped. The ideal
  pass rewrote nothing, so the idealization claim is trivial.
-/
import proofs.«407422_j80762565034484_3_alg».proof.Defs
import proofs.«407422_j80762565034484_3_alg».proof.Proof.Gen.Kernel
import proofs.«407422_j80762565034484_3_alg».proof.Proof.Gen.Kernel.Frame
import proofs.«407422_j80762565034484_3_alg».proof.Proof.Gen.KernelIdeal
import proofs.«407422_j80762565034484_3_alg».proof.Proof.Gen.KernelIdeal.Frame
import proofs.«407422_j80762565034484_3_alg».proof.Proof.Gen.ReferenceIdeal
import proofs.«407422_j80762565034484_3_alg».proof.Proof.Gen.Pre_finite_inputs
import proofs.«407422_j80762565034484_3_alg».proof.Proof.RefRun
import proofs.«407422_j80762565034484_3_alg».proof.Proof.RefRead
import proofs.«407422_j80762565034484_3_alg».proof.Proof.RefValue
import proofs.«407422_j80762565034484_3_alg».proof.Proof.KernelRun
import proofs.«407422_j80762565034484_3_alg».proof.Proof.KernelHyps
import proofs.«407422_j80762565034484_3_alg».proof.Proof.KernelHostGid
import proofs.«407422_j80762565034484_3_alg».proof.Proof.PreTypes
import Idealize.ShloMosaic.Adequacy
import Idealize.ShloMosaic.Init
import Idealize.ShloMosaic.Lib.ValueIdx

noncomputable section

namespace Cert.Proof

open Idealize.ShloMosaic Idealize.SL.Sem Idealize.ShloMosaic.TcCoe Idealize.ShloMosaic.ValueIdx

/-- The word-level kernel runs and keeps its arguments: its generated frame, the tile types being clipped words. -/
theorem frame_k : Cert.frame_Kernel := fun m ρ _ =>
  Cert.Kernel.Gen.frame m ρ trivial
    (by
      obtain ⟨Z, hZ⟩ := Cert.Kernel.Hand.V_gid_clip m (0 : Dev Cert.Kernel.nD)
      exact Cert.Kernel.Hand.hyps_of_clip m trivial Z hZ)

/-- The idealized kernel runs and keeps its arguments. -/
theorem frame_ki : Cert.frame_KernelIdeal := fun m ρ _ =>
  Cert.KernelIdeal.Gen.frame m ρ (Cert.KernelIdeal.Hand.ok m) (Cert.KernelIdeal.Hand.hyps m)

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments, both idealized programs run and end with the same result: the kernel's
    un-sorted array is, element by element, the reference's selected product plus bias. -/
theorem algebraic : Cert.algebraic_KernelIdeal_ReferenceIdeal := by
  intro m ρ m' ρ' hpre hagree
  refine ⟨fun c => Cert.KernelIdeal.Hand.result m c, Cert.KernelIdeal.Hand.run_named m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v11_eq, (hagree c).1, (hagree c).2.1, (hagree c).2.2.1, (hagree c).2.2.2]
  have hty : ∀ n : Fin 32768, (Cert.KernelIdeal.Hand.argTy m c (ix1 n)).toNat < 8 := fun n =>
    Cert.Hand.PreTypes.types_lt_of_pre _ _ _ _ (hpre c) n
  funext i
  obtain ⟨n, o, rfl⟩ : ∃ (n : Fin 32768) (o : Fin 1024), i = ix2 n o := ⟨i 0, i 1, eq_ix2 i⟩
  refine (Cert.ReferenceIdeal.RefValue.ref_apply _ _ _ _ n o (hty n)).trans ?_
  exact (Cert.KernelIdeal.Hand.result_apply m c hty n o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
